-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S3x512x32 : Shape := ⟨3, ![3, 512, 32]⟩
abbrev S3x1x32 : Shape := ⟨3, ![3, 1, 32]⟩
abbrev S3x32x16 : Shape := ⟨3, ![3, 32, 16]⟩
abbrev S3x1x16 : Shape := ⟨3, ![3, 1, 16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S3x512x32 : S_.BroadcastsInDim S3x512x32 (![] : Fin 0 → Fin S3x512x32.rank)
  reducesTo_S3x512x32_S_d0_1_2 : S3x512x32.ReducesTo [0, 1, 2] S_
  bcast_S_S3x1x32 : S_.BroadcastsInDim S3x1x32 (![] : Fin 0 → Fin S3x1x32.rank)
  reducesTo_S3x1x32_S_d0_1_2 : S3x1x32.ReducesTo [0, 1, 2] S_
  bcast_S_S3x32x16 : S_.BroadcastsInDim S3x32x16 (![] : Fin 0 → Fin S3x32x16.rank)
  reducesTo_S3x32x16_S_d0_1_2 : S3x32x16.ReducesTo [0, 1, 2] S_
  bcast_S_S3x1x16 : S_.BroadcastsInDim S3x1x16 (![] : Fin 0 → Fin S3x1x16.rank)
  reducesTo_S3x1x16_S_d0_1_2 : S3x1x16.ReducesTo [0, 1, 2] S_

variable [Facts]

def fn_part1 {F : FTy → Type} [FloatOps F] (main_arg4 : FVec F S3x1x16 .f32) (main_v13 : IVec S_ 1) (main_v16 : IVec S3x32x16 1) : IVec S_ 1 :=
  let main_c_5 : IVec S_ 1 := constantI S_ 1 1#1
  let main_v17 : IVec S_ 1 := (fun x v => Host.reduce IntOp.andi x v reducesTo_S3x32x16_S_d0_1_2 h_S_) main_v16 main_c_5
  let main_v18 : IVec S_ 1 := andi main_v13 main_v17
  let main_v19 : FVec F S3x1x16 .f32 := Host.absf main_arg4
  let main_cst_6 : FVec F S_ .f32 := constant S_ .f32 0x7F800000#32
  let main_v20 : FVec F S3x1x16 .f32 := broadcastInDim S3x1x16 ![] bcast_S_S3x1x16 main_cst_6
  let main_v21 : IVec S3x1x16 1 := cmpf .olt main_v19 main_v20
  let main_c_7 : IVec S_ 1 := constantI S_ 1 1#1
  let main_v22 : IVec S_ 1 := (fun x v => Host.reduce IntOp.andi x v reducesTo_S3x1x16_S_d0_1_2 h_S_) main_v21 main_c_7
  let main_v23 : IVec S_ 1 := andi main_v18 main_v22
  main_v23

def fn {F : FTy → Type} [FloatOps F] (main_arg0 : FVec F S8192x512 .f32) (main_arg1 : FVec F S3x512x32 .f32) (main_arg2 : FVec F S3x1x32 .f32) (main_arg3 : FVec F S3x32x16 .f32) (main_arg4 : FVec F S3x1x16 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S3x512x32 .f32 := Host.absf main_arg1
  let main_cst_0 : FVec F S_ .f32 := constant S_ .f32 0x7F800000#32
  let main_v5 : FVec F S3x512x32 .f32 := broadcastInDim S3x512x32 ![] bcast_S_S3x512x32 main_cst_0
  let main_v6 : IVec S3x512x32 1 := cmpf .olt main_v4 main_v5
  let main_c_1 : IVec S_ 1 := constantI S_ 1 1#1
  let main_v7 : IVec S_ 1 := (fun x v => Host.reduce IntOp.andi x v reducesTo_S3x512x32_S_d0_1_2 h_S_) main_v6 main_c_1
  let main_v8 : IVec S_ 1 := andi main_v3 main_v7
  let main_v9 : FVec F S3x1x32 .f32 := Host.absf main_arg2
  let main_cst_2 : FVec F S_ .f32 := constant S_ .f32 0x7F800000#32
  let main_v10 : FVec F S3x1x32 .f32 := broadcastInDim S3x1x32 ![] bcast_S_S3x1x32 main_cst_2
  let main_v11 : IVec S3x1x32 1 := cmpf .olt main_v9 main_v10
  let main_c_3 : IVec S_ 1 := constantI S_ 1 1#1
  let main_v12 : IVec S_ 1 := (fun x v => Host.reduce IntOp.andi x v reducesTo_S3x1x32_S_d0_1_2 h_S_) main_v11 main_c_3
  let main_v13 : IVec S_ 1 := andi main_v8 main_v12
  let main_v14 : FVec F S3x32x16 .f32 := Host.absf main_arg3
  let main_cst_4 : FVec F S_ .f32 := constant S_ .f32 0x7F800000#32
  let main_v15 : FVec F S3x32x16 .f32 := broadcastInDim S3x32x16 ![] bcast_S_S3x32x16 main_cst_4
  let main_v16 : IVec S3x32x16 1 := cmpf .olt main_v14 main_v15
  fn_part1 (F := F) main_arg4 main_v13 main_v16
-- ==== Kernel.lean ====
abbrev S8192x512 : Shape := ⟨2, ![8192, 512]⟩
abbrev S3x512x32 : Shape := ⟨3, ![3, 512, 32]⟩
abbrev S3x1x32 : Shape := ⟨3, ![3, 1, 32]⟩
abbrev S3x32x16 : Shape := ⟨3, ![3, 32, 16]⟩
abbrev S3x1x16 : Shape := ⟨3, ![3, 1, 16]⟩
abbrev S512x3x32 : Shape := ⟨3, ![512, 3, 32]⟩
abbrev S512x96 : Shape := ⟨2, ![512, 96]⟩
abbrev S_ : Shape := ⟨0, ![]⟩
abbrev S512x128 : Shape := ⟨2, ![512, 128]⟩
abbrev S1x96 : Shape := ⟨2, ![1, 96]⟩
abbrev S1x128 : Shape := ⟨2, ![1, 128]⟩
abbrev S128x128 : Shape := ⟨2, ![128, 128]⟩
abbrev S1x32x16 : Shape := ⟨3, ![1, 32, 16]⟩
abbrev S32x16 : Shape := ⟨2, ![32, 16]⟩
abbrev S1 : Shape := ⟨1, ![1]⟩
abbrev S2 : Shape := ⟨1, ![2]⟩
abbrev S1x48 : Shape := ⟨2, ![1, 48]⟩
abbrev S8192x128 : Shape := ⟨2, ![8192, 128]⟩
abbrev S1024x512 : Shape := ⟨2, ![1024, 512]⟩
abbrev S1024x128 : Shape := ⟨2, ![1024, 128]⟩
abbrev S8192x8192 : Shape := ⟨2, ![8192, 8192]⟩
abbrev S1024x1024 : Shape := ⟨2, ![1024, 1024]⟩

abbrev nBuf : Space → Nat
  | .hbm => 46
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S3x512x32, .f32⟩
  | .hbm, ⟨2, _⟩ => ⟨S3x1x32, .f32⟩
  | .hbm, ⟨3, _⟩ => ⟨S3x32x16, .f32⟩
  | .hbm, ⟨4, _⟩ => ⟨S3x1x16, .f32⟩
  | .hbm, ⟨5, _⟩ => ⟨S512x3x32, .f32⟩
  | .hbm, ⟨6, _⟩ => ⟨S512x96, .f32⟩
  | .hbm, ⟨7, _⟩ => ⟨S_, .i32⟩
  | .hbm, ⟨8, _⟩ => ⟨S_, .f32⟩
  | .hbm, ⟨9, _⟩ => ⟨S512x128, .f32⟩
  | .hbm, ⟨10, _⟩ => ⟨S1x96, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S_, .f32⟩
  | .hbm, ⟨15, _⟩ => ⟨S128x128, .f32⟩
  | .hbm, ⟨16, _⟩ => ⟨S1x32x16, .f32⟩
  | .hbm, ⟨17, _⟩ => ⟨S32x16, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S128x128, .f32⟩
  | .hbm, ⟨24, _⟩ => ⟨S1x32x16, .f32⟩
  | .hbm, ⟨25, _⟩ => ⟨S32x16, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S128x128, .f32⟩
  | .hbm, ⟨32, _⟩ => ⟨S1x32x16, .f32⟩
  | .hbm, ⟨33, _⟩ => ⟨S32x16, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S128x128, .f32⟩
  | .hbm, ⟨40, _⟩ => ⟨S1x48, .f32⟩
  | .hbm, ⟨41, _⟩ => ⟨S_, .i32⟩
  | .hbm, ⟨42, _⟩ => ⟨S_, .f32⟩
  | .hbm, ⟨43, _⟩ => ⟨S1x128, .f32⟩
  | .hbm, ⟨44, _⟩ => ⟨S8192x128, .bf16⟩
  | .hbm, ⟨45, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x1024, .f32⟩
  | .local _ .vmem, ⟨13, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_call2_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  transposes_S3x512x32_S512x3x32_1_0_2 : S3x512x32.Transposes [1, 0, 2] S512x3x32
  shapeCasts_S512x3x32_S512x96 : S512x3x32.ShapeCasts S512x96
  pads_S512x96_S512x128_000_0320 : S512x96.Pads (![0, 0] : Fin 2 → Nat) ![0, 32] ![0, 0] S512x128
  h_S_ : 0 < S_.numel
  shapeCasts_S3x1x32_S1x96 : S3x1x32.ShapeCasts S1x96
  pads_S1x96_S1x128_000_0320 : S1x96.Pads (![0, 0] : Fin 2 → Nat) ![0, 32] ![0, 0] S1x128
  bcast_S_S128x128 : S_.BroadcastsInDim S128x128 (![] : Fin 0 → Fin S128x128.rank)
  slices_S3x32x16_S1x32x16_0_0_0 : S3x32x16.Slices ![0, 0, 0] S1x32x16
  shapeCasts_S1x32x16_S32x16 : S1x32x16.ShapeCasts S32x16
  bcast_S_S1 : S_.BroadcastsInDim S1 (![] : Fin 0 → Fin S1.rank)
  concatenates_S1_S1_S2_d0 : Shape.Concatenates [S1, S1] S2 0
  slices_S3x32x16_S1x32x16_1_0_0 : S3x32x16.Slices ![1, 0, 0] S1x32x16
  slices_S3x32x16_S1x32x16_2_0_0 : S3x32x16.Slices ![2, 0, 0] S1x32x16
  shapeCasts_S3x1x16_S1x48 : S3x1x16.ShapeCasts S1x48
  pads_S1x48_S1x128_000_0800 : S1x48.Pads (![0, 0] : Fin 2 → Nat) ![0, 80] ![0, 0] S1x128
  inb_S1024x512_S1024x512_0_0 : ∀ a, (![0, 0] : Fin 2 → Nat) a + S1024x512.size a ≤ S1024x512.size a
  h_S1024x512 : 0 < S1024x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  scatter_S128x128_S2_S32x16_01_n_01_0_wf : ScatterDims.WF S128x128 S2 S32x16 [0, 1] [] [0, 1] 0
  dot_S1024x512_S512x128_S1024x128_1_0_0_1_n_n_wf : DotDims.WF S1024x512 S512x128 S1024x128 [1] [0] [0] [1] [] []
  dot_S1024x128_S128x128_S1024x128_1_0_0_1_n_n_wf : DotDims.WF S1024x128 S128x128 S1024x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S8192x128.size a
  hwx0_5 : ∀ i : grid0.Coords, EltTy.bits .bf16 = 32 ∨ (Rect.block (s := S8192x128) S1024x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def scatter_S128x128_S2_S32x16_01_n_01_0 : ScatterDims S128x128 S2 S32x16 where
  updateWindowDims := [0, 1]
  insertedWindowDims := []
  scatterDimsToOperandDims := [0, 1]
  indexVectorDim := 0
  wf := scatter_S128x128_S2_S32x16_01_n_01_0_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x512 : Shape := ⟨2, ![8192, 512]⟩
abbrev S3x512x32 : Shape := ⟨3, ![3, 512, 32]⟩
abbrev S3x1x32 : Shape := ⟨3, ![3, 1, 32]⟩
abbrev S3x32x16 : Shape := ⟨3, ![3, 32, 16]⟩
abbrev S3x1x16 : Shape := ⟨3, ![3, 1, 16]⟩
abbrev S_ : Shape := ⟨0, ![]⟩
abbrev S512x128 : Shape := ⟨2, ![512, 128]⟩
abbrev S1x128 : Shape := ⟨2, ![1, 128]⟩
abbrev S128x128 : Shape := ⟨2, ![128, 128]⟩
abbrev S1x512x32 : Shape := ⟨3, ![1, 512, 32]⟩
abbrev S512x32 : Shape := ⟨2, ![512, 32]⟩
abbrev S1 : Shape := ⟨1, ![1]⟩
abbrev S1x1x32 : Shape := ⟨3, ![1, 1, 32]⟩
abbrev S1x32 : Shape := ⟨2, ![1, 32]⟩
abbrev S1x32x16 : Shape := ⟨3, ![1, 32, 16]⟩
abbrev S32x16 : Shape := ⟨2, ![32, 16]⟩
abbrev S2 : Shape := ⟨1, ![2]⟩
abbrev S1x1x16 : Shape := ⟨3, ![1, 1, 16]⟩
abbrev S1x16 : Shape := ⟨2, ![1, 16]⟩
abbrev S8192x128 : Shape := ⟨2, ![8192, 128]⟩
abbrev S512x512 : Shape := ⟨2, ![512, 512]⟩
abbrev S8192x8192 : Shape := ⟨2, ![8192, 8192]⟩

abbrev nBuf : Space → Nat
  | .hbm => 84
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S3x512x32, .f32⟩
  | .hbm, ⟨2, _⟩ => ⟨S3x1x32, .f32⟩
  | .hbm, ⟨3, _⟩ => ⟨S3x32x16, .f32⟩
  | .hbm, ⟨4, _⟩ => ⟨S3x1x16, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S1x128, .f32⟩
  | .hbm, ⟨9, _⟩ => ⟨S_, .f32⟩
  | .hbm, ⟨10, _⟩ => ⟨S128x128, .f32⟩
  | .hbm, ⟨11, _⟩ => ⟨S_, .f32⟩
  | .hbm, ⟨12, _⟩ => ⟨S1x128, .f32⟩
  | .hbm, ⟨13, _⟩ => ⟨S1x512x32, .f32⟩
  | .hbm, ⟨14, _⟩ => ⟨S512x32, .f32⟩
  | .hbm, ⟨15, _⟩ => ⟨S_, .i32⟩
  | .hbm, ⟨16, _⟩ => ⟨S1, .i32⟩
  | .hbm, ⟨17, _⟩ => ⟨S512x128, .f32⟩
  | .hbm, ⟨18, _⟩ => ⟨S1x1x32, .f32⟩
  | .hbm, ⟨19, _⟩ => ⟨S1x32, .f32⟩
  | .hbm, ⟨20, _⟩ => ⟨S_, .i32⟩
  | .hbm, ⟨21, _⟩ => ⟨S1, .i32⟩
  | .hbm, ⟨22, _⟩ => ⟨S1x128, .f32⟩
  | .hbm, ⟨23, _⟩ => ⟨S1x32x16, .f32⟩
  | .hbm, ⟨24, _⟩ => ⟨S32x16, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S128x128, .f32⟩
  | .hbm, ⟨31, _⟩ => ⟨S1x1x16, .f32⟩
  | .hbm, ⟨32, _⟩ => ⟨S1x16, .f32⟩
  | .hbm, ⟨33, _⟩ => ⟨S_, .i32⟩
  | .hbm, ⟨34, _⟩ => ⟨S1, .i32⟩
  | .hbm, ⟨35, _⟩ => ⟨S1x128, .f32⟩
  | .hbm, ⟨36, _⟩ => ⟨S1x512x32, .f32⟩
  | .hbm, ⟨37, _⟩ => ⟨S512x32, .f32⟩
  | .hbm, ⟨38, _⟩ => ⟨S_, .i32⟩
  | .hbm, ⟨39, _⟩ => ⟨S1, .i32⟩
  | .hbm, ⟨40, _⟩ => ⟨S512x128, .f32⟩
  | .hbm, ⟨41, _⟩ => ⟨S1x1x32, .f32⟩
  | .hbm, ⟨42, _⟩ => ⟨S1x32, .f32⟩
  | .hbm, ⟨43, _⟩ => ⟨S_, .i32⟩
  | .hbm, ⟨44, _⟩ => ⟨S1, .i32⟩
  | .hbm, ⟨45, _⟩ => ⟨S1x128, .f32⟩
  | .hbm, ⟨46, _⟩ => ⟨S1x32x16, .f32⟩
  | .hbm, ⟨47, _⟩ => ⟨S32x16, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S128x128, .f32⟩
  | .hbm, ⟨54, _⟩ => ⟨S1x1x16, .f32⟩
  | .hbm, ⟨55, _⟩ => ⟨S1x16, .f32⟩
  | .hbm, ⟨56, _⟩ => ⟨S_, .i32⟩
  | .hbm, ⟨57, _⟩ => ⟨S1, .i32⟩
  | .hbm, ⟨58, _⟩ => ⟨S1x128, .f32⟩
  | .hbm, ⟨59, _⟩ => ⟨S1x512x32, .f32⟩
  | .hbm, ⟨60, _⟩ => ⟨S512x32, .f32⟩
  | .hbm, ⟨61, _⟩ => ⟨S_, .i32⟩
  | .hbm, ⟨62, _⟩ => ⟨S1, .i32⟩
  | .hbm, ⟨63, _⟩ => ⟨S512x128, .f32⟩
  | .hbm, ⟨64, _⟩ => ⟨S1x1x32, .f32⟩
  | .hbm, ⟨65, _⟩ => ⟨S1x32, .f32⟩
  | .hbm, ⟨66, _⟩ => ⟨S_, .i32⟩
  | .hbm, ⟨67, _⟩ => ⟨S1, .i32⟩
  | .hbm, ⟨68, _⟩ => ⟨S1x128, .f32⟩
  | .hbm, ⟨69, _⟩ => ⟨S1x32x16, .f32⟩
  | .hbm, ⟨70, _⟩ => ⟨S32x16, .f32⟩
  | .hbm, ⟨71, _⟩ => ⟨S_, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S2, .i32⟩
  | .hbm, ⟨76, _⟩ => ⟨S128x128, .f32⟩
  | .hbm, ⟨77, _⟩ => ⟨S1x1x16, .f32⟩
  | .hbm, ⟨78, _⟩ => ⟨S1x16, .f32⟩
  | .hbm, ⟨79, _⟩ => ⟨S_, .i32⟩
  | .hbm, ⟨80, _⟩ => ⟨S1, .i32⟩
  | .hbm, ⟨81, _⟩ => ⟨S1x128, .f32⟩
  | .hbm, ⟨82, _⟩ => ⟨S8192x128, .f32⟩
  | .hbm, ⟨83, _⟩ => ⟨S8192x8192, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .f32⟩
  | .local _ .vmem, ⟨13, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_9 : Ref sig .tc := ⟨.hbm, 48, rfl⟩
abbrev main_v32 : Ref sig .tc := ⟨.hbm, 49, rfl⟩
abbrev main_c_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_14 : Ref sig .tc := ⟨.hbm, 71, rfl⟩
abbrev main_v50 : Ref sig .tc := ⟨.hbm, 72, rfl⟩
abbrev main_c_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_16 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S512x128 : S_.BroadcastsInDim S512x128 (![] : Fin 0 → Fin S512x128.rank)
  bcast_S_S1x128 : S_.BroadcastsInDim S1x128 (![] : Fin 0 → Fin S1x128.rank)
  bcast_S_S128x128 : S_.BroadcastsInDim S128x128 (![] : Fin 0 → Fin S128x128.rank)
  slices_S3x512x32_S1x512x32_0_0_0 : S3x512x32.Slices ![0, 0, 0] S1x512x32
  shapeCasts_S1x512x32_S512x32 : S1x512x32.ShapeCasts S512x32
  bcast_S_S1 : S_.BroadcastsInDim S1 (![] : Fin 0 → Fin S1.rank)
  slices_S3x1x32_S1x1x32_0_0_0 : S3x1x32.Slices ![0, 0, 0] S1x1x32
  shapeCasts_S1x1x32_S1x32 : S1x1x32.ShapeCasts S1x32
  slices_S3x32x16_S1x32x16_0_0_0 : S3x32x16.Slices ![0, 0, 0] S1x32x16
  shapeCasts_S1x32x16_S32x16 : S1x32x16.ShapeCasts S32x16
  concatenates_S1_S1_S2_d0 : Shape.Concatenates [S1, S1] S2 0
  slices_S3x1x16_S1x1x16_0_0_0 : S3x1x16.Slices ![0, 0, 0] S1x1x16
  shapeCasts_S1x1x16_S1x16 : S1x1x16.ShapeCasts S1x16
  slices_S3x512x32_S1x512x32_1_0_0 : S3x512x32.Slices ![1, 0, 0] S1x512x32
  slices_S3x1x32_S1x1x32_1_0_0 : S3x1x32.Slices ![1, 0, 0] S1x1x32
  slices_S3x32x16_S1x32x16_1_0_0 : S3x32x16.Slices ![1, 0, 0] S1x32x16
  slices_S3x1x16_S1x1x16_1_0_0 : S3x1x16.Slices ![1, 0, 0] S1x1x16
  slices_S3x512x32_S1x512x32_2_0_0 : S3x512x32.Slices ![2, 0, 0] S1x512x32
  slices_S3x1x32_S1x1x32_2_0_0 : S3x1x32.Slices ![2, 0, 0] S1x1x32
  slices_S3x32x16_S1x32x16_2_0_0 : S3x32x16.Slices ![2, 0, 0] S1x32x16
  slices_S3x1x16_S1x1x16_2_0_0 : S3x1x16.Slices ![2, 0, 0] S1x1x16
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S512x128_S1_S512x32_01_n_1_0_wf : ScatterDims.WF S512x128 S1 S512x32 [0, 1] [] [1] 0
  scatter_S1x128_S1_S1x32_01_n_1_0_wf : ScatterDims.WF S1x128 S1 S1x32 [0, 1] [] [1] 0
  scatter_S128x128_S2_S32x16_01_n_01_0_wf : ScatterDims.WF S128x128 S2 S32x16 [0, 1] [] [0, 1] 0
  scatter_S1x128_S1_S1x16_01_n_1_0_wf : ScatterDims.WF S1x128 S1 S1x16 [0, 1] [] [1] 0
  dot_S512x512_S512x128_S512x128_1_0_0_1_n_n_wf : DotDims.WF S512x512 S512x128 S512x128 [1] [0] [0] [1] [] []
  dot_S512x128_S128x128_S512x128_1_0_0_1_n_n_wf : DotDims.WF S512x128 S128x128 S512x128 [1] [0] [0] [1] [] []
  dot_S512x128_S512x128_S512x512_1_1_0_0_n_n_wf : DotDims.WF S512x128 S512x128 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S8192x128.size a
  hwx0_5 : ∀ i : grid0.Coords, EltTy.bits .f32 = 32 ∨ (Rect.block (s := S8192x128) S512x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x128.size a
  hwx1_0 : ∀ i : grid1.Coords, EltTy.bits .f32 = 32 ∨ (Rect.block (s := S8192x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .f32 = 32 ∨ (Rect.block (s := S8192x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S8192x8192.size a
  hwx1_2 : ∀ i : grid1.Coords, EltTy.bits .f32 = 32 ∨ (Rect.block (s := S8192x8192) S512x512.size (cc1_transform_2 i) (hinb1_2 i)).WholeWords (EltTy.packing .f32)

variable [Facts₀]

def scatter_S512x128_S1_S512x32_01_n_1_0 : ScatterDims S512x128 S1 S512x32 where
  updateWindowDims := [0, 1]
  insertedWindowDims := []
  scatterDimsToOperandDims := [1]
  indexVectorDim := 0
  wf := scatter_S512x128_S1_S512x32_01_n_1_0_wf
def scatter_S1x128_S1_S1x32_01_n_1_0 : ScatterDims S1x128 S1 S1x32 where
  updateWindowDims := [0, 1]
  insertedWindowDims := []
  scatterDimsToOperandDims := [1]
  indexVectorDim := 0
  wf := scatter_S1x128_S1_S1x32_01_n_1_0_wf
def scatter_S128x128_S2_S32x16_01_n_01_0 : ScatterDims S128x128 S2 S32x16 where
  updateWindowDims := [0, 1]
  insertedWindowDims := []
  scatterDimsToOperandDims := [0, 1]
  indexVectorDim := 0
  wf := scatter_S128x128_S2_S32x16_01_n_01_0_wf
def scatter_S1x128_S1_S1x16_01_n_1_0 : ScatterDims S1x128 S1 S1x16 where
  updateWindowDims := [0, 1]
  insertedWindowDims := []
  scatterDimsToOperandDims := [1]
  indexVectorDim := 0
  wf := scatter_S1x128_S1_S1x16_01_n_1_0_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v53) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v57) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v58) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v58) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.Kernel.Region0.lean ====
/-
  The first kernel region: the packed perceptron on one block of rows.

  At a grid point the body reads five staged blocks whole — the block of rows of `z`, the two packed weight
  matrices and the two bias rows — and writes one block of `T` whole: the value `k0_pay1` of the five blocks it
  read.  So after the body the output window's buffer is that value at every index, whatever it held before,
  and the input windows' buffers are as they were.  The proof data of the pipeline says exactly this at every
  point: each input window's buffer holds its block of the array as the region found it, the output window's
  buffer holds `k0_pay1` of those blocks.  Nothing here depends on what the arithmetic is, nor on the float
  instance.
-/
import proofs.«100627_g2000204067356750_pallasbulk_973_2_alg».proof.Proof.Gen.Kernel.Launch
import proofs.«100627_g2000204067356750_pallasbulk_973_2_alg».proof.Proof.Gen.Kernel.Skeleton
import proofs.«100627_g2000204067356750_pallasbulk_973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the block was fetched at that point or
    stayed from an earlier one (its block index had not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_0 : Rect S1024x512 := Rect.unit (s := S1024x512) ![0, 0] S1024x512.size inb_S1024x512_S1024x512_0_0
abbrev r0_1 : Rect S512x128 := Rect.unit (s := S512x128) ![0, 0] S512x128.size inb_S512x128_S512x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_5 : Rect S1024x128 := Rect.unit (s := S1024x128) ![0, 0] S1024x128.size inb_S1024x128_S1024x128_0_0

/-! ## What the body leaves in the output window's buffer -/

/-- The output buffer after the body, from the five input blocks: its one store, of the whole buffer. -/
def out0_5 (x0 : Vec F S1024x512 .f32) (x1 : Vec F S512x128 .f32) (x2 : Vec F S1x128 .f32) (x3 : Vec F S128x128 .f32) (x4 : Vec F S1x128 .f32) : Vec F S1024x128 .bf16 :=
  View.canon [⟨r0_5, k0_pay1 (View.ld x0 r0_0) (View.ld x1 r0_1) (View.ld x2 r0_2) (View.ld x3 r0_3) (View.ld x4 r0_2)⟩]

/-- The one store covers the buffer. -/
theorem cover0_5 (p0 : Vec F S1024x128 .bf16) (y : S1024x128.Idx) :
    ∃ pc ∈ ([⟨r0_5, p0⟩] : List (View.Piece (Elt F) S1024x128 .bf16)), y ∈ pc.1.set :=
  View.cover_of_tiled [⟨r0_5, p0⟩] S1024x128.size (by rfl) y

/-! ## The body's triple -/

set_option maxHeartbeats 4000000 in
/-- The body on whole staging buffers, the inputs' at contents `x0 … x4` and the output's at anything, runs to a
    state holding the inputs' as they were and the output's at `out0_5` of them. -/
theorem sound_kernel0 (c : Dev nD) (E : Set ℕ) (i : grid0.Coords) (arg1 : Memref sig .tc .vmem S1024x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .bf16) (harg6 : arg6.IsWhole)
    (x0 : Vec F S1024x512 .f32) (x1 : Vec F S512x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the first pipeline on core `c`: the arrays as the region finds them; after the body at point
    `t` each input's buffer at its block and the output's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.Kernel.Region1.lean ====
/-
  The second kernel region: one tile of the Gram matrix.

  At grid point `(i, j)` the body reads two staged blocks of rows of `T` whole — block `i` through the first window,
  block `j` through the second — and writes one square tile of the result whole: the value `k1_pay1` of the two
  blocks.  Both input windows read the SAME array, so the core holds that array in two halves of the full share,
  one per window; the output array is held whole.  After the body the output window's buffer is `k1_pay1` of the
  two blocks at every index and the input windows' buffers are as they were.
-/
import proofs.«100627_g2000204067356750_pallasbulk_973_2_alg».proof.Proof.Gen.Kernel.Launch
import proofs.«100627_g2000204067356750_pallasbulk_973_2_alg».proof.Proof.Gen.Kernel.Skeleton
import proofs.«100627_g2000204067356750_pallasbulk_973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the block was fetched at that point or
    stayed from an earlier one (its block index had not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: both loads and the store take a whole buffer -/

abbrev r1_0 : Rect S1024x128 := Rect.unit (s := S1024x128) ![0, 0] S1024x128.size inb_S1024x128_S1024x128_0_0
abbrev r1_2 : Rect S1024x1024 := Rect.unit (s := S1024x1024) ![0, 0] S1024x1024.size inb_S1024x1024_S1024x1024_0_0

/-! ## What the body leaves in the output window's buffer -/

/-- The output buffer after the body, from the two input blocks: its one store, of the whole buffer. -/
def out1_2 (x0 : Vec F S1024x128 .bf16) (x1 : Vec F S1024x128 .bf16) : Vec F S1024x1024 .f32 :=
  View.canon [⟨r1_2, k1_pay1 (View.ld x0 r1_0) (View.ld x1 r1_0)⟩]

/-- The one store covers the buffer. -/
theorem cover1_2 (p0 : Vec F S1024x1024 .f32) (y : S1024x1024.Idx) :
    ∃ pc ∈ ([⟨r1_2, p0⟩] : List (View.Piece (Elt F) S1024x1024 .f32)), y ∈ pc.1.set :=
  View.cover_of_tiled [⟨r1_2, p0⟩] S1024x1024.size (by rfl) y

/-! ## The body's triple -/

set_option maxHeartbeats 4000000 in
/-- The body on whole staging buffers, the inputs' at contents `x0`, `x1` and the output's at anything, runs to a
    state holding the inputs' as they were and the output's at `out1_2` of them. -/
theorem sound_kernel1 (c : Dev nD) (E : Set ℕ) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1024 .f32) (harg4 : arg4.IsWhole)
    (x0 : Vec F S1024x128 .bf16) (x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__gram_kernel i arg2 harg2 arg3 harg3 arg4 harg4) K := by
  simp only [cc1__gram_kernel_eq_skeleton]; unfold cc1__gram_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the second pipeline on core `c`: the arrays as the region finds them; after the body at point
    `t` each input's buffer at its block and the output's at `out1_2` of the input blocks; nothing owed; the two input
    windows hold their one array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- The shares the core holds the three windows' arrays at. -/
theorem share1_0 (c : Dev nD) : (dat1 V c).share 0 = fullShare.left := by unfold Dat.share; dsimp only [dat1]; rfl
theorem share1_1 (c : Dev nD) : (dat1 V c).share 1 = fullShare.right := by unfold Dat.share; dsimp only [dat1]; rfl
theorem share1_2 (c : Dev nD) : (dat1 V c).share 2 = fullShare := by unfold Dat.share; dsimp only [dat1]; rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.Kernel.Shared1.lean ====
/-
  The second region's two input windows read one array.

  The core's unscoped buffers hold that array once, at the full share; the pipeline wants it once per window.  At
  the region's entry the full share is cut into its two halves, one for each input window; both windows only read,
  so at the exit each half still holds the array as it was and the halves join back to the full share.  The output
  window's array is a different buffer and is held whole throughout.
-/
import proofs.«100627_g2000204067356750_pallasbulk_973_2_alg».proof.Proof.Gen.Kernel.Launch
import proofs.«100627_g2000204067356750_pallasbulk_973_2_alg».proof.Proof.Gen.Kernel.Skeleton
import proofs.«100627_g2000204067356750_pallasbulk_973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«100627_g2000204067356750_pallasbulk_973_2_alg».proof.Proof.Kernel.Region1

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows' arrays are two: the array of `T` and the result array. -/
theorem arrs1 : Finset.univ.image (Pipeline.arrRef spec1) = {main_v26, main_v27} := by decide

/-- ENTRY: the two buffers, each whole at the full share at the contents the region finds, are the pipeline's three
    arrays at their entry contents: the array of `T` once at each half share, the result array whole. -/
theorem arrays1_of_bufs (c : Dev nD) :
    (Pipeline.arrBufs (Ix := Unit) (Name := ℕ) (U := UR sig nD τ) (Lvl := ℕ) spec1 c (V c) : sProp 𝕄)
      ⊢ (dat1 V c).arrays ((dat1 V c).arrAt · 0) := by
  unfold Pipeline.arrBufs Dat.arrays
  rw [arrs1, bigSep_insert (by decide), bigSep_singleton, bigSep_W1]
  rw [share1_0, share1_1, share1_2, (arr_whole1 0).set_eq_univ, (arr_whole1 2).set_eq_univ]
  change iprop(_ ∗ _) ⊢ _
  iintro ⟨H26, H27⟩
  ihave H := (pointsTo_share (PosShare.mem_left_op_right fullShare)).1 $$ H26
  icases H with ⟨HL, HR⟩
  isplitl [HL]; · iexact HL
  isplitl [HR]; · iexact HR
  iexact H27

/-- EXIT: the pipeline's three arrays, the two input windows' at one and the same contents, are the two buffers
    whole at the full share at any contents `V'` that has the array of `T` at that and the result array at the output
    window's. -/
theorem bufs_of_arrays1 (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v26) (h1 : G 1 = V' main_v26) (h2 : G 2 = V' main_v27) :
    (dat1 V c).arrays G
      ⊢ (Pipeline.arrBufs (Ix := Unit) (Name := ℕ) (U := UR sig nD τ) (Lvl := ℕ) spec1 c V' : sProp 𝕄) := by
  unfold Pipeline.arrBufs Dat.arrays
  rw [arrs1, bigSep_insert (by decide), bigSep_singleton, bigSep_W1]
  rw [share1_0, share1_1, share1_2, (arr_whole1 0).set_eq_univ, (arr_whole1 2).set_eq_univ, h0, h1, h2]
  change _ ⊢ iprop(_ ∗ _)
  iintro ⟨HL, HR, H27⟩
  isplitl [HL HR]
  · iapply (pointsTo_share (PosShare.mem_left_op_right fullShare)).2
    isplitl [HL]; · iexact HL
    iexact HR
  iexact H27

end Cert.Kernel.Reg

end
-- ==== Proof.Kernel.Run.lean ====
/-
  The whole run: the host operations, then the two kernel regions, from the launch to the return.

  Between two items of the program the core holds every unscoped buffer whole at known contents: the launch memory,
  then what each stretch of host operations computes from it, then — after the first region — the array of `T` at
  what that region's write-backs leave, and — after the second — the result array at what the second region's
  write-backs leave; every other buffer keeps what it held.  No item writes an argument array.  So every weakly
  fair execution terminates without a fault, the arguments end as launched, and the result array ends at the
  second pipeline's final contents, whose entry contents are the first pipeline's final contents.
-/
import proofs.«100627_g2000204067356750_pallasbulk_973_2_alg».proof.Proof.Gen.Kernel.Regions
import proofs.«100627_g2000204067356750_pallasbulk_973_2_alg».proof.Proof.Kernel.Region0
import proofs.«100627_g2000204067356750_pallasbulk_973_2_alg».proof.Proof.Kernel.Region1
import proofs.«100627_g2000204067356750_pallasbulk_973_2_alg».proof.Proof.Kernel.Shared1

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- What the first region is entered from: the launch memory after the host operations (`V6`), read at the core's
    references. -/
abbrev U6 : (c : Dev nD) → (b : Ref sig .tc) → Buf (Elt F) ((c : Thread nD τ).loc b) := fun c b => V6 m c b

/-- At the first region's exit: its arrays at what the pipeline leaves (the inputs as entered, the output's
    write-backs folded), every other buffer as entered. -/
def W7 (c : Dev nD) : Valuation τ sig (Elt F) :=
  Pipeline.withArrays spec0 c (V6 m c) fun w => (dat0 (U6 m) c).arrAt w cfg0.N
theorem W7_arr (c : Dev nD) (w : Fin cfg0.W) :
    W7 m c (Proc.devRef .tc (Pipeline.arrRef spec0 w)) = (dat0 (U6 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = V6 m c (Proc.devRef .tc b) := by
  unfold W7; exact Pipeline.withArrays_of_ne spec0 c _ _ b hb
/-- The same read at the core's references: what the second region is entered from. -/
abbrev U7 : (c : Dev nD) → (b : Ref sig .tc) → Buf (Elt F) ((c : Thread nD τ).loc b) := fun c b => W7 m c b
theorem hF0 (c : Dev nD) (w : Fin cfg0.W) : (dat0 (U6 m) c).arrAt w cfg0.N = U7 m c (Pipeline.arrRef spec0 w) :=
  (W7_arr m c w).symm
theorem hrest0 (c : Dev nD) : ∀ b, b ∉ Finset.univ.image (Pipeline.arrRef spec0) → U7 m c b = U6 m c b :=
  fun b hb => W7_of_ne m c b fun w e => hb (Finset.mem_image.mpr ⟨w, Finset.mem_univ _, e⟩)

/-- At the second region's exit: the result array at what the pipeline leaves, every other buffer as entered (both
    input windows only read the array of `T`). -/
def W8 (c : Dev nD) : Valuation τ sig (Elt F) :=
  Function.update (W7 m c) (Proc.devRef .tc main_v27) ((dat1 (U7 m) c).arrAt 2 cfg1.N)
theorem W8_v27 (c : Dev nD) : W8 m c (Proc.devRef .tc main_v27) = (dat1 (U7 m) c).arrAt 2 cfg1.N := by
  unfold W8; exact Function.update_self ..
theorem W8_of_ne (c : Dev nD) (b : Ref sig .tc) (hb : b ≠ main_v27) :
    W8 m c (Proc.devRef .tc b) = W7 m c (Proc.devRef .tc b) := by
  unfold W8; exact Function.update_of_ne (StableHlo.devRef_ne_of_ne hb) _ _
abbrev U8 : (c : Dev nD) → (b : Ref sig .tc) → Buf (Elt F) ((c : Thread nD τ).loc b) := fun c b => W8 m c b

/-! ### The arguments end as launched -/

theorem W8_main_arg0 (c : Dev nD) : W8 m c (Proc.devRef .tc main_arg0) = m ((c : Thread nD τ).loc main_arg0) :=
  (W8_of_ne m c main_arg0 (by decide)).trans <| ((W7_arr m c 0).trans (((dat0 (U6 m) c).arrAt_in 0 rfl _).trans (A_eq0 (U6 m) c 0))).trans <|
  (V6_of m c main_arg0 (by decide)).trans <| (V5_of m c main_arg0 (by decide)).trans <| (V4_of m c main_arg0 (by decide)).trans <|
  (V3_of m c main_arg0 (by decide)).trans <| (V2_of m c main_arg0 (by decide)).trans <| (V1_of m c main_arg0 (by decide)).trans rfl
theorem W8_main_arg1 (c : Dev nD) : W8 m c (Proc.devRef .tc main_arg1) = m ((c : Thread nD τ).loc main_arg1) :=
  (W8_of_ne m c main_arg1 (by decide)).trans <| (W7_of_ne m c main_arg1 (by decide)).trans <|
  (V6_of m c main_arg1 (by decide)).trans <| (V5_of m c main_arg1 (by decide)).trans <| (V4_of m c main_arg1 (by decide)).trans <|
  (V3_of m c main_arg1 (by decide)).trans <| (V2_of m c main_arg1 (by decide)).trans <| (V1_of m c main_arg1 (by decide)).trans rfl
theorem W8_main_arg2 (c : Dev nD) : W8 m c (Proc.devRef .tc main_arg2) = m ((c : Thread nD τ).loc main_arg2) :=
  (W8_of_ne m c main_arg2 (by decide)).trans <| (W7_of_ne m c main_arg2 (by decide)).trans <|
  (V6_of m c main_arg2 (by decide)).trans <| (V5_of m c main_arg2 (by decide)).trans <| (V4_of m c main_arg2 (by decide)).trans <|
  (V3_of m c main_arg2 (by decide)).trans <| (V2_of m c main_arg2 (by decide)).trans <| (V1_of m c main_arg2 (by decide)).trans rfl
theorem W8_main_arg3 (c : Dev nD) : W8 m c (Proc.devRef .tc main_arg3) = m ((c : Thread nD τ).loc main_arg3) :=
  (W8_of_ne m c main_arg3 (by decide)).trans <| (W7_of_ne m c main_arg3 (by decide)).trans <|
  (V6_of m c main_arg3 (by decide)).trans <| (V5_of m c main_arg3 (by decide)).trans <| (V4_of m c main_arg3 (by decide)).trans <|
  (V3_of m c main_arg3 (by decide)).trans <| (V2_of m c main_arg3 (by decide)).trans <| (V1_of m c main_arg3 (by decide)).trans rfl
theorem W8_main_arg4 (c : Dev nD) : W8 m c (Proc.devRef .tc main_arg4) = m ((c : Thread nD τ).loc main_arg4) :=
  (W8_of_ne m c main_arg4 (by decide)).trans <| (W7_of_ne m c main_arg4 (by decide)).trans <|
  (V6_of m c main_arg4 (by decide)).trans <| (V5_of m c main_arg4 (by decide)).trans <| (V4_of m c main_arg4 (by decide)).trans <|
  (V3_of m c main_arg4 (by decide)).trans <| (V2_of m c main_arg4 (by decide)).trans <| (V1_of m c main_arg4 (by decide)).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U6 m) c
  | ⟨1, _⟩ => fun c => dat1 (U7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes
    nothing. -/
abbrev Rr (c : Dev nD) : sProp 𝕄 := iprop((∃ r, prngReg c r) ∗ ∃ W, owes (c : Thread nD τ) (0 : CellTallies nD τ sig Unit) W)
/-- A stretch of host operations as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tn (c : Dev nD) : sProp 𝕄 := iprop(StableHlo.held (c : Thread nD τ) (Pipeline.ucRefs τ sig) (W8 m c) ∗ ∃ r, prngReg c r)

/-! ## The regions as items of the run -/

set_option backward.isDefEq.respectTransparency.types false in
/-- The first region: entered from every unscoped buffer at `V6`, left at `W7`.  Its arrays are distinct buffers:
    split out of the unscoped buffers at entry, put back at their final contents at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U6 m) c).loose
  hwaits := Pipeline.hwaits_of_owed_zero _ _ _ _ L lv 0 fun _ _ => rfl
  pre c := iprop(StableHlo.held (c : Thread nD τ) (Pipeline.ucRefs τ sig) (V6 m c) ∗ Rr c)
  post c := iprop(StableHlo.held (c : Thread nD τ) (Pipeline.ucRefs τ sig) (W7 m c) ∗ Rr c)
  X c := iprop(∃ r, prngReg c r)
  Y c := iprop(∃ r, prngReg c r)
  Z c := Pipeline.unscopedRest (Ix := Unit) (Name := ℕ) (U := UR sig nD τ) (Lvl := ℕ) spec0 c (U6 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U6 m c) (U7 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off the second region's arrays the exit contents are the entry contents. -/
theorem rest1_eq (c : Dev nD) :
    (Pipeline.unscopedRest (Ix := Unit) (Name := ℕ) (U := UR sig nD τ) (Lvl := ℕ) spec1 c (U8 m c) : sProp 𝕄)
      = Pipeline.unscopedRest spec1 c (U7 m c) := by
  unfold Pipeline.unscopedRest
  refine bigSep_congr fun b hb => ?_
  have hne : b ≠ main_v27 := fun e => (Finset.mem_sdiff.mp hb).2 (by rw [e, arrs1]; decide)
  rw [show U8 m c b = U7 m c b from W8_of_ne m c b hne]

set_option backward.isDefEq.respectTransparency.types false in
/-- The second region: entered from every unscoped buffer at `W7`, left at `W8`.  Its two input windows share the
    array of `T`: the unscoped buffers split into the two buffers behind the arrays and the rest, the shared one's full
    share halved at entry and joined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (W7 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit : (StableHlo.held (c : Thread nD τ) (Pipeline.ucRefs τ sig) (W7 m c) : sProp 𝕄)
        ⊢ iprop((pdats m 1 c).arrays ((pdats m 1 c).arrAt · 0) ∗ Pipeline.unscopedRest spec1 c (U7 m c)) := by
      rw [← Pipeline.unscopedBufs_held c (W7 m c), Pipeline.unscopedBufs_split₀ cfgs 1 winFacts₀1.arr_unscoped c (U7 m c)]
      exact sep_mono (arrays1_of_bufs (U7 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (U7 m c))
        ⊢ (StableHlo.held (c : Thread nD τ) (Pipeline.ucRefs τ sig) (W8 m c) : sProp 𝕄) := by
      rw [← Pipeline.unscopedBufs_held c (W8 m c), Pipeline.unscopedBufs_split₀ cfgs 1 winFacts₀1.arr_unscoped c (U8 m c)]
      refine BIClass.sep_mono (bufs_of_arrays1 (U7 m) c (U8 m c) _ ?_ ?_ ?_) (Entails.of_eq (rest1_eq m c).symm)
      · exact (((dat1 (U7 m) c).arrAt_in 0 rfl _).trans (A_eq1 (U7 m) c 0)).trans (W8_of_ne m c main_v26 (by decide)).symm
      · exact (((dat1 (U7 m) c).arrAt_in 1 rfl _).trans (A_eq1 (U7 m) c 1)).trans (W8_of_ne m c main_v26 (by decide)).symm
      · exact (W8_v27 m c).symm
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's eight items in order: six stretches of host operations, then the two regions. -/
abbrev items : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .region (reg0 m),
    .region (reg1 m) ]
/-- The program is the run of its items. -/
theorem main_run (c : Dev nD) : main (F := F) c = Pipeline.Seg.run (items m) := (main_chain c).trans (by chain_rfl)

set_option backward.isDefEq.respectTransparency.types false in
/-- THE RUN, at any float instance: from any memory with zero counters every weakly fair execution of the program
    terminates, nothing faulting, and every final state has the result array at the second pipeline's final contents and
    the five argument arrays as launched. -/
theorem run_all : θ_run defs (onTc (τ := τ) (main (F := F))) ⟨m, fun _ => 0, ρ⟩ (fun r => ∀ c : Dev nD,
      r.2.mem ((c.tc : Thread nD τ).loc main_v27) = (dat1 (U7 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tn m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨(h c _ (mem_uc main_v27 (by decide))).trans (W8_v27 m c),
       (h c _ (mem_uc main_arg0 (by decide))).trans (W8_main_arg0 m c),
       (h c _ (mem_uc main_arg1 (by decide))).trans (W8_main_arg1 m c),
       (h c _ (mem_uc main_arg2 (by decide))).trans (W8_main_arg2 m c),
       (h c _ (mem_uc main_arg3 (by decide))).trans (W8_main_arg3 m c),
       (h c _ (mem_uc main_arg4 (by decide))).trans (W8_main_arg4 m c)⟩)

end Cert.Kernel.Reg

end
-- ==== Proof.KernelIdeal.Region0.lean ====
/-
  The first kernel region: the packed perceptron on one block of rows.

  At a grid point the body reads five staged blocks whole — the block of rows of `z`, the two packed weight
  matrices and the two bias rows — and writes one block of `T` whole: the value `k0_pay1` of the five blocks it
  read.  So after the body the output window's buffer is that value at every index, whatever it held before,
  and the input windows' buffers are as they were.  The proof data of the pipeline says exactly this at every
  point: each input window's buffer holds its block of the array as the region found it, the output window's
  buffer holds `k0_pay1` of those blocks.  Nothing here depends on what the arithmetic is, nor on the float
  instance.
-/
import proofs.«100627_g2000204067356750_pallasbulk_973_2_alg».proof.Proof.Gen.KernelIdeal.Launch
import proofs.«100627_g2000204067356750_pallasbulk_973_2_alg».proof.Proof.Gen.KernelIdeal.Skeleton
import proofs.«100627_g2000204067356750_pallasbulk_973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the block was fetched at that point or
    stayed from an earlier one (its block index had not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_0 : Rect S1024x512 := Rect.unit (s := S1024x512) ![0, 0] S1024x512.size inb_S1024x512_S1024x512_0_0
abbrev r0_1 : Rect S512x128 := Rect.unit (s := S512x128) ![0, 0] S512x128.size inb_S512x128_S512x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_5 : Rect S1024x128 := Rect.unit (s := S1024x128) ![0, 0] S1024x128.size inb_S1024x128_S1024x128_0_0

/-! ## What the body leaves in the output window's buffer -/

/-- The output buffer after the body, from the five input blocks: its one store, of the whole buffer. -/
def out0_5 (x0 : Vec F S1024x512 .f32) (x1 : Vec F S512x128 .f32) (x2 : Vec F S1x128 .f32) (x3 : Vec F S128x128 .f32) (x4 : Vec F S1x128 .f32) : Vec F S1024x128 .bf16 :=
  View.canon [⟨r0_5, k0_pay1 (View.ld x0 r0_0) (View.ld x1 r0_1) (View.ld x2 r0_2) (View.ld x3 r0_3) (View.ld x4 r0_2)⟩]

/-- The one store covers the buffer. -/
theorem cover0_5 (p0 : Vec F S1024x128 .bf16) (y : S1024x128.Idx) :
    ∃ pc ∈ ([⟨r0_5, p0⟩] : List (View.Piece (Elt F) S1024x128 .bf16)), y ∈ pc.1.set :=
  View.cover_of_tiled [⟨r0_5, p0⟩] S1024x128.size (by rfl) y

/-! ## The body's triple -/

set_option maxHeartbeats 4000000 in
/-- The body on whole staging buffers, the inputs' at contents `x0 … x4` and the output's at anything, runs to a
    state holding the inputs' as they were and the output's at `out0_5` of them. -/
theorem sound_kernel0 (c : Dev nD) (E : Set ℕ) (i : grid0.Coords) (arg1 : Memref sig .tc .vmem S1024x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1024x128 .bf16) (harg6 : arg6.IsWhole)
    (x0 : Vec F S1024x512 .f32) (x1 : Vec F S512x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the first pipeline on core `c`: the arrays as the region finds them; after the body at point
    `t` each input's buffer at its block and the output's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KernelIdeal.Region1.lean ====
/-
  The second kernel region: one tile of the Gram matrix.

  At grid point `(i, j)` the body reads two staged blocks of rows of `T` whole — block `i` through the first window,
  block `j` through the second — and writes one square tile of the result whole: the value `k1_pay1` of the two
  blocks.  Both input windows read the SAME array, so the core holds that array in two halves of the full share,
  one per window; the output array is held whole.  After the body the output window's buffer is `k1_pay1` of the
  two blocks at every index and the input windows' buffers are as they were.
-/
import proofs.«100627_g2000204067356750_pallasbulk_973_2_alg».proof.Proof.Gen.KernelIdeal.Launch
import proofs.«100627_g2000204067356750_pallasbulk_973_2_alg».proof.Proof.Gen.KernelIdeal.Skeleton
import proofs.«100627_g2000204067356750_pallasbulk_973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the block was fetched at that point or
    stayed from an earlier one (its block index had not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: both loads and the store take a whole buffer -/

abbrev r1_0 : Rect S1024x128 := Rect.unit (s := S1024x128) ![0, 0] S1024x128.size inb_S1024x128_S1024x128_0_0
abbrev r1_2 : Rect S1024x1024 := Rect.unit (s := S1024x1024) ![0, 0] S1024x1024.size inb_S1024x1024_S1024x1024_0_0

/-! ## What the body leaves in the output window's buffer -/

/-- The output buffer after the body, from the two input blocks: its one store, of the whole buffer. -/
def out1_2 (x0 : Vec F S1024x128 .bf16) (x1 : Vec F S1024x128 .bf16) : Vec F S1024x1024 .f32 :=
  View.canon [⟨r1_2, k1_pay1 (View.ld x0 r1_0) (View.ld x1 r1_0)⟩]

/-- The one store covers the buffer. -/
theorem cover1_2 (p0 : Vec F S1024x1024 .f32) (y : S1024x1024.Idx) :
    ∃ pc ∈ ([⟨r1_2, p0⟩] : List (View.Piece (Elt F) S1024x1024 .f32)), y ∈ pc.1.set :=
  View.cover_of_tiled [⟨r1_2, p0⟩] S1024x1024.size (by rfl) y

/-! ## The body's triple -/

set_option maxHeartbeats 4000000 in
/-- The body on whole staging buffers, the inputs' at contents `x0`, `x1` and the output's at anything, runs to a
    state holding the inputs' as they were and the output's at `out1_2` of them. -/
theorem sound_kernel1 (c : Dev nD) (E : Set ℕ) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1024 .f32) (harg4 : arg4.IsWhole)
    (x0 : Vec F S1024x128 .bf16) (x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__gram_kernel i arg2 harg2 arg3 harg3 arg4 harg4) K := by
  simp only [cc1__gram_kernel_eq_skeleton]; unfold cc1__gram_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the second pipeline on core `c`: the arrays as the region finds them; after the body at point
    `t` each input's buffer at its block and the output's at `out1_2` of the input blocks; nothing owed; the two input
    windows hold their one array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- The shares the core holds the three windows' arrays at. -/
theorem share1_0 (c : Dev nD) : (dat1 V c).share 0 = fullShare.left := by unfold Dat.share; dsimp only [dat1]; rfl
theorem share1_1 (c : Dev nD) : (dat1 V c).share 1 = fullShare.right := by unfold Dat.share; dsimp only [dat1]; rfl
theorem share1_2 (c : Dev nD) : (dat1 V c).share 2 = fullShare := by unfold Dat.share; dsimp only [dat1]; rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KernelIdeal.Shared1.lean ====
/-
  The second region's two input windows read one array.

  The core's unscoped buffers hold that array once, at the full share; the pipeline wants it once per window.  At
  the region's entry the full share is cut into its two halves, one for each input window; both windows only read,
  so at the exit each half still holds the array as it was and the halves join back to the full share.  The output
  window's array is a different buffer and is held whole throughout.
-/
import proofs.«100627_g2000204067356750_pallasbulk_973_2_alg».proof.Proof.Gen.KernelIdeal.Launch
import proofs.«100627_g2000204067356750_pallasbulk_973_2_alg».proof.Proof.Gen.KernelIdeal.Skeleton
import proofs.«100627_g2000204067356750_pallasbulk_973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«100627_g2000204067356750_pallasbulk_973_2_alg».proof.Proof.KernelIdeal.Region1

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows' arrays are two: the array of `T` and the result array. -/
theorem arrs1 : Finset.univ.image (Pipeline.arrRef spec1) = {main_v26, main_v27} := by decide

/-- ENTRY: the two buffers, each whole at the full share at the contents the region finds, are the pipeline's three
    arrays at their entry contents: the array of `T` once at each half share, the result array whole. -/
theorem arrays1_of_bufs (c : Dev nD) :
    (Pipeline.arrBufs (Ix := Unit) (Name := ℕ) (U := UR sig nD τ) (Lvl := ℕ) spec1 c (V c) : sProp 𝕄)
      ⊢ (dat1 V c).arrays ((dat1 V c).arrAt · 0) := by
  unfold Pipeline.arrBufs Dat.arrays
  rw [arrs1, bigSep_insert (by decide), bigSep_singleton, bigSep_W1]
  rw [share1_0, share1_1, share1_2, (arr_whole1 0).set_eq_univ, (arr_whole1 2).set_eq_univ]
  change iprop(_ ∗ _) ⊢ _
  iintro ⟨H26, H27⟩
  ihave H := (pointsTo_share (PosShare.mem_left_op_right fullShare)).1 $$ H26
  icases H with ⟨HL, HR⟩
  isplitl [HL]; · iexact HL
  isplitl [HR]; · iexact HR
  iexact H27

/-- EXIT: the pipeline's three arrays, the two input windows' at one and the same contents, are the two buffers
    whole at the full share at any contents `V'` that has the array of `T` at that and the result array at the output
    window's. -/
theorem bufs_of_arrays1 (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v26) (h1 : G 1 = V' main_v26) (h2 : G 2 = V' main_v27) :
    (dat1 V c).arrays G
      ⊢ (Pipeline.arrBufs (Ix := Unit) (Name := ℕ) (U := UR sig nD τ) (Lvl := ℕ) spec1 c V' : sProp 𝕄) := by
  unfold Pipeline.arrBufs Dat.arrays
  rw [arrs1, bigSep_insert (by decide), bigSep_singleton, bigSep_W1]
  rw [share1_0, share1_1, share1_2, (arr_whole1 0).set_eq_univ, (arr_whole1 2).set_eq_univ, h0, h1, h2]
  change _ ⊢ iprop(_ ∗ _)
  iintro ⟨HL, HR, H27⟩
  isplitl [HL HR]
  · iapply (pointsTo_share (PosShare.mem_left_op_right fullShare)).2
    isplitl [HL]; · iexact HL
    iexact HR
  iexact H27

end Cert.KernelIdeal.Reg

end
-- ==== Proof.KernelIdeal.Run.lean ====
/-
  The whole run: the host operations, then the two kernel regions, from the launch to the return.

  Between two items of the program the core holds every unscoped buffer whole at known contents: the launch memory,
  then what each stretch of host operations computes from it, then — after the first region — the array of `T` at
  what that region's write-backs leave, and — after the second — the result array at what the second region's
  write-backs leave; every other buffer keeps what it held.  No item writes an argument array.  So every weakly
  fair execution terminates without a fault, the arguments end as launched, and the result array ends at the
  second pipeline's final contents, whose entry contents are the first pipeline's final contents.
-/
import proofs.«100627_g2000204067356750_pallasbulk_973_2_alg».proof.Proof.Gen.KernelIdeal.Regions
import proofs.«100627_g2000204067356750_pallasbulk_973_2_alg».proof.Proof.KernelIdeal.Region0
import proofs.«100627_g2000204067356750_pallasbulk_973_2_alg».proof.Proof.KernelIdeal.Region1
import proofs.«100627_g2000204067356750_pallasbulk_973_2_alg».proof.Proof.KernelIdeal.Shared1

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- What the first region is entered from: the launch memory after the host operations (`V6`), read at the core's
    references. -/
abbrev U6 : (c : Dev nD) → (b : Ref sig .tc) → Buf (Elt F) ((c : Thread nD τ).loc b) := fun c b => V6 m c b

/-- At the first region's exit: its arrays at what the pipeline leaves (the inputs as entered, the output's
    write-backs folded), every other buffer as entered. -/
def W7 (c : Dev nD) : Valuation τ sig (Elt F) :=
  Pipeline.withArrays spec0 c (V6 m c) fun w => (dat0 (U6 m) c).arrAt w cfg0.N
theorem W7_arr (c : Dev nD) (w : Fin cfg0.W) :
    W7 m c (Proc.devRef .tc (Pipeline.arrRef spec0 w)) = (dat0 (U6 m) c).arrAt w cfg0.N := by
  unfold W7; exact Pipeline.withArrays_arr spec0 launch0.win.arr_inj c _ _ w
theorem W7_of_ne (c : Dev nD) (b : Ref sig .tc) (hb : ∀ w, Pipeline.arrRef spec0 w ≠ b) :
    W7 m c (Proc.devRef .tc b) = V6 m c (Proc.devRef .tc b) := by
  unfold W7; exact Pipeline.withArrays_of_ne spec0 c _ _ b hb
/-- The same read at the core's references: what the second region is entered from. -/
abbrev U7 : (c : Dev nD) → (b : Ref sig .tc) → Buf (Elt F) ((c : Thread nD τ).loc b) := fun c b => W7 m c b
theorem hF0 (c : Dev nD) (w : Fin cfg0.W) : (dat0 (U6 m) c).arrAt w cfg0.N = U7 m c (Pipeline.arrRef spec0 w) :=
  (W7_arr m c w).symm
theorem hrest0 (c : Dev nD) : ∀ b, b ∉ Finset.univ.image (Pipeline.arrRef spec0) → U7 m c b = U6 m c b :=
  fun b hb => W7_of_ne m c b fun w e => hb (Finset.mem_image.mpr ⟨w, Finset.mem_univ _, e⟩)

/-- At the second region's exit: the result array at what the pipeline leaves, every other buffer as entered (both
    input windows only read the array of `T`). -/
def W8 (c : Dev nD) : Valuation τ sig (Elt F) :=
  Function.update (W7 m c) (Proc.devRef .tc main_v27) ((dat1 (U7 m) c).arrAt 2 cfg1.N)
theorem W8_v27 (c : Dev nD) : W8 m c (Proc.devRef .tc main_v27) = (dat1 (U7 m) c).arrAt 2 cfg1.N := by
  unfold W8; exact Function.update_self ..
theorem W8_of_ne (c : Dev nD) (b : Ref sig .tc) (hb : b ≠ main_v27) :
    W8 m c (Proc.devRef .tc b) = W7 m c (Proc.devRef .tc b) := by
  unfold W8; exact Function.update_of_ne (StableHlo.devRef_ne_of_ne hb) _ _
abbrev U8 : (c : Dev nD) → (b : Ref sig .tc) → Buf (Elt F) ((c : Thread nD τ).loc b) := fun c b => W8 m c b

/-! ### The arguments end as launched -/

theorem W8_main_arg0 (c : Dev nD) : W8 m c (Proc.devRef .tc main_arg0) = m ((c : Thread nD τ).loc main_arg0) :=
  (W8_of_ne m c main_arg0 (by decide)).trans <| ((W7_arr m c 0).trans (((dat0 (U6 m) c).arrAt_in 0 rfl _).trans (A_eq0 (U6 m) c 0))).trans <|
  (V6_of m c main_arg0 (by decide)).trans <| (V5_of m c main_arg0 (by decide)).trans <| (V4_of m c main_arg0 (by decide)).trans <|
  (V3_of m c main_arg0 (by decide)).trans <| (V2_of m c main_arg0 (by decide)).trans <| (V1_of m c main_arg0 (by decide)).trans rfl
theorem W8_main_arg1 (c : Dev nD) : W8 m c (Proc.devRef .tc main_arg1) = m ((c : Thread nD τ).loc main_arg1) :=
  (W8_of_ne m c main_arg1 (by decide)).trans <| (W7_of_ne m c main_arg1 (by decide)).trans <|
  (V6_of m c main_arg1 (by decide)).trans <| (V5_of m c main_arg1 (by decide)).trans <| (V4_of m c main_arg1 (by decide)).trans <|
  (V3_of m c main_arg1 (by decide)).trans <| (V2_of m c main_arg1 (by decide)).trans <| (V1_of m c main_arg1 (by decide)).trans rfl
theorem W8_main_arg2 (c : Dev nD) : W8 m c (Proc.devRef .tc main_arg2) = m ((c : Thread nD τ).loc main_arg2) :=
  (W8_of_ne m c main_arg2 (by decide)).trans <| (W7_of_ne m c main_arg2 (by decide)).trans <|
  (V6_of m c main_arg2 (by decide)).trans <| (V5_of m c main_arg2 (by decide)).trans <| (V4_of m c main_arg2 (by decide)).trans <|
  (V3_of m c main_arg2 (by decide)).trans <| (V2_of m c main_arg2 (by decide)).trans <| (V1_of m c main_arg2 (by decide)).trans rfl
theorem W8_main_arg3 (c : Dev nD) : W8 m c (Proc.devRef .tc main_arg3) = m ((c : Thread nD τ).loc main_arg3) :=
  (W8_of_ne m c main_arg3 (by decide)).trans <| (W7_of_ne m c main_arg3 (by decide)).trans <|
  (V6_of m c main_arg3 (by decide)).trans <| (V5_of m c main_arg3 (by decide)).trans <| (V4_of m c main_arg3 (by decide)).trans <|
  (V3_of m c main_arg3 (by decide)).trans <| (V2_of m c main_arg3 (by decide)).trans <| (V1_of m c main_arg3 (by decide)).trans rfl
theorem W8_main_arg4 (c : Dev nD) : W8 m c (Proc.devRef .tc main_arg4) = m ((c : Thread nD τ).loc main_arg4) :=
  (W8_of_ne m c main_arg4 (by decide)).trans <| (W7_of_ne m c main_arg4 (by decide)).trans <|
  (V6_of m c main_arg4 (by decide)).trans <| (V5_of m c main_arg4 (by decide)).trans <| (V4_of m c main_arg4 (by decide)).trans <|
  (V3_of m c main_arg4 (by decide)).trans <| (V2_of m c main_arg4 (by decide)).trans <| (V1_of m c main_arg4 (by decide)).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U6 m) c
  | ⟨1, _⟩ => fun c => dat1 (U7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes
    nothing. -/
abbrev Rr (c : Dev nD) : sProp 𝕄 := iprop((∃ r, prngReg c r) ∗ ∃ W, owes (c : Thread nD τ) (0 : CellTallies nD τ sig Unit) W)
/-- A stretch of host operations as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tn (c : Dev nD) : sProp 𝕄 := iprop(StableHlo.held (c : Thread nD τ) (Pipeline.ucRefs τ sig) (W8 m c) ∗ ∃ r, prngReg c r)

/-! ## The regions as items of the run -/

set_option backward.isDefEq.respectTransparency.types false in
/-- The first region: entered from every unscoped buffer at `V6`, left at `W7`.  Its arrays are distinct buffers:
    split out of the unscoped buffers at entry, put back at their final contents at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U6 m) c).loose
  hwaits := Pipeline.hwaits_of_owed_zero _ _ _ _ L lv 0 fun _ _ => rfl
  pre c := iprop(StableHlo.held (c : Thread nD τ) (Pipeline.ucRefs τ sig) (V6 m c) ∗ Rr c)
  post c := iprop(StableHlo.held (c : Thread nD τ) (Pipeline.ucRefs τ sig) (W7 m c) ∗ Rr c)
  X c := iprop(∃ r, prngReg c r)
  Y c := iprop(∃ r, prngReg c r)
  Z c := Pipeline.unscopedRest (Ix := Unit) (Name := ℕ) (U := UR sig nD τ) (Lvl := ℕ) spec0 c (U6 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U6 m c) (U7 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off the second region's arrays the exit contents are the entry contents. -/
theorem rest1_eq (c : Dev nD) :
    (Pipeline.unscopedRest (Ix := Unit) (Name := ℕ) (U := UR sig nD τ) (Lvl := ℕ) spec1 c (U8 m c) : sProp 𝕄)
      = Pipeline.unscopedRest spec1 c (U7 m c) := by
  unfold Pipeline.unscopedRest
  refine bigSep_congr fun b hb => ?_
  have hne : b ≠ main_v27 := fun e => (Finset.mem_sdiff.mp hb).2 (by rw [e, arrs1]; decide)
  rw [show U8 m c b = U7 m c b from W8_of_ne m c b hne]

set_option backward.isDefEq.respectTransparency.types false in
/-- The second region: entered from every unscoped buffer at `W7`, left at `W8`.  Its two input windows share the
    array of `T`: the unscoped buffers split into the two buffers behind the arrays and the rest, the shared one's full
    share halved at entry and joined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U7 m) c).loose
  hwaits := Pipeline.hwaits_of_owed_zero _ _ _ _ L lv 1 fun _ _ => rfl
  pre c := iprop(StableHlo.held (c : Thread nD τ) (Pipeline.ucRefs τ sig) (W7 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U7 m c)
  hentry c := by
    rw [Pipeline.ownSems0_none]
    have hsplit : (StableHlo.held (c : Thread nD τ) (Pipeline.ucRefs τ sig) (W7 m c) : sProp 𝕄)
        ⊢ iprop((pdats m 1 c).arrays ((pdats m 1 c).arrAt · 0) ∗ Pipeline.unscopedRest spec1 c (U7 m c)) := by
      rw [← Pipeline.unscopedBufs_held c (W7 m c), Pipeline.unscopedBufs_split₀ cfgs 1 winFacts₀1.arr_unscoped c (U7 m c)]
      exact sep_mono (arrays1_of_bufs (U7 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (U7 m c))
        ⊢ (StableHlo.held (c : Thread nD τ) (Pipeline.ucRefs τ sig) (W8 m c) : sProp 𝕄) := by
      rw [← Pipeline.unscopedBufs_held c (W8 m c), Pipeline.unscopedBufs_split₀ cfgs 1 winFacts₀1.arr_unscoped c (U8 m c)]
      refine BIClass.sep_mono (bufs_of_arrays1 (U7 m) c (U8 m c) _ ?_ ?_ ?_) (Entails.of_eq (rest1_eq m c).symm)
      · exact (((dat1 (U7 m) c).arrAt_in 0 rfl _).trans (A_eq1 (U7 m) c 0)).trans (W8_of_ne m c main_v26 (by decide)).symm
      · exact (((dat1 (U7 m) c).arrAt_in 1 rfl _).trans (A_eq1 (U7 m) c 1)).trans (W8_of_ne m c main_v26 (by decide)).symm
      · exact (W8_v27 m c).symm
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's eight items in order: six stretches of host operations, then the two regions. -/
abbrev items : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .region (reg0 m),
    .region (reg1 m) ]
/-- The program is the run of its items. -/
theorem main_run (c : Dev nD) : main (F := F) c = Pipeline.Seg.run (items m) := (main_chain c).trans (by chain_rfl)

set_option backward.isDefEq.respectTransparency.types false in
/-- THE RUN, at any float instance: from any memory with zero counters every weakly fair execution of the program
    terminates, nothing faulting, and every final state has the result array at the second pipeline's final contents and
    the five argument arrays as launched. -/
theorem run_all : θ_run defs (onTc (τ := τ) (main (F := F))) ⟨m, fun _ => 0, ρ⟩ (fun r => ∀ c : Dev nD,
      r.2.mem ((c.tc : Thread nD τ).loc main_v27) = (dat1 (U7 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tn m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨(h c _ (mem_uc main_v27 (by decide))).trans (W8_v27 m c),
       (h c _ (mem_uc main_arg0 (by decide))).trans (W8_main_arg0 m c),
       (h c _ (mem_uc main_arg1 (by decide))).trans (W8_main_arg1 m c),
       (h c _ (mem_uc main_arg2 (by decide))).trans (W8_main_arg2 m c),
       (h c _ (mem_uc main_arg3 (by decide))).trans (W8_main_arg3 m c),
       (h c _ (mem_uc main_arg4 (by decide))).trans (W8_main_arg4 m c)⟩)

end Cert.KernelIdeal.Reg

end
-- ==== Proof.ReferenceIdeal.Vals.lean ====
/-
  The reference's buffer contents between the items of its program: the launch memory, then what the first sixty
  host operations compute from it, then what the remaining seventeen do.  The host operations only write buffers of
  their own: none allocates, and none writes an argument array, so each argument reads as launched afterwards.
-/
import proofs.«100627_g2000204067356750_pallasbulk_973_2_alg».proof.Proof.Gen.ReferenceIdeal.Launch
import Idealize.ShloMosaic.Lib.Pipeline.Frame
import Idealize.ShloMosaic.Lib.Pipeline.Regions

set_option maxRecDepth 16384

noncomputable section

namespace Cert.ReferenceIdeal.Host

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen

variable {F : FTy → Type} [FloatOps F]

variable (m : (ℓ : Loc nD τ sig) → Buf (Elt F) ℓ)

/-- Core `c`'s unscoped buffers at launch. -/
abbrev V0 (c : Dev nD) : Valuation τ sig (Elt F) := fun b => m (c, b)
/-- After the first sixty host operations. -/
abbrev V1 (c : Dev nD) : Valuation τ sig (Elt F) := StableHlo.after main_part0_ops0 (V0 m c)
/-- After the remaining seventeen: what the first region is entered from. -/
abbrev V2 (c : Dev nD) : Valuation τ sig (Elt F) := StableHlo.after main_part1_ops0 (V1 m c)

/-- No host operation allocates a buffer. -/
theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor

/-- No host operation writes `main_arg0`. -/
theorem V2_main_arg0 (c : Dev nD) : V2 m c (Proc.devRef .tc main_arg0) = m ((c : Thread nD τ).loc main_arg0) :=
  have h1 : V2 m c (Proc.devRef .tc main_arg0) = V1 m c (Proc.devRef .tc main_arg0) := StableHlo.after_of_forall_not_mem (b := Proc.devRef .tc main_arg0) _ _ (List.forall_iff_forall_mem.mp (by
      simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have h0 : V1 m c (Proc.devRef .tc main_arg0) = V0 m c (Proc.devRef .tc main_arg0) := StableHlo.after_of_forall_not_mem (b := Proc.devRef .tc main_arg0) _ _ (List.forall_iff_forall_mem.mp (by
      simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  h1.trans (h0.trans rfl)
/-- No host operation writes `main_arg1`. -/
theorem V2_main_arg1 (c : Dev nD) : V2 m c (Proc.devRef .tc main_arg1) = m ((c : Thread nD τ).loc main_arg1) :=
  have h1 : V2 m c (Proc.devRef .tc main_arg1) = V1 m c (Proc.devRef .tc main_arg1) := StableHlo.after_of_forall_not_mem (b := Proc.devRef .tc main_arg1) _ _ (List.forall_iff_forall_mem.mp (by
      simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have h0 : V1 m c (Proc.devRef .tc main_arg1) = V0 m c (Proc.devRef .tc main_arg1) := StableHlo.after_of_forall_not_mem (b := Proc.devRef .tc main_arg1) _ _ (List.forall_iff_forall_mem.mp (by
      simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  h1.trans (h0.trans rfl)
/-- No host operation writes `main_arg2`. -/
theorem V2_main_arg2 (c : Dev nD) : V2 m c (Proc.devRef .tc main_arg2) = m ((c : Thread nD τ).loc main_arg2) :=
  have h1 : V2 m c (Proc.devRef .tc main_arg2) = V1 m c (Proc.devRef .tc main_arg2) := StableHlo.after_of_forall_not_mem (b := Proc.devRef .tc main_arg2) _ _ (List.forall_iff_forall_mem.mp (by
      simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have h0 : V1 m c (Proc.devRef .tc main_arg2) = V0 m c (Proc.devRef .tc main_arg2) := StableHlo.after_of_forall_not_mem (b := Proc.devRef .tc main_arg2) _ _ (List.forall_iff_forall_mem.mp (by
      simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  h1.trans (h0.trans rfl)
/-- No host operation writes `main_arg3`. -/
theorem V2_main_arg3 (c : Dev nD) : V2 m c (Proc.devRef .tc main_arg3) = m ((c : Thread nD τ).loc main_arg3) :=
  have h1 : V2 m c (Proc.devRef .tc main_arg3) = V1 m c (Proc.devRef .tc main_arg3) := StableHlo.after_of_forall_not_mem (b := Proc.devRef .tc main_arg3) _ _ (List.forall_iff_forall_mem.mp (by
      simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have h0 : V1 m c (Proc.devRef .tc main_arg3) = V0 m c (Proc.devRef .tc main_arg3) := StableHlo.after_of_forall_not_mem (b := Proc.devRef .tc main_arg3) _ _ (List.forall_iff_forall_mem.mp (by
      simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  h1.trans (h0.trans rfl)
/-- No host operation writes `main_arg4`. -/
theorem V2_main_arg4 (c : Dev nD) : V2 m c (Proc.devRef .tc main_arg4) = m ((c : Thread nD τ).loc main_arg4) :=
  have h1 : V2 m c (Proc.devRef .tc main_arg4) = V1 m c (Proc.devRef .tc main_arg4) := StableHlo.after_of_forall_not_mem (b := Proc.devRef .tc main_arg4) _ _ (List.forall_iff_forall_mem.mp (by
      simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have h0 : V1 m c (Proc.devRef .tc main_arg4) = V0 m c (Proc.devRef .tc main_arg4) := StableHlo.after_of_forall_not_mem (b := Proc.devRef .tc main_arg4) _ _ (List.forall_iff_forall_mem.mp (by
      simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  h1.trans (h0.trans rfl)

end Cert.ReferenceIdeal.Host

end
-- ==== Proof.ReferenceIdeal.Region0.lean ====
/-
  The first kernel region: the packed perceptron on one block of rows.

  At a grid point the body reads five staged blocks whole — the block of rows of `z`, the two packed weight
  matrices and the two bias rows — and writes one block of `T` whole: the value `k0_pay1` of the five blocks it
  read.  So after the body the output window's buffer is that value at every index, whatever it held before,
  and the input windows' buffers are as they were.  The proof data of the pipeline says exactly this at every
  point: each input window's buffer holds its block of the array as the region found it, the output window's
  buffer holds `k0_pay1` of those blocks.  Nothing here depends on what the arithmetic is, nor on the float
  instance.
-/
import proofs.«100627_g2000204067356750_pallasbulk_973_2_alg».proof.Proof.Gen.ReferenceIdeal.Launch
import proofs.«100627_g2000204067356750_pallasbulk_973_2_alg».proof.Proof.Gen.ReferenceIdeal.Skeleton
import proofs.«100627_g2000204067356750_pallasbulk_973_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the block was fetched at that point or
    stayed from an earlier one (its block index had not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole buffer -/

abbrev r0_0 : Rect S512x512 := Rect.unit (s := S512x512) ![0, 0] S512x512.size inb_S512x512_S512x512_0_0
abbrev r0_1 : Rect S512x128 := Rect.unit (s := S512x128) ![0, 0] S512x128.size inb_S512x128_S512x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_5 : Rect S512x128 := Rect.unit (s := S512x128) ![0, 0] S512x128.size inb_S512x128_S512x128_0_0

/-! ## What the body leaves in the output window's buffer -/

/-- The output buffer after the body, from the five input blocks: its one store, of the whole buffer. -/
def out0_5 (x0 : Vec F S512x512 .f32) (x1 : Vec F S512x128 .f32) (x2 : Vec F S1x128 .f32) (x3 : Vec F S128x128 .f32) (x4 : Vec F S1x128 .f32) : Vec F S512x128 .f32 :=
  View.canon [⟨r0_5, k0_pay1 (View.ld x0 r0_0) (View.ld x1 r0_1) (View.ld x2 r0_2) (View.ld x3 r0_3) (View.ld x4 r0_2)⟩]

/-- The one store covers the buffer. -/
theorem cover0_5 (p0 : Vec F S512x128 .f32) (y : S512x128.Idx) :
    ∃ pc ∈ ([⟨r0_5, p0⟩] : List (View.Piece (Elt F) S512x128 .f32)), y ∈ pc.1.set :=
  View.cover_of_tiled [⟨r0_5, p0⟩] S512x128.size (by rfl) y

/-! ## The body's triple -/

set_option maxHeartbeats 4000000 in
/-- The body on whole staging buffers, the inputs' at contents `x0 … x4` and the output's at anything, runs to a
    state holding the inputs' as they were and the output's at `out0_5` of them. -/
theorem sound_kernel0 (c : Dev nD) (E : Set ℕ) (i : grid0.Coords) (arg1 : Memref sig .tc .vmem S512x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole)
    (x0 : Vec F S512x512 .f32) (x1 : Vec F S512x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0_mlp_kernel i arg1 harg1 arg2 harg2 arg3 harg3 arg4 harg4 arg5 harg5 arg6 harg6) K := by
  simp only [cc0_mlp_kernel_eq_skeleton]; unfold cc0_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the first pipeline on core `c`: the arrays as the region finds them; after the body at point
    `t` each input's buffer at its block and the output's at `out0_5` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Reg

end
-- ==== Proof.ReferenceIdeal.Region1.lean ====
/-
  The second kernel region: one tile of the Gram matrix.

  At grid point `(i, j)` the body reads two staged blocks of rows of `T` whole — block `i` through the first window,
  block `j` through the second — and writes one square tile of the result whole: the value `k1_pay1` of the two
  blocks.  Both input windows read the SAME array, so the core holds that array in two halves of the full share,
  one per window; the output array is held whole.  After the body the output window's buffer is `k1_pay1` of the
  two blocks at every index and the input windows' buffers are as they were.
-/
import proofs.«100627_g2000204067356750_pallasbulk_973_2_alg».proof.Proof.Gen.ReferenceIdeal.Launch
import proofs.«100627_g2000204067356750_pallasbulk_973_2_alg».proof.Proof.Gen.ReferenceIdeal.Skeleton
import proofs.«100627_g2000204067356750_pallasbulk_973_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the block was fetched at that point or
    stayed from an earlier one (its block index had not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: both loads and the store take a whole buffer -/

abbrev r1_0 : Rect S512x128 := Rect.unit (s := S512x128) ![0, 0] S512x128.size inb_S512x128_S512x128_0_0
abbrev r1_2 : Rect S512x512 := Rect.unit (s := S512x512) ![0, 0] S512x512.size inb_S512x512_S512x512_0_0

/-! ## What the body leaves in the output window's buffer -/

/-- The output buffer after the body, from the two input blocks: its one store, of the whole buffer. -/
def out1_2 (x0 : Vec F S512x128 .f32) (x1 : Vec F S512x128 .f32) : Vec F S512x512 .f32 :=
  View.canon [⟨r1_2, k1_pay1 (View.ld x0 r1_0) (View.ld x1 r1_0)⟩]

/-- The one store covers the buffer. -/
theorem cover1_2 (p0 : Vec F S512x512 .f32) (y : S512x512.Idx) :
    ∃ pc ∈ ([⟨r1_2, p0⟩] : List (View.Piece (Elt F) S512x512 .f32)), y ∈ pc.1.set :=
  View.cover_of_tiled [⟨r1_2, p0⟩] S512x512.size (by rfl) y

/-! ## The body's triple -/

set_option maxHeartbeats 4000000 in
/-- The body on whole staging buffers, the inputs' at contents `x0`, `x1` and the output's at anything, runs to a
    state holding the inputs' as they were and the output's at `out1_2` of them. -/
theorem sound_kernel1 (c : Dev nD) (E : Set ℕ) (i : grid1.Coords) (arg2 : Memref sig .tc .vmem S512x128 .f32) (harg2 : arg2.IsWhole) (arg3 : Memref sig .tc .vmem S512x128 .f32) (harg3 : arg3.IsWhole) (arg4 : Memref sig .tc .vmem S512x512 .f32) (harg4 : arg4.IsWhole)
    (x0 : Vec F S512x128 .f32) (x1 : Vec F S512x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_gram_kernel i arg2 harg2 arg3 harg3 arg4 harg4) K := by
  simp only [cc1_gram_kernel_eq_skeleton]; unfold cc1_gram_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the second pipeline on core `c`: the arrays as the region finds them; after the body at point
    `t` each input's buffer at its block and the output's at `out1_2` of the input blocks; nothing owed; the two input
    windows hold their one array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- The shares the core holds the three windows' arrays at. -/
theorem share1_0 (c : Dev nD) : (dat1 V c).share 0 = fullShare.left := by unfold Dat.share; dsimp only [dat1]; rfl
theorem share1_1 (c : Dev nD) : (dat1 V c).share 1 = fullShare.right := by unfold Dat.share; dsimp only [dat1]; rfl
theorem share1_2 (c : Dev nD) : (dat1 V c).share 2 = fullShare := by unfold Dat.share; dsimp only [dat1]; rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.ReferenceIdeal.Reg

end
-- ==== Proof.ReferenceIdeal.Shared1.lean ====
/-
  The second region's two input windows read one array.

  The core's unscoped buffers hold that array once, at the full share; the pipeline wants it once per window.  At
  the region's entry the full share is cut into its two halves, one for each input window; both windows only read,
  so at the exit each half still holds the array as it was and the halves join back to the full share.  The output
  window's array is a different buffer and is held whole throughout.
-/
import proofs.«100627_g2000204067356750_pallasbulk_973_2_alg».proof.Proof.Gen.ReferenceIdeal.Launch
import proofs.«100627_g2000204067356750_pallasbulk_973_2_alg».proof.Proof.Gen.ReferenceIdeal.Skeleton
import proofs.«100627_g2000204067356750_pallasbulk_973_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«100627_g2000204067356750_pallasbulk_973_2_alg».proof.Proof.ReferenceIdeal.Region1

set_option maxRecDepth 16384

noncomputable section

namespace Cert.ReferenceIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows' arrays are two: the array of `T` and the result array. -/
theorem arrs1 : Finset.univ.image (Pipeline.arrRef spec1) = {main_v58, main_v59} := by decide

/-- ENTRY: the two buffers, each whole at the full share at the contents the region finds, are the pipeline's three
    arrays at their entry contents: the array of `T` once at each half share, the result array whole. -/
theorem arrays1_of_bufs (c : Dev nD) :
    (Pipeline.arrBufs (Ix := Unit) (Name := ℕ) (U := UR sig nD τ) (Lvl := ℕ) spec1 c (V c) : sProp 𝕄)
      ⊢ (dat1 V c).arrays ((dat1 V c).arrAt · 0) := by
  unfold Pipeline.arrBufs Dat.arrays
  rw [arrs1, bigSep_insert (by decide), bigSep_singleton, bigSep_W1]
  rw [share1_0, share1_1, share1_2, (arr_whole1 0).set_eq_univ, (arr_whole1 2).set_eq_univ]
  change iprop(_ ∗ _) ⊢ _
  iintro ⟨H26, H27⟩
  ihave H := (pointsTo_share (PosShare.mem_left_op_right fullShare)).1 $$ H26
  icases H with ⟨HL, HR⟩
  isplitl [HL]; · iexact HL
  isplitl [HR]; · iexact HR
  iexact H27

/-- EXIT: the pipeline's three arrays, the two input windows' at one and the same contents, are the two buffers
    whole at the full share at any contents `V'` that has the array of `T` at that and the result array at the output
    window's. -/
theorem bufs_of_arrays1 (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v58) (h1 : G 1 = V' main_v58) (h2 : G 2 = V' main_v59) :
    (dat1 V c).arrays G
      ⊢ (Pipeline.arrBufs (Ix := Unit) (Name := ℕ) (U := UR sig nD τ) (Lvl := ℕ) spec1 c V' : sProp 𝕄) := by
  unfold Pipeline.arrBufs Dat.arrays
  rw [arrs1, bigSep_insert (by decide), bigSep_singleton, bigSep_W1]
  rw [share1_0, share1_1, share1_2, (arr_whole1 0).set_eq_univ, (arr_whole1 2).set_eq_univ, h0, h1, h2]
  change _ ⊢ iprop(_ ∗ _)
  iintro ⟨HL, HR, H27⟩
  isplitl [HL HR]
  · iapply (pointsTo_share (PosShare.mem_left_op_right fullShare)).2
    isplitl [HL]; · iexact HL
    iexact HR
  iexact H27

end Cert.ReferenceIdeal.Reg

end
-- ==== Proof.ReferenceIdeal.Run.lean ====
/-
  The whole run: the host operations, then the two kernel regions, from the launch to the return.

  Between two items of the program the core holds every unscoped buffer whole at known contents: the launch memory,
  then what each of the two stretches of host operations computes from it, then — after the first region — the array of `T` at
  what that region's write-backs leave, and — after the second — the result array at what the second region's
  write-backs leave; every other buffer keeps what it held.  No item writes an argument array.  So every weakly
  fair execution terminates without a fault, the arguments end as launched, and the result array ends at the
  second pipeline's final contents, whose entry contents are the first pipeline's final contents.
-/
import proofs.«100627_g2000204067356750_pallasbulk_973_2_alg».proof.Proof.ReferenceIdeal.Vals
import Idealize.ShloMosaic.Lib.Pipeline.Frame
import Idealize.ShloMosaic.Lib.Pipeline.Regions
import proofs.«100627_g2000204067356750_pallasbulk_973_2_alg».proof.Proof.ReferenceIdeal.Region0
import proofs.«100627_g2000204067356750_pallasbulk_973_2_alg».proof.Proof.ReferenceIdeal.Region1
import proofs.«100627_g2000204067356750_pallasbulk_973_2_alg».proof.Proof.ReferenceIdeal.Shared1

set_option maxRecDepth 16384

noncomputable section

namespace Cert.ReferenceIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen Cert.ReferenceIdeal.Host

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- What the first region is entered from: the launch memory after the host operations (`V2`), read at the core's
    references. -/
abbrev U2 : (c : Dev nD) → (b : Ref sig .tc) → Buf (Elt F) ((c : Thread nD τ).loc b) := fun c b => V2 m c b

/-- At the first region's exit: its arrays at what the pipeline leaves (the inputs as entered, the output's
    write-backs folded), every other buffer as entered. -/
def W3 (c : Dev nD) : Valuation τ sig (Elt F) :=
  Pipeline.withArrays spec0 c (V2 m c) fun w => (dat0 (U2 m) c).arrAt w cfg0.N
theorem W3_arr (c : Dev nD) (w : Fin cfg0.W) :
    W3 m c (Proc.devRef .tc (Pipeline.arrRef spec0 w)) = (dat0 (U2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = V2 m c (Proc.devRef .tc b) := by
  unfold W3; exact Pipeline.withArrays_of_ne spec0 c _ _ b hb
/-- The same read at the core's references: what the second region is entered from. -/
abbrev U3 : (c : Dev nD) → (b : Ref sig .tc) → Buf (Elt F) ((c : Thread nD τ).loc b) := fun c b => W3 m c b
theorem hF0 (c : Dev nD) (w : Fin cfg0.W) : (dat0 (U2 m) c).arrAt w cfg0.N = U3 m c (Pipeline.arrRef spec0 w) :=
  (W3_arr m c w).symm
theorem hrest0 (c : Dev nD) : ∀ b, b ∉ Finset.univ.image (Pipeline.arrRef spec0) → U3 m c b = U2 m c b :=
  fun b hb => W3_of_ne m c b fun w e => hb (Finset.mem_image.mpr ⟨w, Finset.mem_univ _, e⟩)

/-- At the second region's exit: the result array at what the pipeline leaves, every other buffer as entered (both
    input windows only read the array of `T`). -/
def W4 (c : Dev nD) : Valuation τ sig (Elt F) :=
  Function.update (W3 m c) (Proc.devRef .tc main_v59) ((dat1 (U3 m) c).arrAt 2 cfg1.N)
theorem W4_v27 (c : Dev nD) : W4 m c (Proc.devRef .tc main_v59) = (dat1 (U3 m) c).arrAt 2 cfg1.N := by
  unfold W4; exact Function.update_self ..
theorem W4_of_ne (c : Dev nD) (b : Ref sig .tc) (hb : b ≠ main_v59) :
    W4 m c (Proc.devRef .tc b) = W3 m c (Proc.devRef .tc b) := by
  unfold W4; exact Function.update_of_ne (StableHlo.devRef_ne_of_ne hb) _ _
abbrev U4 : (c : Dev nD) → (b : Ref sig .tc) → Buf (Elt F) ((c : Thread nD τ).loc b) := fun c b => W4 m c b

/-! ### The arguments end as launched -/

theorem W4_main_arg0 (c : Dev nD) : W4 m c (Proc.devRef .tc main_arg0) = m ((c : Thread nD τ).loc main_arg0) :=
  (W4_of_ne m c main_arg0 (by decide)).trans <| ((W3_arr m c 0).trans (((dat0 (U2 m) c).arrAt_in 0 rfl _).trans (A_eq0 (U2 m) c 0))).trans <|
  V2_main_arg0 m c
theorem W4_main_arg1 (c : Dev nD) : W4 m c (Proc.devRef .tc main_arg1) = m ((c : Thread nD τ).loc main_arg1) :=
  (W4_of_ne m c main_arg1 (by decide)).trans <| (W3_of_ne m c main_arg1 (by decide)).trans <|
  V2_main_arg1 m c
theorem W4_main_arg2 (c : Dev nD) : W4 m c (Proc.devRef .tc main_arg2) = m ((c : Thread nD τ).loc main_arg2) :=
  (W4_of_ne m c main_arg2 (by decide)).trans <| (W3_of_ne m c main_arg2 (by decide)).trans <|
  V2_main_arg2 m c
theorem W4_main_arg3 (c : Dev nD) : W4 m c (Proc.devRef .tc main_arg3) = m ((c : Thread nD τ).loc main_arg3) :=
  (W4_of_ne m c main_arg3 (by decide)).trans <| (W3_of_ne m c main_arg3 (by decide)).trans <|
  V2_main_arg3 m c
theorem W4_main_arg4 (c : Dev nD) : W4 m c (Proc.devRef .tc main_arg4) = m ((c : Thread nD τ).loc main_arg4) :=
  (W4_of_ne m c main_arg4 (by decide)).trans <| (W3_of_ne m c main_arg4 (by decide)).trans <|
  V2_main_arg4 m c

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U2 m) c
  | ⟨1, _⟩ => fun c => dat1 (U3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes
    nothing. -/
abbrev Rr (c : Dev nD) : sProp 𝕄 := iprop((∃ r, prngReg c r) ∗ ∃ W, owes (c : Thread nD τ) (0 : CellTallies nD τ sig Unit) W)
/-- A stretch of host operations as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tn (c : Dev nD) : sProp 𝕄 := iprop(StableHlo.held (c : Thread nD τ) (Pipeline.ucRefs τ sig) (W4 m c) ∗ ∃ r, prngReg c r)

/-! ## The regions as items of the run -/

set_option backward.isDefEq.respectTransparency.types false in
/-- The first region: entered from every unscoped buffer at `V2`, left at `W3`.  Its arrays are distinct buffers:
    split out of the unscoped buffers at entry, put back at their final contents at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U2 m) c).loose
  hwaits := Pipeline.hwaits_of_owed_zero _ _ _ _ L lv 0 fun _ _ => rfl
  pre c := iprop(StableHlo.held (c : Thread nD τ) (Pipeline.ucRefs τ sig) (V2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec0 c (U2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U2 m c) (U3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off the second region's arrays the exit contents are the entry contents. -/
theorem rest1_eq (c : Dev nD) :
    (Pipeline.unscopedRest (Ix := Unit) (Name := ℕ) (U := UR sig nD τ) (Lvl := ℕ) spec1 c (U4 m c) : sProp 𝕄)
      = Pipeline.unscopedRest spec1 c (U3 m c) := by
  unfold Pipeline.unscopedRest
  refine bigSep_congr fun b hb => ?_
  have hne : b ≠ main_v59 := fun e => (Finset.mem_sdiff.mp hb).2 (by rw [e, arrs1]; decide)
  rw [show U4 m c b = U3 m c b from W4_of_ne m c b hne]

set_option backward.isDefEq.respectTransparency.types false in
/-- The second region: entered from every unscoped buffer at `W3`, left at `W4`.  Its two input windows share the
    array of `T`: the unscoped buffers split into the two buffers behind the arrays and the rest, the shared one's full
    share halved at entry and joined at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0) ∗ Pipeline.unscopedRest spec1 c (U3 m c)) := by
      rw [← Pipeline.unscopedBufs_held c (W3 m c), Pipeline.unscopedBufs_split₀ cfgs 1 winFacts₀1.arr_unscoped c (U3 m c)]
      exact sep_mono (arrays1_of_bufs (U3 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (U3 m c))
        ⊢ (StableHlo.held (c : Thread nD τ) (Pipeline.ucRefs τ sig) (W4 m c) : sProp 𝕄) := by
      rw [← Pipeline.unscopedBufs_held c (W4 m c), Pipeline.unscopedBufs_split₀ cfgs 1 winFacts₀1.arr_unscoped c (U4 m c)]
      refine BIClass.sep_mono (bufs_of_arrays1 (U3 m) c (U4 m c) _ ?_ ?_ ?_) (Entails.of_eq (rest1_eq m c).symm)
      · exact (((dat1 (U3 m) c).arrAt_in 0 rfl _).trans (A_eq1 (U3 m) c 0)).trans (W4_of_ne m c main_v58 (by decide)).symm
      · exact (((dat1 (U3 m) c).arrAt_in 1 rfl _).trans (A_eq1 (U3 m) c 1)).trans (W4_of_ne m c main_v58 (by decide)).symm
      · exact (W4_v27 m c).symm
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's four items in order: two stretches of host operations, then the two regions. -/
abbrev items : List (Pipeline.Seg (pcfgs (F := F)) adm (pdats m) () defs₀ 𝒱₀ L lv) :=
  [ .host (hseg main_part0_ops0 main_part0_ops0_sub main_part0_ops0_fresh (V0 m)),
    .host (hseg main_part1_ops0 main_part1_ops0_sub main_part1_ops0_fresh (V1 m)),
    .region (reg0 m),
    .region (reg1 m) ]
/-- The program is the run of its items. -/
theorem main_run (c : Dev nD) : main (F := F) c = Pipeline.Seg.run (items m) := (main_chain_windows c).trans (by chain_rfl)

set_option backward.isDefEq.respectTransparency.types false in
/-- THE RUN, at any float instance: from any memory with zero counters every weakly fair execution of the program
    terminates, nothing faulting, and every final state has the result array at the second pipeline's final contents and
    the five argument arrays as launched. -/
theorem run_all : θ_run defs (onTc (τ := τ) (main (F := F))) ⟨m, fun _ => 0, ρ⟩ (fun r => ∀ c : Dev nD,
      r.2.mem ((c.tc : Thread nD τ).loc main_v59) = (dat1 (U3 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tn m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v59 (by decide))).trans (W4_v27 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.ReferenceIdeal.Reg

end
-- ==== Proof.Spec.lean ====
/-
  The function both programs compute, over plain coordinates.

  A node embedding row `z i` (512 features) goes through one packed two-layer perceptron of 128 lanes:
  `h = leaky (z i · W₁ + b₁)`, `T i = leaky (h · W₂ + b₂)`, where `leaky x` is `x` for `0 < x` and `x` scaled by the
  fixed slope otherwise.  The result is the Gram matrix `out i j = ∑ k, T i k * T j k`.

  The packed weights hold three relations side by side: columns `32 r … 32 r + 31` of `W₁` and `b₁` are relation `r`'s
  first layer (columns from 96 on are zero), and `W₂` is block diagonal, block `r` at rows `32 r …`, columns
  `16 r …` (zero elsewhere); `b₂` holds the second-layer biases in columns `16 r …` and zero from column 48 on.
  Sums over the extended reals are commutative and associative, so how a program tiles the rows plays no part.
-/
import Idealize.ShloMosaic.PureOps.Ideal
import Idealize.ShloMosaic.Lib.ValueIdx

noncomputable section

namespace Cert.Spec

open Idealize.ShloMosaic

/-- The slope of the leaky rectifier, as the extended real its single-precision pattern denotes. -/
def slope : EReal := Ideal.ofBits .f32 0x3C23D70A#32

/-- Zero, as the extended real the all-zero single-precision pattern denotes. -/
def zero : EReal := Ideal.ofBits .f32 0x00000000#32

/-- The leaky rectifier: `x` where `x` is greater than zero, `slope * x` elsewhere. -/
def leaky (x : EReal) : EReal := Scalar.select (Ideal.cmp .ogt x zero) x (slope * x)

/-- One entry of the first layer: the row against column `h` of `W₁`, plus the bias, rectified. -/
def hEntry (zrow : Fin 512 → EReal) (w1 : Fin 512 → Fin 128 → EReal) (b1 : Fin 128 → EReal) (h : Fin 128) : EReal :=
  leaky ((∑ d : Fin 512, zrow d * w1 d h) + b1 h)

/-- One entry of the second layer, from the whole first-layer row. -/
def tEntry (zrow : Fin 512 → EReal) (w1 : Fin 512 → Fin 128 → EReal) (b1 : Fin 128 → EReal)
    (w2 : Fin 128 → Fin 128 → EReal) (b2 : Fin 128 → EReal) (k : Fin 128) : EReal :=
  leaky ((∑ h : Fin 128, hEntry zrow w1 b1 h * w2 h k) + b2 k)

/-- One entry of the Gram matrix: two rows of `T` against each other. -/
def gramEntry (u v : Fin 128 → EReal) : EReal := ∑ k : Fin 128, u k * v k

/-- The perceptron applied to every row. -/
def T (z : Fin 8192 → Fin 512 → EReal) (w1 : Fin 512 → Fin 128 → EReal) (b1 : Fin 128 → EReal)
    (w2 : Fin 128 → Fin 128 → EReal) (b2 : Fin 128 → EReal) : Fin 8192 → Fin 128 → EReal :=
  fun i k => tEntry (z i) w1 b1 w2 b2 k

/-- The Gram matrix of the rows of `t`. -/
def gram (t : Fin 8192 → Fin 128 → EReal) : Fin 8192 → Fin 8192 → EReal :=
  fun i j => gramEntry (t i) (t j)

/-! ## The packed weights -/

/-- `W₁` packed: column `c < 96` is column `c % 32` of relation `c / 32`; later columns are zero. -/
def w1p (w1 : Fin 3 → Fin 512 → Fin 32 → EReal) : Fin 512 → Fin 128 → EReal :=
  fun d c => if h : c.val < 96 then w1 ⟨c.val / 32, by omega⟩ d ⟨c.val % 32, Nat.mod_lt _ (by decide)⟩ else zero

/-- `b₁` packed the same way. -/
def b1p (b1 : Fin 3 → Fin 32 → EReal) : Fin 128 → EReal :=
  fun c => if h : c.val < 96 then b1 ⟨c.val / 32, by omega⟩ ⟨c.val % 32, Nat.mod_lt _ (by decide)⟩ else zero

/-- `W₂` packed block-diagonally: entry `(h, k)` is relation `h / 32`'s entry `(h % 32, k % 16)` when `h < 96` and
    column `k` lies in that relation's block (`k / 16 = h / 32`), zero elsewhere. -/
def w2p (w2 : Fin 3 → Fin 32 → Fin 16 → EReal) : Fin 128 → Fin 128 → EReal :=
  fun h k => if hh : h.val < 96 ∧ k.val / 16 = h.val / 32 then
    w2 ⟨h.val / 32, by omega⟩ ⟨h.val % 32, Nat.mod_lt _ (by decide)⟩ ⟨k.val % 16, Nat.mod_lt _ (by decide)⟩ else zero

/-- `b₂` packed: column `k < 48` is entry `k % 16` of relation `k / 16`; later columns are zero. -/
def b2p (b2 : Fin 3 → Fin 16 → EReal) : Fin 128 → EReal :=
  fun k => if h : k.val < 48 then b2 ⟨k.val / 16, by omega⟩ ⟨k.val % 16, Nat.mod_lt _ (by decide)⟩ else zero

/-- The whole function of the five argument arrays. -/
def result (z : Fin 8192 → Fin 512 → EReal) (w1 : Fin 3 → Fin 512 → Fin 32 → EReal) (b1 : Fin 3 → Fin 32 → EReal)
    (w2 : Fin 3 → Fin 32 → Fin 16 → EReal) (b2 : Fin 3 → Fin 16 → EReal) : Fin 8192 → Fin 8192 → EReal :=
  gram (T z (w1p w1) (b1p b1) (w2p w2) (b2p b2))

end Cert.Spec

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.LibTransDot.lean ====
/-
  A matrix product against a transposed right operand, read at an index.

  For dimension numbers that contract the left operand's axis 1 with the right operand's axis 1 and have no batch
  axes, the accelerator's matmul into a zero accumulator and the host's dot_general are, at the extended reals, both
  the sum over the contracted coordinate κ of the products l (p, κ) * r (q, κ): row p of the left operand against
  row q of the right one.
-/
import Idealize.ShloMosaic.PureOps.Ideal.Laws
import Idealize.ShloMosaic.Lib.ValueIdx

noncomputable section

open scoped BigOperators

namespace Idealize.ShloMosaic.TransDot
open Idealize.ShloMosaic Idealize.ShloMosaic.ValueIdx

/-- M×K by N×K: the left operand's axis 1 contracted with the right's axis 1, no batch axes. -/
structure IsTrans {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Axes
variable {M K N : Nat} (d : DotDims ⟨2, ![M, K]⟩ ⟨2, ![N, K]⟩ ⟨2, ![M, N]⟩) (hd : IsTrans d)
include hd

/-- Exactly one axis is contracted. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the output's column coordinate. -/
theorem rhs_axis0 (j : (⟨2, ![M, N]⟩ : Shape).Idx) (k : d.contr.Idx) : (d.rhsIdx j k 0).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The right operand's column coordinate is the contracted coordinate. -/
theorem rhs_axis1 (j : (⟨2, ![M, N]⟩ : Shape).Idx) (k : d.contr.Idx) :
    (d.rhsIdx j k 1).val = (k ⟨0, by rw [contr_rank d hd]; exact Nat.one_pos⟩).val :=
  d.rhsIdx_val_of_single hd.rc j k

/-- The sum over the contraction index, re-indexed by the contracted coordinate: the operands are read at (p, κ)
    and (q, κ). -/
theorem sum_contr_trans {φ₁ φ₂ : FTy} (l : FVec Ideal ⟨2, ![M, K]⟩ φ₁) (r : FVec Ideal ⟨2, ![N, K]⟩ φ₂)
    (p : Fin M) (q : Fin N) :
    ∑ k : d.contr.Idx, l (d.lhsIdx (ix2 p q) k) * r (d.rhsIdx (ix2 p q) k) = ∑ κ : Fin K, l (ix2 p κ) * r (ix2 q κ) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 q κ := by
    funext a
    match a with
    | ⟨0, _⟩ => exact Fin.ext (rhs_axis0 d hd _ _)
    | ⟨1, _⟩ => exact Fin.ext ((rhs_axis1 d hd _ _).trans (contrEquiv1_symm_val d K _ _ κ))
  rw [hl, hr]

end Axes

/-- The accelerator's matmul into the zero accumulator, against a transposed right operand, at (p, q): the sum over
    κ of l (p, κ) * r (q, κ). -/
theorem matmul_zero_trans {M K N : Nat} {φ₁ φ₂ : FTy} (d : DotDims ⟨2, ![M, K]⟩ ⟨2, ![N, K]⟩ ⟨2, ![M, N]⟩) (hd : IsTrans d)
    (prec : Option ContractPrecision) (l : FVec Ideal ⟨2, ![M, K]⟩ φ₁) (r : FVec Ideal ⟨2, ![N, K]⟩ φ₂) (p : Fin M) (q : Fin N) :
    FloatOps.matmul d prec l r (constant ⟨2, ![M, N]⟩ .f32 0x00000000#32) (ix2 p q) = ∑ κ : Fin K, l (ix2 p κ) * r (ix2 q κ) :=
  (Ideal.matmul_constant_zero_apply d prec l r (ix2 p q)).trans (sum_contr_trans d hd l r p q)

/-- The host's dot_general against a transposed right operand, at (p, q): the same sum, whatever the schedule. -/
theorem dotGeneral_trans {M K N : Nat} {φ₁ φ₂ : FTy} (d : DotDims ⟨2, ![M, K]⟩ ⟨2, ![N, K]⟩ ⟨2, ![M, N]⟩) (hd : IsTrans d)
    (prec : Option ContractPrecision) (sched : HostSchedule)
    (l : FVec Ideal ⟨2, ![M, K]⟩ φ₁) (r : FVec Ideal ⟨2, ![N, K]⟩ φ₂) (p : Fin M) (q : Fin N) :
    FloatOps.dotGeneral d prec sched l r (ix2 p q) = ∑ κ : Fin K, l (ix2 p κ) * r (ix2 q κ) :=
  (Ideal.dotGeneral_apply d prec sched l r (ix2 p q)).trans (sum_contr_trans d hd l r p q)

end Idealize.ShloMosaic.TransDot

end
-- ==== Proof.PayKI.lean ====
/-
  The two kernel bodies read at an index.

  The perceptron body takes a block of 1024 rows of 512 features through both layers: a product with the first
  weights into a zero accumulator, the first bias row added to every row, the leaky rectifier, the same again with
  the second weights and bias, and a narrowing to bfloat16 that changes nothing at the extended reals.  Read at
  (p, q) it is entry q of the specification's second layer applied to row p of the block.  The Gram body is one
  product of two blocks of 1024 rows of 128 lanes, each contracted over its lanes: at (p, q) it is the
  specification's Gram entry of row p of the first block and row q of the second.
-/
import proofs.«100627_g2000204067356750_pallasbulk_973_2_alg».proof.Proof.Gen.KernelIdeal.Skeleton
import proofs.«100627_g2000204067356750_pallasbulk_973_2_alg».proof.Proof.Spec
import proofs.«100627_g2000204067356750_pallasbulk_973_2_alg».proof.Proof.LibPlainDot
import proofs.«100627_g2000204067356750_pallasbulk_973_2_alg».proof.Proof.LibTransDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay
open Idealize.ShloMosaic Idealize.ShloMosaic.ValueIdx Cert.KernelIdeal Cert.KernelIdeal.Gen

/-! ## The dimension numbers -/

/-- The first layer's product is 1024×512 by 512×128, contracted over the 512 features. -/
theorem plain_dot1 : PlainDot.IsPlain dot_S1024x512_S512x128_S1024x128_1_0_0_1_n_n := ⟨rfl, rfl, rfl, rfl, rfl, rfl⟩

/-- The second layer's product is 1024×128 by 128×128, contracted over the 128 hidden lanes. -/
theorem plain_dot2 : PlainDot.IsPlain dot_S1024x128_S128x128_S1024x128_1_0_0_1_n_n := ⟨rfl, rfl, rfl, rfl, rfl, rfl⟩

/-- The Gram product is 1024×128 by 1024×128, each operand contracted over its 128 lanes. -/
theorem trans_dot : TransDot.IsTrans dot_S1024x128_S1024x128_S1024x1024_1_1_0_0_n_n := ⟨rfl, rfl, rfl, rfl, rfl, rfl⟩

/-! ## The pieces of the perceptron on a block of 1024 rows -/

/-- The leaky rectifier on a whole vector: compare with zero, scale by the slope, select. -/
def leakyVec {s : Shape} (v : FVec Ideal s .f32) : FVec Ideal s .f32 :=
  select (cmpf .ogt v (broadcast s (Scalar.ofBits (F := Ideal) .f32 0x00000000#32))) v
    (mulf (broadcast s (Scalar.ofBits (F := Ideal) .f32 0x3C23D70A#32)) v)

/-- At an index it is the specification's rectifier of the element. -/
theorem leakyVec_apply {s : Shape} (v : FVec Ideal s .f32) (i : s.Idx) : leakyVec v i = Cert.Spec.leaky (v i) := rfl

/-- The first layer before its rectifier: the block times the first weights, plus the first bias row on every row. -/
def pre1 (x0 : FVec Ideal S1024x512 .f32) (x1 : FVec Ideal S512x128 .f32) (x2 : FVec Ideal S1x128 .f32) :
    FVec Ideal S1024x128 .f32 :=
  addf (matmul dot_S1024x512_S512x128_S1024x128_1_0_0_1_n_n none x0 x1 (constant (F := Ideal) S1024x128 .f32 0x00000000#32))
    (broadcastTo S1024x128 x2 broadcasts_S1x128_S1024x128)

/-- At (p, h): row p against column h of the first weights, plus entry h of the bias. -/
theorem pre1_apply (x0 : FVec Ideal S1024x512 .f32) (x1 : FVec Ideal S512x128 .f32) (x2 : FVec Ideal S1x128 .f32)
    (p : Fin 1024) (h : Fin 128) :
    pre1 x0 x1 x2 (ix2 p h) = (∑ d : Fin 512, x0 (ix2 p d) * x1 (ix2 d h)) + x2 (ix2 (0 : Fin 1) h) := by
  unfold pre1
  rw [addf_apply]
  exact congrArg₂ (· + ·) (PlainDot.matmul_zero_plain dot_S1024x512_S512x128_S1024x128_1_0_0_1_n_n plain_dot1 none x0 x1 p h)
    (broadcastTo_1b_ab_apply x2 broadcasts_S1x128_S1024x128 p h)

/-- The second layer before its rectifier: the hidden block times the second weights, plus the second bias row. -/
def pre2 (hid : FVec Ideal S1024x128 .f32) (x3 : FVec Ideal S128x128 .f32) (x4 : FVec Ideal S1x128 .f32) :
    FVec Ideal S1024x128 .f32 :=
  addf (matmul dot_S1024x128_S128x128_S1024x128_1_0_0_1_n_n none hid x3 (constant (F := Ideal) S1024x128 .f32 0x00000000#32))
    (broadcastTo S1024x128 x4 broadcasts_S1x128_S1024x128)

/-- At (p, k): hidden row p against column k of the second weights, plus entry k of the bias. -/
theorem pre2_apply (hid : FVec Ideal S1024x128 .f32) (x3 : FVec Ideal S128x128 .f32) (x4 : FVec Ideal S1x128 .f32)
    (p : Fin 1024) (k : Fin 128) :
    pre2 hid x3 x4 (ix2 p k) = (∑ h : Fin 128, hid (ix2 p h) * x3 (ix2 h k)) + x4 (ix2 (0 : Fin 1) k) := by
  unfold pre2
  rw [addf_apply]
  exact congrArg₂ (· + ·) (PlainDot.matmul_zero_plain dot_S1024x128_S128x128_S1024x128_1_0_0_1_n_n plain_dot2 none hid x3 p k)
    (broadcastTo_1b_ab_apply x4 broadcasts_S1x128_S1024x128 p k)

/-- The perceptron body is these pieces composed: the shape casts in it are identities, and so is the final
    narrowing at the extended reals. -/
theorem pay0_eq (x0 : Vec Ideal S1024x512 .f32) (x1 : Vec Ideal S512x128 .f32) (x2 : Vec Ideal S1x128 .f32)
    (x3 : Vec Ideal S128x128 .f32) (x4 : Vec Ideal S1x128 .f32) :
    k0_pay1 (F := Ideal) x0 x1 x2 x3 x4 = truncf .bf16 (leakyVec (pre2 (leakyVec (pre1 x0 x1 x2)) x3 x4)) bitsLt_bf16_f32 := by
  unfold k0_pay1
  simp only [shapeCast_self]
  rfl

/-- The perceptron body at (p, q) is entry q of the specification's second layer on row p of the block. -/
theorem pay0_apply (x0 : Vec Ideal S1024x512 .f32) (x1 : Vec Ideal S512x128 .f32) (x2 : Vec Ideal S1x128 .f32)
    (x3 : Vec Ideal S128x128 .f32) (x4 : Vec Ideal S1x128 .f32) (p : Fin 1024) (q : Fin 128) :
    k0_pay1 (F := Ideal) x0 x1 x2 x3 x4 (ix2 p q)
      = Cert.Spec.tEntry (fun d => x0 (ix2 p d)) (fun d h => x1 (ix2 d h)) (fun h => x2 (ix2 0 h))
          (fun h k => x3 (ix2 h k)) (fun k => x4 (ix2 0 k)) q := by
  rw [pay0_eq]
  simp only [truncf_apply, leakyVec_apply, pre2_apply, pre1_apply]
  rfl

/-! ## The Gram body -/

/-- The Gram body at (p, q) is row p of the first block against row q of the second. -/
theorem pay1_apply (a b : Vec Ideal S1024x128 .bf16) (p q : Fin 1024) :
    k1_pay1 (F := Ideal) a b (ix2 p q) = Cert.Spec.gramEntry (fun k => a (ix2 p k)) (fun k => b (ix2 q k)) := by
  unfold k1_pay1
  simp only [shapeCast_self]
  exact TransDot.matmul_zero_trans dot_S1024x128_S1024x128_S1024x1024_1_1_0_0_n_n trans_dot none a b p q

end Cert.KernelIdeal.Pay

end
-- ==== Proof.KernelIdeal.Val0.lean ====
/-
  The first kernel region's result array, index by index.

  The region's grid has 8 points; point `t` writes back block `t` of the result, rows `1024 t … 1024 t + 1023` of all 128
  lanes, and what it writes is the packed perceptron of the matching block of rows of `z`: entry `(p, q)` of the block
  is lane `q` of the perceptron applied to row `1024 t + p`.  The weights and biases reach every point whole (their
  windows sit at block index zero), so every point writes its block of ONE function of the five arrays as the region
  finds them, the perceptron row by row; the 8 blocks cover the result, and the array therefore ends holding that
  function at every index.
-/
import proofs.«100627_g2000204067356750_pallasbulk_973_2_alg».proof.Proof.KernelIdeal.Region0
import proofs.«100627_g2000204067356750_pallasbulk_973_2_alg».proof.Proof.PayKI
import proofs.«100627_g2000204067356750_pallasbulk_973_2_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Reg Cert.KernelIdeal.Pay

variable (V : (c : Dev nD) → (b : Ref sig .tc) → Buf (Elt Ideal) ((c : Thread nD τ).loc b))

/-- The offsets of a whole-buffer access are zero on both axes. -/
theorem zero_offsets0 : (![0, 0] : Fin 2 → Nat) = fun _ => 0 := funext fun a => by fin_cases a <;> rfl

/-! ## The function the result array ends holding -/

/-- The packed perceptron applied to every row of `Z`, as one function of the result's index: entry `(r, q)` is lane
    `q` of the perceptron of row `r`, with weights `W1`, `W2` and bias rows `B1`, `B2`. -/
def mlpOf (Z : S8192x512.Idx → EReal) (W1 : S512x128.Idx → EReal) (B1 : S1x128.Idx → EReal) (W2 : S128x128.Idx → EReal)
    (B2 : S1x128.Idx → EReal) : S8192x128.Idx → EReal :=
  fun i => Cert.Spec.T (fun r d => Z (ix2 r d)) (fun d h => W1 (ix2 d h)) (fun h => B1 (ix2 0 h)) (fun h k => W2 (ix2 h k))
    (fun k => B2 (ix2 0 k)) ⟨(i 0).val, (i 0).isLt⟩ ⟨(i 1).val, (i 1).isLt⟩

/-! ## The block indices over the grid -/

/-- At every grid point the window of `z` sits at the output block's row block and feature block zero; the four
    weight and bias windows sit at block index zero on both axes; the output's row block stays below 8 and its lane
    block is zero. -/
theorem block_indices0 : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 7 ∧ win0_5.index t (1 : Fin 2) = 0 :=
  (by decide +kernel : ∀ t : Fin grid0.N, _)

/-- Every one of the 8 row blocks is some point's. -/
theorem blocks_onto0 : ∀ q0 : Fin 8, ∃ t : Fin cfg0.N, win0_5.index t = ![q0.val, 0] :=
  (by decide +kernel : ∀ q0 : Fin 8, ∃ t : Fin grid0.N, win0_5.index t = ![q0.val, 0])

/-! ## The input blocks, read off their arrays -/

/-- Entry `x` of the block of rows of `z` at point `t` is the array's entry at block index × block size + `x`. -/
theorem iblk0_0_apply (c : Dev nD) (t : Fin cfg0.N) (x : S1024x512.Idx) (i : S8192x512.Idx)
    (h0 : (i 0).val = win0_0.index t (0 : Fin 2) * 1024 + (x 0).val) (h1 : (i 1).val = win0_0.index t (1 : Fin 2) * 512 + (x 1).val) :
    (iblk0 V c 0 t : Vec Ideal S1024x512 .f32) x = (V c main_arg0 : S8192x512.Idx → EReal) i := by
  unfold iblk0
  rw [View.read_apply]
  show V c main_arg0 _ = V c main_arg0 _
  congr 1
  funext a
  apply Fin.ext
  match a with
  | ⟨0, _⟩ => show win0_0.index t (0 : Fin 2) * 1024 + 1 * (x 0).val = (i 0).val; omega
  | ⟨1, _⟩ => show win0_0.index t (1 : Fin 2) * 512 + 1 * (x 1).val = (i 1).val; omega

/-- The first weight matrix reaches every point whole. -/
theorem iblk0_1_eq (c : Dev nD) (t : Fin cfg0.N) :
    (iblk0 V c 1 t : Vec Ideal S512x128 .f32) = (V c main_v2 : S512x128.Idx → EReal) := by
  obtain ⟨-, -, e0, e1, -⟩ := block_indices0 t
  funext x
  unfold iblk0
  rw [View.read_apply]
  show V c main_v2 _ = V c main_v2 _
  congr 1
  funext a
  apply Fin.ext
  match a with
  | ⟨0, _⟩ => show win0_1.index t (0 : Fin 2) * 512 + 1 * (x 0).val = (x 0).val; omega
  | ⟨1, _⟩ => show win0_1.index t (1 : Fin 2) * 128 + 1 * (x 1).val = (x 1).val; omega

/-- The first bias row reaches every point whole. -/
theorem iblk0_2_eq (c : Dev nD) (t : Fin cfg0.N) :
    (iblk0 V c 2 t : Vec Ideal S1x128 .f32) = (V c main_v4 : S1x128.Idx → EReal) := by
  obtain ⟨-, -, -, -, e0, e1, -⟩ := block_indices0 t
  funext x
  unfold iblk0
  rw [View.read_apply]
  show V c main_v4 _ = V c main_v4 _
  congr 1
  funext a
  apply Fin.ext
  match a with
  | ⟨0, _⟩ => show win0_2.index t (0 : Fin 2) * 1 + 1 * (x 0).val = (x 0).val; omega
  | ⟨1, _⟩ => show win0_2.index t (1 : Fin 2) * 128 + 1 * (x 1).val = (x 1).val; omega

/-- The second weight matrix reaches every point whole. -/
theorem iblk0_3_eq (c : Dev nD) (t : Fin cfg0.N) :
    (iblk0 V c 3 t : Vec Ideal S128x128 .f32) = (V c main_v23 : S128x128.Idx → EReal) := by
  obtain ⟨-, -, -, -, -, -, e0, e1, -⟩ := block_indices0 t
  funext x
  unfold iblk0
  rw [View.read_apply]
  show V c main_v23 _ = V c main_v23 _
  congr 1
  funext a
  apply Fin.ext
  match a with
  | ⟨0, _⟩ => show win0_3.index t (0 : Fin 2) * 128 + 1 * (x 0).val = (x 0).val; omega
  | ⟨1, _⟩ => show win0_3.index t (1 : Fin 2) * 128 + 1 * (x 1).val = (x 1).val; omega

/-- The second bias row reaches every point whole. -/
theorem iblk0_4_eq (c : Dev nD) (t : Fin cfg0.N) :
    (iblk0 V c 4 t : Vec Ideal S1x128 .f32) = (V c main_v25 : S1x128.Idx → EReal) := by
  obtain ⟨-, -, -, -, -, -, -, -, e0, e1, -⟩ := block_indices0 t
  funext x
  unfold iblk0
  rw [View.read_apply]
  show V c main_v25 _ = V c main_v25 _
  congr 1
  funext a
  apply Fin.ext
  match a with
  | ⟨0, _⟩ => show win0_4.index t (0 : Fin 2) * 1 + 1 * (x 0).val = (x 0).val; omega
  | ⟨1, _⟩ => show win0_4.index t (1 : Fin 2) * 128 + 1 * (x 1).val = (x 1).val; omega

/-! ## One block of the result -/

/-- If row `p` of the block of `z` is row `r` of `Z`, the payload's entry `(p, q)` is lane `q` of the perceptron of row
    `r`: the payload reads its row of the block and the weights and biases whole. -/
theorem pay0_rows (Z : S8192x512.Idx → EReal) (x0 : Vec Ideal S1024x512 .f32) (x1 : Vec Ideal S512x128 .f32)
    (x2 : Vec Ideal S1x128 .f32) (x3 : Vec Ideal S128x128 .f32) (x4 : Vec Ideal S1x128 .f32) (r : Fin 8192) (p : Fin 1024)
    (q : Fin 128) (h0 : ∀ d : Fin 512, x0 (ix2 p d) = Z (ix2 r d)) :
    k0_pay1 (F := Ideal) x0 x1 x2 x3 x4 (ix2 p q)
      = Cert.Spec.T (fun r d => Z (ix2 r d)) (fun d h => x1 (ix2 d h)) (fun h => x2 (ix2 0 h)) (fun h k => x3 (ix2 h k))
          (fun k => x4 (ix2 0 k)) r q := by
  rw [pay0_apply]
  have hrow : (fun d : Fin 512 => x0 (ix2 p d)) = fun d => Z (ix2 r d) := funext h0
  rw [hrow]
  rfl

/-- With the block of `z` the rows `1024 b …` of `Z`, the payload's entry `(p, q)` is `mlpOf` at the index
    `(1024 b + p, q)`. -/
theorem pay0_tile (Z : S8192x512.Idx → EReal) (x0 : Vec Ideal S1024x512 .f32) (x1 : Vec Ideal S512x128 .f32)
    (x2 : Vec Ideal S1x128 .f32) (x3 : Vec Ideal S128x128 .f32) (x4 : Vec Ideal S1x128 .f32) (b : Nat)
    (hz : ∀ (x : S1024x512.Idx) (i : S8192x512.Idx), (i 0).val = b * 1024 + (x 0).val → (i 1).val = (x 1).val → x0 x = Z i)
    (p : Fin 1024) (q : Fin 128) (i : S8192x128.Idx) (h0 : (i 0).val = b * 1024 + p.val) (h1 : (i 1).val = q.val) :
    k0_pay1 (F := Ideal) x0 x1 x2 x3 x4 (ix2 p q) = mlpOf Z x1 x2 x3 x4 i := by
  unfold mlpOf
  have hq : q = ⟨(i 1).val, (i 1).isLt⟩ := Fin.ext h1.symm
  rw [hq]
  exact pay0_rows Z x0 x1 x2 x3 x4 _ p _ (fun d => hz (ix2 p d) (ix2 _ d) h0 rfl)

/-! ## What a point writes back -/

/-- What grid point `t` writes back is its block of `mlpOf` of the five arrays as the region finds them. -/
theorem flushed0_eq (c : Dev nD) (t : Fin cfg0.N) :
    (dat0 V c).flushed 5 t = ((cfg0.win 5).blk t).view.read (Elt Ideal)
      (mlpOf (V c main_arg0) (V c main_v2) (V c main_v4) (V c main_v23) (V c main_v25)) := by
  show (cfg0.win 5).cut (grid0.coords t) ((dat0 V c).after 5 t) = _
  rw [after0_5]
  unfold out0_5
  rw [View.canon_unit_zero zero_offsets0]
  simp only [View.ld_unit_zero (S := S1024x512) zero_offsets0, View.ld_unit_zero (S := S512x128) zero_offsets0,
    View.ld_unit_zero (S := S1x128) zero_offsets0, View.ld_unit_zero (S := S128x128) zero_offsets0]
  rw [iblk0_1_eq V c t, iblk0_2_eq V c t, iblk0_3_eq V c t, iblk0_4_eq V c t]
  obtain ⟨e0, e1, -, -, -, -, -, -, -, -, e4, e5⟩ := block_indices0 t
  funext j
  have hj0 : (j 0).val < 1024 := (j 0).isLt
  have hj1 : (j 1).val < 128 := (j 1).isLt
  have hx : (cfg0.win 5).xinj (grid0.coords t) j = ix2 (⟨(j 0).val, hj0⟩ : Fin 1024) (⟨(j 1).val, hj1⟩ : Fin 128) := funext fun a => by
    match a with
    | ⟨0, _⟩ => rfl
    | ⟨1, _⟩ => rfl
  show k0_pay1 (F := Ideal) (iblk0 V c 0 t) (V c main_v2) (V c main_v4) (V c main_v23) (V c main_v25) ((cfg0.win 5).xinj (grid0.coords t) j)
    = mlpOf (V c main_arg0) (V c main_v2) (V c main_v4) (V c main_v23) (V c main_v25) (((cfg0.win 5).blk t).view.emb j)
  rw [hx]
  refine pay0_tile (V c main_arg0) _ _ _ _ _ (win0_5.index t (0 : Fin 2))
    (fun x i h0 h1 => iblk0_0_apply V c t x i (by rw [e0]; exact h0) (by rw [e1]; omega)) _ _ _ ?_ ?_
  · show win0_5.index t (0 : Fin 2) * 1024 + 1 * (j 0).val = win0_5.index t (0 : Fin 2) * 1024 + (j 0).val; omega
  · show win0_5.index t (1 : Fin 2) * 128 + 1 * (j 1).val = (j 1).val; omega

/-! ## The blocks cover the result -/

/-- An index of the result is in point `t`'s block iff each coordinate is in the block's range on its axis. -/
theorem mem_blk0 (t : Fin cfg0.N) (i : S8192x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v26).slice (win0_5.rect t)).set ↔ _
  rw [View.set_slice_whole, Rect.mem_set_unit]
  exact Iff.rfl

/-- Every index `(r, q)` of the result is in the block of the point at row block `r / 1024`, and every point writes
    back. -/
theorem cover0 (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  obtain ⟨t, ht⟩ := blocks_onto0 ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 128 ≤ (i 1).val ∧ (i 1).val < win0_5.index t (1 : Fin 2) * 128 + 128; omega

/-! ## The array after the region -/

/-- The result array after all 8 points is the perceptron of every row of `z`, at the weights and biases the region
    read. -/
theorem final0 (c : Dev nD) : (dat0 V c).arrAt 5 cfg0.N
    = mlpOf (V c main_arg0) (V c main_v2) (V c main_v4) (V c main_v23) (V c main_v25) :=
  (dat0 V c).arrAt_eq_of_cover 5 (mlpOf (V c main_arg0) (V c main_v2) (V c main_v4) (V c main_v23) (V c main_v25))
    (fun t _ => flushed0_eq V c t) cover0

/-- Index by index: entry `(i, k)` of the result is lane `k` of the perceptron of row `i` of `z`. -/
theorem val0 (c : Dev nD) (i : Fin 8192) (k : Fin 128) :
    ((dat0 V c).arrAt 5 cfg0.N : S8192x128.Idx → EReal) (ix2 i k)
      = Cert.Spec.T (fun i d => (V c main_arg0 : S8192x512.Idx → EReal) (ix2 i d))
          (fun d h => (V c main_v2 : S512x128.Idx → EReal) (ix2 d h)) (fun h => (V c main_v4 : S1x128.Idx → EReal) (ix2 0 h))
          (fun h k => (V c main_v23 : S128x128.Idx → EReal) (ix2 h k)) (fun k => (V c main_v25 : S1x128.Idx → EReal) (ix2 0 k)) i k := by
  rw [final0]
  rfl

end Cert.KernelIdeal.Val

end
-- ==== Proof.KernelIdeal.Val1.lean ====
/-
  The second kernel region's result array, index by index.

  The region's grid has 8 × 8 points; point `(i, j)` writes back tile `(i, j)` of the result, 1024 × 1024 entries, and
  what it writes is the product of block `i` of the rows of `T` with the transpose of block `j`: entry `(p, q)` of the
  tile is the sum over the 128 lanes of row `1024 i + p` times row `1024 j + q`.  So every point writes its tile of ONE
  function of the array `T` as the region finds it, the Gram matrix of its rows; the 64 tiles cover the result, and the
  array therefore ends holding that matrix at every index.
-/
import proofs.«100627_g2000204067356750_pallasbulk_973_2_alg».proof.Proof.KernelIdeal.Region1
import proofs.«100627_g2000204067356750_pallasbulk_973_2_alg».proof.Proof.PayKI
import proofs.«100627_g2000204067356750_pallasbulk_973_2_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Reg Cert.KernelIdeal.Pay

variable (V : (c : Dev nD) → (b : Ref sig .tc) → Buf (Elt Ideal) ((c : Thread nD τ).loc b))

/-- The offsets of a whole-buffer access are zero on both axes. -/
theorem zero_offsets1 : (![0, 0] : Fin 2 → Nat) = fun _ => 0 := funext fun a => by fin_cases a <;> rfl

/-! ## The function the result array ends holding -/

/-- The Gram matrix of the rows of an array `T` of 8192 rows of 128 lanes, as one function of the result's index:
    entry `(r, s)` is row `r` against row `s`. -/
def gramOf (T : S8192x128.Idx → EReal) : S8192x8192.Idx → EReal :=
  fun i => Cert.Spec.gram (fun r k => T (ix2 r k)) ⟨(i 0).val, (i 0).isLt⟩ ⟨(i 1).val, (i 1).isLt⟩

/-! ## The block indices over the grid -/

/-- At every grid point the first input window sits at the output tile's row block, the second at its column block,
    both at lane block zero; and the output's block indices stay below 8 on both axes. -/
theorem block_indices1 : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 7 ∧ win1_2.index t (1 : Fin 2) ≤ 7 :=
  (by decide +kernel : ∀ t : Fin grid1.N, _)

/-- Every one of the 8 × 8 tiles is some point's. -/
theorem tiles_onto1 : ∀ (q0 q1 : Fin 8), ∃ t : Fin cfg1.N, win1_2.index t = ![q0.val, q1.val] :=
  (by decide +kernel : ∀ (q0 q1 : Fin 8), ∃ t : Fin grid1.N, win1_2.index t = ![q0.val, q1.val])

/-! ## The input blocks, read off the array -/

/-- Entry `x` of the first window's block at point `t` is the array's entry at block index × block size + `x`. -/
theorem iblk1_0_apply (c : Dev nD) (t : Fin cfg1.N) (x : S1024x128.Idx) (i : S8192x128.Idx)
    (h0 : (i 0).val = win1_0.index t (0 : Fin 2) * 1024 + (x 0).val) (h1 : (i 1).val = win1_0.index t (1 : Fin 2) * 128 + (x 1).val) :
    (iblk1 V c 0 t : Vec Ideal S1024x128 .bf16) x = (V c main_v26 : S8192x128.Idx → EReal) i := by
  unfold iblk1
  rw [View.read_apply]
  show V c main_v26 _ = V c main_v26 _
  congr 1
  funext a
  apply Fin.ext
  match a with
  | ⟨0, _⟩ => show win1_0.index t (0 : Fin 2) * 1024 + 1 * (x 0).val = (i 0).val; omega
  | ⟨1, _⟩ => show win1_0.index t (1 : Fin 2) * 128 + 1 * (x 1).val = (i 1).val; omega

/-- The same for the second window, which reads the same array. -/
theorem iblk1_1_apply (c : Dev nD) (t : Fin cfg1.N) (x : S1024x128.Idx) (i : S8192x128.Idx)
    (h0 : (i 0).val = win1_1.index t (0 : Fin 2) * 1024 + (x 0).val) (h1 : (i 1).val = win1_1.index t (1 : Fin 2) * 128 + (x 1).val) :
    (iblk1 V c 1 t : Vec Ideal S1024x128 .bf16) x = (V c main_v26 : S8192x128.Idx → EReal) i := by
  unfold iblk1
  rw [View.read_apply]
  show V c main_v26 _ = V c main_v26 _
  congr 1
  funext a
  apply Fin.ext
  match a with
  | ⟨0, _⟩ => show win1_1.index t (0 : Fin 2) * 1024 + 1 * (x 0).val = (i 0).val; omega
  | ⟨1, _⟩ => show win1_1.index t (1 : Fin 2) * 128 + 1 * (x 1).val = (i 1).val; omega

/-! ## One tile of the result -/

/-- If row `p` of the first block is row `r` of `T` and row `q` of the second is row `s`, the payload's entry `(p, q)` is
    the Gram entry `(r, s)`: the same 128 products, summed. -/
theorem pay1_rows (T : S8192x128.Idx → EReal) (a b : Vec Ideal S1024x128 .bf16) (r s : Fin 8192) (p q : Fin 1024)
    (ha : ∀ k : Fin 128, a (ix2 p k) = T (ix2 r k)) (hb : ∀ k : Fin 128, b (ix2 q k) = T (ix2 s k)) :
    k1_pay1 (F := Ideal) a b (ix2 p q) = Cert.Spec.gram (fun i k => T (ix2 i k)) r s := by
  rw [pay1_apply]
  show Cert.Spec.gramEntry _ _ = Cert.Spec.gramEntry _ _
  unfold Cert.Spec.gramEntry
  refine Finset.sum_congr rfl fun k _ => ?_
  show a (ix2 p k) * b (ix2 q k) = T (ix2 r k) * T (ix2 s k)
  rw [ha k, hb k]

/-- With the first block the rows `1024 bi …` of `T` and the second the rows `1024 bj …`, the payload's entry `(p, q)`
    is `gramOf T` at the index `(1024 bi + p, 1024 bj + q)`. -/
theorem pay1_tile (T : S8192x128.Idx → EReal) (a b : Vec Ideal S1024x128 .bf16) (bi bj : Nat)
    (ha : ∀ (x : S1024x128.Idx) (i : S8192x128.Idx), (i 0).val = bi * 1024 + (x 0).val → (i 1).val = (x 1).val → a x = T i)
    (hb : ∀ (x : S1024x128.Idx) (i : S8192x128.Idx), (i 0).val = bj * 1024 + (x 0).val → (i 1).val = (x 1).val → b x = T i)
    (p q : Fin 1024) (i : S8192x8192.Idx) (h0 : (i 0).val = bi * 1024 + p.val) (h1 : (i 1).val = bj * 1024 + q.val) :
    k1_pay1 (F := Ideal) a b (ix2 p q) = gramOf T i := by
  unfold gramOf
  exact pay1_rows T a b _ _ p q (fun k => ha (ix2 p k) (ix2 _ k) h0 rfl) (fun k => hb (ix2 q k) (ix2 _ k) h1 rfl)

/-! ## What a point writes back -/

/-- What grid point `t` writes back is its tile of `gramOf` of the array of rows as the region finds it. -/
theorem flushed1_eq (c : Dev nD) (t : Fin cfg1.N) :
    (dat1 V c).flushed 2 t = ((cfg1.win 2).blk t).view.read (Elt Ideal) (gramOf (V c main_v26)) := by
  show (cfg1.win 2).cut (grid1.coords t) ((dat1 V c).after 2 t) = _
  rw [after1_2]
  unfold out1_2
  rw [View.canon_unit_zero zero_offsets1]
  simp only [View.ld_unit_zero (S := S1024x128) zero_offsets1]
  obtain ⟨e0, e1, e2, e3, e4, e5⟩ := block_indices1 t
  funext j
  have hj0 : (j 0).val < 1024 := (j 0).isLt
  have hj1 : (j 1).val < 1024 := (j 1).isLt
  have hx : (cfg1.win 2).xinj (grid1.coords t) j = ix2 (⟨(j 0).val, hj0⟩ : Fin 1024) (⟨(j 1).val, hj1⟩ : Fin 1024) := funext fun a => by
    match a with
    | ⟨0, _⟩ => rfl
    | ⟨1, _⟩ => rfl
  show k1_pay1 (F := Ideal) (iblk1 V c 0 t) (iblk1 V c 1 t) ((cfg1.win 2).xinj (grid1.coords t) j) = gramOf (V c main_v26) (((cfg1.win 2).blk t).view.emb j)
  rw [hx]
  refine pay1_tile (V c main_v26) _ _ (win1_2.index t (0 : Fin 2)) (win1_2.index t (1 : Fin 2))
    (fun x i h0 h1 => iblk1_0_apply V c t x i (by rw [e0]; exact h0) (by rw [e1]; omega))
    (fun x i h0 h1 => iblk1_1_apply V c t x i (by rw [e2]; exact h0) (by rw [e3]; omega)) _ _ _ ?_ ?_
  · show win1_2.index t (0 : Fin 2) * 1024 + 1 * (j 0).val = win1_2.index t (0 : Fin 2) * 1024 + (j 0).val; omega
  · show win1_2.index t (1 : Fin 2) * 1024 + 1 * (j 1).val = win1_2.index t (1 : Fin 2) * 1024 + (j 1).val; omega

/-! ## The tiles cover the result -/

/-- An index of the result is in point `t`'s tile iff each coordinate is in the tile's range on its axis. -/
theorem mem_blk1 (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v27).slice (win1_2.rect t)).set ↔ _
  rw [View.set_slice_whole, Rect.mem_set_unit]
  exact Iff.rfl

/-- Every index `(r, s)` of the result is in the tile of the point at block indices `(r / 1024, s / 1024)`, and every
    point writes back. -/
theorem cover1 (i : S8192x8192.Idx) : ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := tiles_onto1 ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-! ## The array after the region -/

/-- The result array after all 64 points is the Gram matrix of the rows of the array the region read. -/
theorem final1 (c : Dev nD) : (dat1 V c).arrAt 2 cfg1.N = gramOf (V c main_v26) :=
  (dat1 V c).arrAt_eq_of_cover 2 (gramOf (V c main_v26)) (fun t _ => flushed1_eq V c t) cover1

/-- Index by index: entry `(i, j)` of the result is row `i` of the region's input array against row `j`. -/
theorem val1 (c : Dev nD) (i j : Fin 8192) :
    ((dat1 V c).arrAt 2 cfg1.N : S8192x8192.Idx → EReal) (ix2 i j)
      = Cert.Spec.gram (fun i k => (V c main_v26 : S8192x128.Idx → EReal) (ix2 i k)) i j := by
  rw [final1]
  rfl

end Cert.KernelIdeal.Val

end
-- ==== Proof.LibScatter.lean ====
/-
  A host scatter read at one index.

  `Host.scatter` is a left fold over the update's indices in row-major order: each update index that lands inside the
  operand replaces the operand's entry there by the combiner applied to it and the update's entry. Read at one operand
  index `i`, the fold leaves the entry as it was when no update index lands on `i`, and, for the replacing combiner
  (the body returns the update), leaves the update's entry when exactly one update index lands on `i`.

  The later parts specialise this to the dimension numbers of a rank-two window written at one literal start — a start
  index of two components (row and column), or of one (the column, the window starting at row zero): inside the window
  the result is the update, shifted by the start; outside it is the operand.
-/
import Idealize.ShloMosaic.PureOps.ShapeOps
import Idealize.ShloMosaic.Lib.ValueIdx

noncomputable section

namespace Cert.HostScatter

open Idealize.ShloMosaic Idealize.ShloMosaic.ValueIdx

/-! ## The scatter's fold read at one index -/

section Fold
variable {s si u : Shape} {w : Nat} {α : Type}

/-- One update applied to `r`, read at `i'`: the combined value when the update lands on `i'`, else `r i'`. -/
theorem step_apply (d : ScatterDims s si u) (f : α → α → α) (idx : IVec si w) (upd : u.Idx → α) (r : s.Idx → α)
    (j : u.Idx) (i' : s.Idx) :
    (match d.resultIdx? j idx with
      | some i => fun i' => if i' = i then f (r i) (upd j) else r i'
      | none => r) i' = if d.resultIdx? j idx = some i' then f (r i') (upd j) else r i' := by
  cases h : d.resultIdx? j idx with
  | none => simp
  | some i =>
    by_cases e : i' = i
    · subst e; simp
    · have e' : ¬ (some i = some i') := fun hh => e (Option.some.inj hh).symm
      simp only [if_neg e, if_neg e']

/-- Updates none of which lands on `i` leave the entry at `i` as it was. -/
theorem foldl_miss (d : ScatterDims s si u) (f : α → α → α) (idx : IVec si w) (upd : u.Idx → α) (i : s.Idx)
    (L : List (Fin u.numel)) (hmiss : ∀ n ∈ L, d.resultIdx? (u.rowMajor.symm n) idx ≠ some i) (x : s.Idx → α) :
    (L.foldl (fun r n =>
      match d.resultIdx? (u.rowMajor.symm n) idx with
      | some i => fun i' => if i' = i then f (r i) (upd (u.rowMajor.symm n)) else r i'
      | none => r) x) i = x i := by
  induction L generalizing x with
  | nil => rfl
  | cons n L ih =>
    rw [List.foldl_cons, ih (fun n' hn' => hmiss n' (List.mem_cons_of_mem _ hn')), step_apply,
      if_neg (hmiss n List.mem_cons_self)]

/-- With the replacing combiner, if exactly one update index lands on `i`, the entry at `i` ends as that update. -/
theorem foldl_hit (d : ScatterDims s si u) (idx : IVec si w) (upd : u.Idx → α) (i : s.Idx) (j0 : u.Idx)
    (L : List (Fin u.numel)) (hmem : u.rowMajor j0 ∈ L) (hhit : d.resultIdx? j0 idx = some i)
    (huniq : ∀ j, d.resultIdx? j idx = some i → j = j0) (x : s.Idx → α) :
    (L.foldl (fun r n =>
      match d.resultIdx? (u.rowMajor.symm n) idx with
      | some i => fun i' => if i' = i then (fun _ b => b) (r i) (upd (u.rowMajor.symm n)) else r i'
      | none => r) x) i = upd j0 := by
  induction L generalizing x with
  | nil => exact absurd hmem (List.not_mem_nil)
  | cons n L ih =>
    by_cases hL : u.rowMajor j0 ∈ L
    · rw [List.foldl_cons]; exact ih hL _
    · have hn : n = u.rowMajor j0 := by
        rcases List.mem_cons.1 hmem with h | h
        · exact h.symm
        · exact absurd h hL
      have hm : ∀ n' ∈ L, d.resultIdx? (u.rowMajor.symm n') idx ≠ some i := fun n' hn' hres => hL (by
        have := huniq _ hres
        rw [← this, Equiv.apply_symm_apply]; exact hn')
      rw [List.foldl_cons, foldl_miss d (fun _ b => b) idx upd i L hm, step_apply d (fun _ b => b) idx upd x (u.rowMajor.symm n) i, hn, Equiv.symm_apply_apply, if_pos hhit]

/-- A replacing scatter read at an index exactly one update index lands on. -/
theorem scatter_replace_hit (d : ScatterDims s si u) (x : s.Idx → α) (idx : IVec si w) (upd : u.Idx → α) (i : s.Idx)
    (j0 : u.Idx) (hhit : d.resultIdx? j0 idx = some i) (huniq : ∀ j, d.resultIdx? j idx = some i → j = j0) :
    Host.scatter d (fun _ b => b) x idx upd i = upd j0 := by
  unfold Host.scatter
  exact foldl_hit d idx upd i j0 _ (List.mem_finRange _) hhit huniq x

/-- A scatter read at an index no update lands on. -/
theorem scatter_miss (d : ScatterDims s si u) (f : α → α → α) (x : s.Idx → α) (idx : IVec si w) (upd : u.Idx → α) (i : s.Idx)
    (hmiss : ∀ j, d.resultIdx? j idx ≠ some i) :
    Host.scatter d f x idx upd i = x i := by
  unfold Host.scatter
  exact foldl_miss d f idx upd i _ (fun n _ => hmiss _) x

end Fold

/-! ## One rank-two window at a literal start

The dimension numbers every scatter of these programs carries: the operand and the update have rank two, both update
axes are window axes going to the operand's two axes, nothing is inserted, and the scatter indices are one start index
of two components. The update index `(p, q)` lands on `(r₀ + p, c₀ + q)`, `(r₀, c₀)` the start index; when the window
lies inside the operand the result is the update inside the window and the operand outside. -/

section Window2
variable {A B a b : Nat} {α : Type}

/-- The dimension numbers, over any well-formedness evidence. -/
abbrev win2 (wf : ScatterDims.WF ⟨2, ![A, B]⟩ ⟨1, ![2]⟩ ⟨2, ![a, b]⟩ [0, 1] [] [0, 1] 0) :
    ScatterDims ⟨2, ![A, B]⟩ ⟨1, ![2]⟩ ⟨2, ![a, b]⟩ :=
  { updateWindowDims := [0, 1], insertedWindowDims := [], scatterDimsToOperandDims := [0, 1], indexVectorDim := 0, wf := wf }

variable (wf : ScatterDims.WF ⟨2, ![A, B]⟩ ⟨1, ![2]⟩ ⟨2, ![a, b]⟩ [0, 1] [] [0, 1] 0)

theorem win2_start0 (j : (⟨2, ![a, b]⟩ : Shape).Idx) (idx : IVec ⟨1, ![2]⟩ 32) :
    (win2 wf).start j idx 0 = (idx (ix1 0)).toInt := by
  unfold ScatterDims.start
  rw [dif_pos (show (0 : Fin 2) ∈ [0, 1] from List.mem_cons_self)]
  exact congrArg (fun k => (idx k).toInt) (funext fun b => match b with | ⟨0, _⟩ => rfl)

theorem win2_start1 (j : (⟨2, ![a, b]⟩ : Shape).Idx) (idx : IVec ⟨1, ![2]⟩ 32) :
    (win2 wf).start j idx 1 = (idx (ix1 1)).toInt := by
  unfold ScatterDims.start
  rw [dif_pos (show (1 : Fin 2) ∈ [0, 1] from List.mem_cons_of_mem _ List.mem_cons_self)]
  exact congrArg (fun k => (idx k).toInt) (funext fun b => match b with | ⟨0, _⟩ => rfl)

theorem win2_window0 (p : Fin a) (q : Fin b) : (win2 wf).window (ix2 p q) 0 = p.val := rfl
theorem win2_window1 (p : Fin a) (q : Fin b) : (win2 wf).window (ix2 p q) 1 = q.val := rfl

/-- Where update index `(p, q)` lands. -/
theorem win2_resultIdx? (idx : IVec ⟨1, ![2]⟩ 32) (r0 c0 : Nat) (h0 : (idx (ix1 0)).toInt = r0) (h1 : (idx (ix1 1)).toInt = c0)
    (hA : r0 + a ≤ A) (hB : c0 + b ≤ B) (p : Fin a) (q : Fin b) :
    (win2 wf).resultIdx? (ix2 p q) idx = some (ix2 ⟨r0 + p.val, by omega⟩ ⟨c0 + q.val, by omega⟩) := by
  have hs0 : (win2 wf).start (ix2 p q) idx 0 + ((win2 wf).window (ix2 p q) 0 : Int) = ((r0 + p.val : Nat) : Int) := by
    rw [win2_start0, win2_window0, h0]; push_cast; rfl
  have hs1 : (win2 wf).start (ix2 p q) idx 1 + ((win2 wf).window (ix2 p q) 1 : Int) = ((c0 + q.val : Nat) : Int) := by
    rw [win2_start1, win2_window1, h1]; push_cast; rfl
  have hall : ∀ a' : Fin 2, 0 ≤ (win2 wf).start (ix2 p q) idx a' + ((win2 wf).window (ix2 p q) a' : Int)
      ∧ (win2 wf).start (ix2 p q) idx a' + ((win2 wf).window (ix2 p q) a' : Int) < ((⟨2, ![A, B]⟩ : Shape).size a' : Int) := fun a' =>
    match a' with
    | ⟨0, _⟩ => by
      show 0 ≤ (win2 wf).start (ix2 p q) idx 0 + ((win2 wf).window (ix2 p q) 0 : Int)
        ∧ (win2 wf).start (ix2 p q) idx 0 + ((win2 wf).window (ix2 p q) 0 : Int) < ((A : Nat) : Int)
      rw [hs0]; have := p.isLt; omega
    | ⟨1, _⟩ => by
      show 0 ≤ (win2 wf).start (ix2 p q) idx 1 + ((win2 wf).window (ix2 p q) 1 : Int)
        ∧ (win2 wf).start (ix2 p q) idx 1 + ((win2 wf).window (ix2 p q) 1 : Int) < ((B : Nat) : Int)
      rw [hs1]; have := q.isLt; omega
  unfold ScatterDims.resultIdx?
  rw [dif_pos hall]
  refine congrArg some (funext fun a' => ?_)
  match a' with
  | ⟨0, _⟩ =>
    refine Fin.ext ?_
    show ((win2 wf).start (ix2 p q) idx 0 + ((win2 wf).window (ix2 p q) 0 : Int)).toNat = r0 + p.val
    rw [hs0]; rfl
  | ⟨1, _⟩ =>
    refine Fin.ext ?_
    show ((win2 wf).start (ix2 p q) idx 1 + ((win2 wf).window (ix2 p q) 1 : Int)).toNat = c0 + q.val
    rw [hs1]; rfl

/-- The replacing scatter of one window read at `(P, Q)`: the update inside the window, the operand outside. -/
theorem scatter_win2_apply (x : (⟨2, ![A, B]⟩ : Shape).Idx → α) (idx : IVec ⟨1, ![2]⟩ 32) (upd : (⟨2, ![a, b]⟩ : Shape).Idx → α)
    (r0 c0 : Nat) (h0 : (idx (ix1 0)).toInt = r0) (h1 : (idx (ix1 1)).toInt = c0)
    (hA : r0 + a ≤ A) (hB : c0 + b ≤ B) (P : Fin A) (Q : Fin B) :
    Host.scatter (win2 wf) (fun _ b => b) x idx upd (ix2 P Q) =
      if h : (r0 ≤ P.val ∧ P.val < r0 + a) ∧ (c0 ≤ Q.val ∧ Q.val < c0 + b) then
        upd (ix2 ⟨P.val - r0, by omega⟩ ⟨Q.val - c0, by omega⟩)
      else x (ix2 P Q) := by
  have key : ∀ j : (⟨2, ![a, b]⟩ : Shape).Idx, (win2 wf).resultIdx? j idx = some (ix2 P Q) →
      r0 + (j 0).val = P.val ∧ c0 + (j 1).val = Q.val := fun j hj => by
    obtain ⟨p, q, rfl⟩ : ∃ (p : Fin a) (q : Fin b), j = ix2 p q := ⟨j 0, j 1, eq_ix2 j⟩
    rw [win2_resultIdx? wf idx r0 c0 h0 h1 hA hB] at hj
    have e := Option.some.inj hj
    exact ⟨congrArg Fin.val (congrFun e 0), congrArg Fin.val (congrFun e 1)⟩
  by_cases h : (r0 ≤ P.val ∧ P.val < r0 + a) ∧ (c0 ≤ Q.val ∧ Q.val < c0 + b)
  · rw [dif_pos h]
    refine scatter_replace_hit (win2 wf) x idx upd (ix2 P Q) (ix2 ⟨P.val - r0, by omega⟩ ⟨Q.val - c0, by omega⟩) ?_ ?_
    · rw [win2_resultIdx? wf idx r0 c0 h0 h1 hA hB]
      refine congrArg some (funext fun a' => ?_)
      match a' with
      | ⟨0, _⟩ => exact Fin.ext (by show r0 + (P.val - r0) = P.val; omega)
      | ⟨1, _⟩ => exact Fin.ext (by show c0 + (Q.val - c0) = Q.val; omega)
    · intro j hj
      have := key j hj
      refine funext fun a' => ?_
      match a' with
      | ⟨0, _⟩ => exact Fin.ext (by show (j 0).val = P.val - r0; omega)
      | ⟨1, _⟩ => exact Fin.ext (by show (j 1).val = Q.val - c0; omega)
  · rw [dif_neg h]
    refine scatter_miss (win2 wf) _ x idx upd (ix2 P Q) (fun j hj => h ?_)
    have := key j hj
    have h0' : (j 0).val < a := (j 0).isLt
    have h1' : (j 1).val < b := (j 1).isLt
    omega

end Window2

/-! ## One rank-two window at a literal column

The same window where the start index has ONE component, the column: the scatter indices are a one-entry vector going
to the operand's second axis, and the window starts at row zero. Update index `(p, q)` lands on `(p, c₀ + q)`. -/

section WindowCol
variable {A B a b : Nat} {α : Type}

/-- The dimension numbers, over any well-formedness evidence. -/
abbrev winCol (wf : ScatterDims.WF ⟨2, ![A, B]⟩ ⟨1, ![1]⟩ ⟨2, ![a, b]⟩ [0, 1] [] [1] 0) :
    ScatterDims ⟨2, ![A, B]⟩ ⟨1, ![1]⟩ ⟨2, ![a, b]⟩ :=
  { updateWindowDims := [0, 1], insertedWindowDims := [], scatterDimsToOperandDims := [1], indexVectorDim := 0, wf := wf }

variable (wf : ScatterDims.WF ⟨2, ![A, B]⟩ ⟨1, ![1]⟩ ⟨2, ![a, b]⟩ [0, 1] [] [1] 0)

theorem winCol_start0 (j : (⟨2, ![a, b]⟩ : Shape).Idx) (idx : IVec ⟨1, ![1]⟩ 32) :
    (winCol wf).start j idx 0 = 0 := by
  unfold ScatterDims.start
  exact dif_neg (show ¬ (0 : Fin 2) ∈ [1] from by decide)

theorem winCol_start1 (j : (⟨2, ![a, b]⟩ : Shape).Idx) (idx : IVec ⟨1, ![1]⟩ 32) :
    (winCol wf).start j idx 1 = (idx (ix1 0)).toInt := by
  unfold ScatterDims.start
  rw [dif_pos (show (1 : Fin 2) ∈ [1] from List.mem_cons_self)]
  exact congrArg (fun k => (idx k).toInt) (funext fun b => match b with | ⟨0, _⟩ => rfl)

theorem winCol_window0 (p : Fin a) (q : Fin b) : (winCol wf).window (ix2 p q) 0 = p.val := rfl
theorem winCol_window1 (p : Fin a) (q : Fin b) : (winCol wf).window (ix2 p q) 1 = q.val := rfl

/-- Where update index `(p, q)` lands. -/
theorem winCol_resultIdx? (idx : IVec ⟨1, ![1]⟩ 32) (c0 : Nat) (h1 : (idx (ix1 0)).toInt = c0)
    (hA : a ≤ A) (hB : c0 + b ≤ B) (p : Fin a) (q : Fin b) :
    (winCol wf).resultIdx? (ix2 p q) idx = some (ix2 ⟨p.val, by omega⟩ ⟨c0 + q.val, by omega⟩) := by
  have hs0 : (winCol wf).start (ix2 p q) idx 0 + ((winCol wf).window (ix2 p q) 0 : Int) = ((p.val : Nat) : Int) := by
    rw [winCol_start0, winCol_window0, Int.zero_add]
  have hs1 : (winCol wf).start (ix2 p q) idx 1 + ((winCol wf).window (ix2 p q) 1 : Int) = ((c0 + q.val : Nat) : Int) := by
    rw [winCol_start1, winCol_window1, h1]; push_cast; rfl
  have hall : ∀ a' : Fin 2, 0 ≤ (winCol wf).start (ix2 p q) idx a' + ((winCol wf).window (ix2 p q) a' : Int)
      ∧ (winCol wf).start (ix2 p q) idx a' + ((winCol wf).window (ix2 p q) a' : Int) < ((⟨2, ![A, B]⟩ : Shape).size a' : Int) := fun a' =>
    match a' with
    | ⟨0, _⟩ => by
      show 0 ≤ (winCol wf).start (ix2 p q) idx 0 + ((winCol wf).window (ix2 p q) 0 : Int)
        ∧ (winCol wf).start (ix2 p q) idx 0 + ((winCol wf).window (ix2 p q) 0 : Int) < ((A : Nat) : Int)
      rw [hs0]; have := p.isLt; omega
    | ⟨1, _⟩ => by
      show 0 ≤ (winCol wf).start (ix2 p q) idx 1 + ((winCol wf).window (ix2 p q) 1 : Int)
        ∧ (winCol wf).start (ix2 p q) idx 1 + ((winCol wf).window (ix2 p q) 1 : Int) < ((B : Nat) : Int)
      rw [hs1]; have := q.isLt; omega
  unfold ScatterDims.resultIdx?
  rw [dif_pos hall]
  refine congrArg some (funext fun a' => ?_)
  match a' with
  | ⟨0, _⟩ =>
    refine Fin.ext ?_
    show ((winCol wf).start (ix2 p q) idx 0 + ((winCol wf).window (ix2 p q) 0 : Int)).toNat = p.val
    rw [hs0]; rfl
  | ⟨1, _⟩ =>
    refine Fin.ext ?_
    show ((winCol wf).start (ix2 p q) idx 1 + ((winCol wf).window (ix2 p q) 1 : Int)).toNat = c0 + q.val
    rw [hs1]; rfl

/-- The replacing scatter of one window at column `c₀` read at `(P, Q)`: the update inside the window, the operand
    outside. -/
theorem scatter_winCol_apply (x : (⟨2, ![A, B]⟩ : Shape).Idx → α) (idx : IVec ⟨1, ![1]⟩ 32) (upd : (⟨2, ![a, b]⟩ : Shape).Idx → α)
    (c0 : Nat) (h1 : (idx (ix1 0)).toInt = c0) (hA : a ≤ A) (hB : c0 + b ≤ B) (P : Fin A) (Q : Fin B) :
    Host.scatter (winCol wf) (fun _ b => b) x idx upd (ix2 P Q) =
      if h : P.val < a ∧ (c0 ≤ Q.val ∧ Q.val < c0 + b) then
        upd (ix2 ⟨P.val, h.1⟩ ⟨Q.val - c0, by omega⟩)
      else x (ix2 P Q) := by
  have key : ∀ j : (⟨2, ![a, b]⟩ : Shape).Idx, (winCol wf).resultIdx? j idx = some (ix2 P Q) →
      (j 0).val = P.val ∧ c0 + (j 1).val = Q.val := fun j hj => by
    obtain ⟨p, q, rfl⟩ : ∃ (p : Fin a) (q : Fin b), j = ix2 p q := ⟨j 0, j 1, eq_ix2 j⟩
    rw [winCol_resultIdx? wf idx c0 h1 hA hB] at hj
    have e := Option.some.inj hj
    exact ⟨congrArg Fin.val (congrFun e 0), congrArg Fin.val (congrFun e 1)⟩
  by_cases h : P.val < a ∧ (c0 ≤ Q.val ∧ Q.val < c0 + b)
  · rw [dif_pos h]
    refine scatter_replace_hit (winCol wf) x idx upd (ix2 P Q) (ix2 ⟨P.val, h.1⟩ ⟨Q.val - c0, by omega⟩) ?_ ?_
    · rw [winCol_resultIdx? wf idx c0 h1 hA hB]
      refine congrArg some (funext fun a' => ?_)
      match a' with
      | ⟨0, _⟩ => rfl
      | ⟨1, _⟩ => exact Fin.ext (by show c0 + (Q.val - c0) = Q.val; omega)
    · intro j hj
      have := key j hj
      refine funext fun a' => ?_
      match a' with
      | ⟨0, _⟩ => exact Fin.ext this.1
      | ⟨1, _⟩ => exact Fin.ext (by show (j 1).val = Q.val - c0; omega)
  · rw [dif_neg h]
    refine scatter_miss (winCol wf) _ x idx upd (ix2 P Q) (fun j hj => h ?_)
    have := key j hj
    have h0' : (j 0).val < a := (j 0).isLt
    have h1' : (j 1).val < b := (j 1).isLt
    omega

end WindowCol

end Cert.HostScatter

end
-- ==== Proof.HostKI.lean ====
/-
  What the host operations before the first kernel region leave in the four packed weight arrays, read at an index.

  Before the first region the program packs the three relations' weights side by side: the first-layer weights by a
  transpose, a reshape and a pad with zeros; the two biases by a reshape and a pad; the second-layer weights by writing
  each relation's block into a zero array at its diagonal position.  Each packed array, read at an index, is the entry
  `Cert.Spec` gives it; the node embeddings are written by no host operation.
-/
import proofs.«100627_g2000204067356750_pallasbulk_973_2_alg».proof.Proof.Gen.KernelIdeal.Regions
import proofs.«100627_g2000204067356750_pallasbulk_973_2_alg».proof.Proof.Spec
import proofs.«100627_g2000204067356750_pallasbulk_973_2_alg».proof.Proof.LibScatter
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.Host

open Idealize.ShloMosaic Idealize.ShloMosaic.TcCoe
open Idealize.ShloMosaic.ValueIdx
open Cert.KernelIdeal.Gen

variable (m : (ℓ : Loc nD τ sig) → Buf (Elt Ideal) ℓ)

/-! ## The padding value -/

/-- The padding value: the integer zero converted to a float is the real zero, which is `Spec.zero`. -/
theorem padval (i : S_.Idx) : (sitofp (F := Ideal) .f32 (constantI S_ 32 0#32) : S_.Idx → EReal) i = Cert.Spec.zero := by
  show (Scalar.sitofp (F := Ideal) .f32 (0#32) : EReal) = Ideal.ofBits .f32 0x00000000#32
  rw [Ideal.ofBits_zero_f32]; exact sitofp_zero

/-! ## The second-layer bias -/

/-- The padded second-layer bias as the host operations build it from the argument array: the three relations'
    rows laid side by side (a reshape), then 80 columns of padding. -/
theorem b2p_term (c : Dev nD) :
    (V6 m c main_v25 : S1x128.Idx → EReal) =
      pad S1x128 ![0, 0] ![0, 80] ![0, 0]
        (shapeCast S1x48 (m ((c : Thread nD τ).loc main_arg4) : S3x1x16.Idx → EReal) shapeCasts_S3x1x16_S1x48)
        (sitofp (F := Ideal) .f32 (constantI S_ 32 0#32)) pads_S1x48_S1x128_000_0800 h_S_ := by
  dsimp only [V6, V5, V4, V3, V2, V1, V0, hostOps0_5, hostOps0_4, hostOps0_3, hostOps0_2, hostOps0_1, hostOps0]
  after_results_simp
  rfl

/-- Column `k` of the padded second-layer bias: entry `k % 16` of relation `k / 16` below column 48, zero from there on. -/
theorem b2p_apply (c : Dev nD) (k : Fin 128) :
    (V6 m c main_v25 : S1x128.Idx → EReal) (ix2 0 k)
      = Cert.Spec.b2p (fun r e => (m ((c : Thread nD τ).loc main_arg4) : S3x1x16.Idx → EReal) (ix3 r 0 e)) k := by
  rw [b2p_term]
  unfold Cert.Spec.b2p
  by_cases h : k.val < 48
  · rw [dif_pos h]
    refine (pad_apply_of_inside _ _ _ _ _ _ _ (ix2 0 k) (ix2 0 ⟨k.val, h⟩) (fun a => ?_)).trans ?_
    · match a with
      | ⟨0, _⟩ => rfl
      | ⟨1, _⟩ => show k.val = 0 + k.val * (0 + 1); omega
    · refine (shapeCast_apply _ _ (ix2 0 ⟨k.val, h⟩) (ix3 ⟨k.val / 16, by omega⟩ 0 ⟨k.val % 16, Nat.mod_lt _ (by decide)⟩) ?_).trans rfl
      rw [Shape.rowMajor_val_three, Shape.rowMajor_val_two]
      show (k.val / 16 * 1 + 0) * 16 + k.val % 16 = 0 * 48 + k.val
      omega
  · rw [dif_neg h]
    refine (pad_apply_of_not_inside _ _ _ _ _ _ _ (ix2 0 k) 1 ?_).trans (padval _)
    show ¬(0 ≤ k.val ∧ (k.val - 0) % (0 + 1) = 0 ∧ (k.val - 0) / (0 + 1) < 48)
    omega

/-! ## The first-layer weights and bias -/

/-- The packed first-layer weights as the host operations build them: the relation axis moved behind the feature axis
    (a transpose), relation and column merged (a reshape), then 32 columns of padding. -/
theorem w1p_term (c : Dev nD) :
    (V6 m c main_v2 : S512x128.Idx → EReal) =
      pad S512x128 ![0, 0] ![0, 32] ![0, 0]
        (shapeCast S512x96
          (transpose S512x3x32 [1, 0, 2] (m ((c : Thread nD τ).loc main_arg1) : S3x512x32.Idx → EReal) transposes_S3x512x32_S512x3x32_1_0_2)
          shapeCasts_S512x3x32_S512x96)
        (sitofp (F := Ideal) .f32 (constantI S_ 32 0#32)) pads_S512x96_S512x128_000_0320 h_S_ := by
  dsimp only [V6, V5, V4, V3, V2, V1, V0, hostOps0_5, hostOps0_4, hostOps0_3, hostOps0_2, hostOps0_1, hostOps0]
  after_results_simp
  rfl

/-- Entry `(d, h)` of the packed first-layer weights: relation `h / 32`'s entry `(d, h % 32)` below column 96, zero
    from there on. -/
theorem w1p_apply (c : Dev nD) (d : Fin 512) (h : Fin 128) :
    (V6 m c main_v2 : S512x128.Idx → EReal) (ix2 d h)
      = Cert.Spec.w1p (fun r d e => (m ((c : Thread nD τ).loc main_arg1) : S3x512x32.Idx → EReal) (ix3 r d e)) d h := by
  rw [w1p_term]
  unfold Cert.Spec.w1p
  by_cases hh : h.val < 96
  · rw [dif_pos hh]
    refine (pad_apply_of_inside _ _ _ _ _ _ _ (ix2 d h) (ix2 d ⟨h.val, hh⟩) (fun a => ?_)).trans ?_
    · match a with
      | ⟨0, _⟩ => show d.val = 0 + d.val * (0 + 1); omega
      | ⟨1, _⟩ => show h.val = 0 + h.val * (0 + 1); omega
    · refine (shapeCast_apply _ _ (ix2 d ⟨h.val, hh⟩)
        (ix3 d ⟨h.val / 32, by omega⟩ ⟨h.val % 32, Nat.mod_lt _ (by decide)⟩) ?_).trans ?_
      · rw [Shape.rowMajor_val_three, Shape.rowMajor_val_two]
        show (d.val * 3 + h.val / 32) * 32 + h.val % 32 = d.val * 96 + h.val
        omega
      · exact transpose_apply _ _ _ (ix3 d ⟨h.val / 32, by omega⟩ ⟨h.val % 32, Nat.mod_lt _ (by decide)⟩)
          (ix3 ⟨h.val / 32, by omega⟩ d ⟨h.val % 32, Nat.mod_lt _ (by decide)⟩)
          (fun b => match b with | ⟨0, _⟩ => rfl | ⟨1, _⟩ => rfl | ⟨2, _⟩ => rfl)
  · rw [dif_neg hh]
    refine (pad_apply_of_not_inside _ _ _ _ _ _ _ (ix2 d h) 1 ?_).trans (padval _)
    show ¬(0 ≤ h.val ∧ (h.val - 0) % (0 + 1) = 0 ∧ (h.val - 0) / (0 + 1) < 96)
    omega

/-- The padded first-layer bias as the host operations build it: the three relations' rows side by side (a reshape),
    then 32 columns of padding. -/
theorem b1p_term (c : Dev nD) :
    (V6 m c main_v4 : S1x128.Idx → EReal) =
      pad S1x128 ![0, 0] ![0, 32] ![0, 0]
        (shapeCast S1x96 (m ((c : Thread nD τ).loc main_arg2) : S3x1x32.Idx → EReal) shapeCasts_S3x1x32_S1x96)
        (sitofp (F := Ideal) .f32 (constantI S_ 32 0#32)) pads_S1x96_S1x128_000_0320 h_S_ := by
  dsimp only [V6, V5, V4, V3, V2, V1, V0, hostOps0_5, hostOps0_4, hostOps0_3, hostOps0_2, hostOps0_1, hostOps0]
  after_results_simp
  rfl

/-- Column `h` of the padded first-layer bias: entry `h % 32` of relation `h / 32` below column 96, zero from there on. -/
theorem b1p_apply (c : Dev nD) (h : Fin 128) :
    (V6 m c main_v4 : S1x128.Idx → EReal) (ix2 0 h)
      = Cert.Spec.b1p (fun r e => (m ((c : Thread nD τ).loc main_arg2) : S3x1x32.Idx → EReal) (ix3 r 0 e)) h := by
  rw [b1p_term]
  unfold Cert.Spec.b1p
  by_cases hh : h.val < 96
  · rw [dif_pos hh]
    refine (pad_apply_of_inside _ _ _ _ _ _ _ (ix2 0 h) (ix2 0 ⟨h.val, hh⟩) (fun a => ?_)).trans ?_
    · match a with
      | ⟨0, _⟩ => rfl
      | ⟨1, _⟩ => show h.val = 0 + h.val * (0 + 1); omega
    · refine (shapeCast_apply _ _ (ix2 0 ⟨h.val, hh⟩) (ix3 ⟨h.val / 32, by omega⟩ 0 ⟨h.val % 32, Nat.mod_lt _ (by decide)⟩) ?_).trans rfl
      rw [Shape.rowMajor_val_three, Shape.rowMajor_val_two]
      show (h.val / 32 * 1 + 0) * 32 + h.val % 32 = 0 * 96 + h.val
      omega
  · rw [dif_neg hh]
    refine (pad_apply_of_not_inside _ _ _ _ _ _ _ (ix2 0 h) 1 ?_).trans (padval _)
    show ¬(0 ≤ h.val ∧ (h.val - 0) % (0 + 1) = 0 ∧ (h.val - 0) / (0 + 1) < 96)
    omega

/-! ## The second-layer weights -/

/-- A start index of two literal components, as the programs build it: each component a constant made a one-entry
    vector, the two concatenated. -/
abbrev startIdx (r c : BitVec 32) : IVec S2 32 :=
  concatenate S2 0 [⟨S1, broadcastInDim S1 ![] bcast_S_S1 (constantI S_ 32 r)⟩, ⟨S1, broadcastInDim S1 ![] bcast_S_S1 (constantI S_ 32 c)⟩]
    concatenates_S1_S1_S2_d0

theorem startIdx_zero (r c : BitVec 32) : startIdx r c (ix1 0) = r := rfl
theorem startIdx_one (r c : BitVec 32) : startIdx r c (ix1 1) = c := rfl

/-- One relation's second-layer block as the programs cut it out of the argument array: a slice of one relation, its
    unit axis dropped. -/
abbrev slab (off : Fin 3 → Nat) (hs : S3x32x16.Slices off S1x32x16) (x : S3x32x16.Idx → EReal) : S32x16.Idx → EReal :=
  shapeCast S32x16 (extractStridedSlice S1x32x16 off x hs) shapeCasts_S1x32x16_S32x16

theorem slab_apply (r : Fin 3) (hs : S3x32x16.Slices ![r.val, 0, 0] S1x32x16) (x : S3x32x16.Idx → EReal) (a : Fin 32) (b : Fin 16) :
    slab ![r.val, 0, 0] hs x (ix2 a b) = x (ix3 r a b) := by
  refine (shapeCast_apply _ _ (ix2 a b) (ix3 0 a b) ?_).trans ?_
  · rw [Shape.rowMajor_val_three, Shape.rowMajor_val_two]
    show (0 * 32 + a.val) * 16 + b.val = a.val * 16 + b.val
    omega
  · exact extractStridedSlice_apply _ _ _ (ix3 0 a b) (ix3 r a b)
      (fun e => match e with
        | ⟨0, _⟩ => (Nat.add_zero _).symm
        | ⟨1, _⟩ => (Nat.zero_add _).symm
        | ⟨2, _⟩ => (Nat.zero_add _).symm)

/-- The packed second-layer weights as the host operations build them: a zero array, then each relation's block
    written at its diagonal position. -/
theorem w2p_term (c : Dev nD) :
    (V6 m c main_v23 : S128x128.Idx → EReal) =
      Host.scatter scatter_S128x128_S2_S32x16_01_n_01_0 (fun _ b => b)
        (Host.scatter scatter_S128x128_S2_S32x16_01_n_01_0 (fun _ b => b)
          (Host.scatter scatter_S128x128_S2_S32x16_01_n_01_0 (fun _ b => b)
            (broadcastInDim S128x128 ![] bcast_S_S128x128 (constant (F := Ideal) S_ .f32 0x00000000#32))
            (startIdx 0#32 0#32)
            (slab ![0, 0, 0] slices_S3x32x16_S1x32x16_0_0_0 (m ((c : Thread nD τ).loc main_arg3))))
          (startIdx 32#32 16#32)
          (slab ![1, 0, 0] slices_S3x32x16_S1x32x16_1_0_0 (m ((c : Thread nD τ).loc main_arg3))))
        (startIdx 64#32 32#32)
        (slab ![2, 0, 0] slices_S3x32x16_S1x32x16_2_0_0 (m ((c : Thread nD τ).loc main_arg3))) := by
  dsimp only [V6, V5, V4, V3, V2, V1, V0, hostOps0_5, hostOps0_4, hostOps0_3, hostOps0_2, hostOps0_1, hostOps0]
  after_results_simp
  rfl

/-- The zero array read at an index is `Spec.zero`. -/
theorem zeros_apply (j : S128x128.Idx) :
    (broadcastInDim S128x128 ![] bcast_S_S128x128 (constant (F := Ideal) S_ .f32 0x00000000#32) : S128x128.Idx → EReal) j = Cert.Spec.zero := rfl

/-- Entry `(h, k)` of the packed second-layer weights: block `h / 32` sits at rows `32 (h / 32) …`, columns
    `16 (h / 32) …`; everything off the three blocks is zero. -/
theorem w2p_apply (c : Dev nD) (h k : Fin 128) :
    (V6 m c main_v23 : S128x128.Idx → EReal) (ix2 h k)
      = Cert.Spec.w2p (fun r a b => (m ((c : Thread nD τ).loc main_arg3) : S3x32x16.Idx → EReal) (ix3 r a b)) h k := by
  rw [w2p_term]
  unfold Cert.Spec.w2p
  refine (Cert.HostScatter.scatter_win2_apply _ _ _ _ 64 32 rfl rfl (by decide) (by decide) h k).trans ?_
  by_cases c2 : (64 ≤ h.val ∧ h.val < 64 + 32) ∧ (32 ≤ k.val ∧ k.val < 32 + 16)
  · rw [dif_pos c2, dif_pos (by omega)]
    refine (slab_apply 2 _ _ _ _).trans (congrArg _ ?_)
    exact funext fun e => match e with
      | ⟨0, _⟩ => Fin.ext (by show 2 = h.val / 32; omega)
      | ⟨1, _⟩ => Fin.ext (by show h.val - 64 = h.val % 32; omega)
      | ⟨2, _⟩ => Fin.ext (by show k.val - 32 = k.val % 16; omega)
  · rw [dif_neg c2]
    refine (Cert.HostScatter.scatter_win2_apply _ _ _ _ 32 16 rfl rfl (by decide) (by decide) h k).trans ?_
    by_cases c1 : (32 ≤ h.val ∧ h.val < 32 + 32) ∧ (16 ≤ k.val ∧ k.val < 16 + 16)
    · rw [dif_pos c1, dif_pos (by omega)]
      refine (slab_apply 1 _ _ _ _).trans (congrArg _ ?_)
      exact funext fun e => match e with
        | ⟨0, _⟩ => Fin.ext (by show 1 = h.val / 32; omega)
        | ⟨1, _⟩ => Fin.ext (by show h.val - 32 = h.val % 32; omega)
        | ⟨2, _⟩ => Fin.ext (by show k.val - 16 = k.val % 16; omega)
    · rw [dif_neg c1]
      refine (Cert.HostScatter.scatter_win2_apply _ _ _ _ 0 0 rfl rfl (by decide) (by decide) h k).trans ?_
      by_cases c0 : (0 ≤ h.val ∧ h.val < 0 + 32) ∧ (0 ≤ k.val ∧ k.val < 0 + 16)
      · rw [dif_pos c0, dif_pos (by omega)]
        refine (slab_apply 0 _ _ _ _).trans (congrArg _ ?_)
        exact funext fun e => match e with
          | ⟨0, _⟩ => Fin.ext (by show 0 = h.val / 32; omega)
          | ⟨1, _⟩ => Fin.ext (by show h.val - 0 = h.val % 32; omega)
          | ⟨2, _⟩ => Fin.ext (by show k.val - 0 = k.val % 16; omega)
      · rw [dif_neg c0, dif_neg (by omega)]
        exact zeros_apply _

/-! ## The node embeddings -/

/-- No host operation writes the node embeddings. -/
theorem z_keep (c : Dev nD) : V6 m c main_arg0 = m ((c : Thread nD τ).loc main_arg0) :=
  (V6_of m c main_arg0 (by decide)).trans <| (V5_of m c main_arg0 (by decide)).trans <| (V4_of m c main_arg0 (by decide)).trans <|
    (V3_of m c main_arg0 (by decide)).trans <| (V2_of m c main_arg0 (by decide)).trans <| (V1_of m c main_arg0 (by decide)).trans rfl

end Cert.KernelIdeal.Host

end
-- ==== Proof.KernelIdeal.Whole.lean ====
/-
  The kernel's result as one function of its five argument arrays.

  The run ends with the result array at what the second pipeline leaves.  That is the Gram matrix of the rows of the
  array the second pipeline read; this array is what the first pipeline leaves, the two-layer perceptron of every row
  of z at the weights and biases the first pipeline read; and those are what the host operations before it pack
  from the per-relation weights and biases, with z itself untouched.  Composed, entry (i, j) of the result is the
  specification's function of the five arguments.
-/
import proofs.«100627_g2000204067356750_pallasbulk_973_2_alg».proof.Proof.KernelIdeal.Run
import proofs.«100627_g2000204067356750_pallasbulk_973_2_alg».proof.Proof.KernelIdeal.Val0
import proofs.«100627_g2000204067356750_pallasbulk_973_2_alg».proof.Proof.KernelIdeal.Val1
import proofs.«100627_g2000204067356750_pallasbulk_973_2_alg».proof.Proof.HostKI
import proofs.«100627_g2000204067356750_pallasbulk_973_2_alg».proof.Proof.Spec
import Idealize.ShloMosaic.Lib.ValueIdx

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.KernelIdeal.Reg

variable (m : (ℓ : Loc nD τ sig) → Buf (Elt Ideal) ℓ) (c : Dev nD)

/-- The array of T the second region is entered with is the perceptron of every row of z at the packed weights. -/
theorem t_rows (i : Fin 8192) (k : Fin 128) :
    (U7 m c main_v26 : S8192x128.Idx → EReal) (ix2 i k)
      = Cert.Spec.T (fun i d => (m ((c : Thread nD τ).loc main_arg0) : S8192x512.Idx → EReal) (ix2 i d))
          (Cert.Spec.w1p fun r d e => (m ((c : Thread nD τ).loc main_arg1) : S3x512x32.Idx → EReal) (ix3 r d e))
          (Cert.Spec.b1p fun r e => (m ((c : Thread nD τ).loc main_arg2) : S3x1x32.Idx → EReal) (ix3 r 0 e))
          (Cert.Spec.w2p fun r a b => (m ((c : Thread nD τ).loc main_arg3) : S3x32x16.Idx → EReal) (ix3 r a b))
          (Cert.Spec.b2p fun r e => (m ((c : Thread nD τ).loc main_arg4) : S3x1x16.Idx → EReal) (ix3 r 0 e)) i k := by
  refine (congrFun (W7_arr m c 5) (ix2 i k)).trans ?_
  refine (Cert.KernelIdeal.Val.val0 (U6 m) c i k).trans ?_
  have hz : (fun (i : Fin 8192) (d : Fin 512) => (U6 m c main_arg0 : S8192x512.Idx → EReal) (ix2 i d))
      = fun i d => (m ((c : Thread nD τ).loc main_arg0) : S8192x512.Idx → EReal) (ix2 i d) :=
    funext fun i => funext fun d => congrFun (Cert.KernelIdeal.Host.z_keep m c) (ix2 i d)
  have hw1 : (fun (d : Fin 512) (h : Fin 128) => (U6 m c main_v2 : S512x128.Idx → EReal) (ix2 d h))
      = Cert.Spec.w1p fun r d e => (m ((c : Thread nD τ).loc main_arg1) : S3x512x32.Idx → EReal) (ix3 r d e) :=
    funext fun d => funext fun h => Cert.KernelIdeal.Host.w1p_apply m c d h
  have hb1 : (fun (h : Fin 128) => (U6 m c main_v4 : S1x128.Idx → EReal) (ix2 0 h))
      = Cert.Spec.b1p fun r e => (m ((c : Thread nD τ).loc main_arg2) : S3x1x32.Idx → EReal) (ix3 r 0 e) :=
    funext fun h => Cert.KernelIdeal.Host.b1p_apply m c h
  have hw2 : (fun (h k : Fin 128) => (U6 m c main_v23 : S128x128.Idx → EReal) (ix2 h k))
      = Cert.Spec.w2p fun r a b => (m ((c : Thread nD τ).loc main_arg3) : S3x32x16.Idx → EReal) (ix3 r a b) :=
    funext fun h => funext fun k => Cert.KernelIdeal.Host.w2p_apply m c h k
  have hb2 : (fun (k : Fin 128) => (U6 m c main_v25 : S1x128.Idx → EReal) (ix2 0 k))
      = Cert.Spec.b2p fun r e => (m ((c : Thread nD τ).loc main_arg4) : S3x1x16.Idx → EReal) (ix3 r 0 e) :=
    funext fun k => Cert.KernelIdeal.Host.b2p_apply m c k
  rw [hz, hw1, hb1, hw2, hb2]

/-- The result array the run ends with is the specification's function of the five argument arrays. -/
theorem result_eq (m : (ℓ : Loc nD τ sig) → Buf (Elt Ideal) ℓ) (c : Dev nD) :
    ((dat1 (U7 m) c).arrAt 2 cfg1.N : S8192x8192.Idx → EReal)
      = fun j => Cert.Spec.result (fun i d => (m ((c : Thread nD τ).loc main_arg0) : S8192x512.Idx → EReal) (ix2 i d))
          (fun r d e => (m ((c : Thread nD τ).loc main_arg1) : S3x512x32.Idx → EReal) (ix3 r d e))
          (fun r e => (m ((c : Thread nD τ).loc main_arg2) : S3x1x32.Idx → EReal) (ix3 r 0 e))
          (fun r a b => (m ((c : Thread nD τ).loc main_arg3) : S3x32x16.Idx → EReal) (ix3 r a b))
          (fun r e => (m ((c : Thread nD τ).loc main_arg4) : S3x1x16.Idx → EReal) (ix3 r 0 e)) (j 0) (j 1) := by
  funext j
  obtain ⟨i, i', rfl⟩ : ∃ (i i' : Fin 8192), j = ix2 i i' := ⟨j 0, j 1, eq_ix2 j⟩
  refine (Cert.KernelIdeal.Val.val1 (U7 m) c i i').trans ?_
  have hT : (fun (i : Fin 8192) (k : Fin 128) => (U7 m c main_v26 : S8192x128.Idx → EReal) (ix2 i k))
      = Cert.Spec.T (fun i d => (m ((c : Thread nD τ).loc main_arg0) : S8192x512.Idx → EReal) (ix2 i d))
          (Cert.Spec.w1p fun r d e => (m ((c : Thread nD τ).loc main_arg1) : S3x512x32.Idx → EReal) (ix3 r d e))
          (Cert.Spec.b1p fun r e => (m ((c : Thread nD τ).loc main_arg2) : S3x1x32.Idx → EReal) (ix3 r 0 e))
          (Cert.Spec.w2p fun r a b => (m ((c : Thread nD τ).loc main_arg3) : S3x32x16.Idx → EReal) (ix3 r a b))
          (Cert.Spec.b2p fun r e => (m ((c : Thread nD τ).loc main_arg4) : S3x1x16.Idx → EReal) (ix3 r 0 e)) :=
    funext fun i => funext fun k => t_rows m c i k
  rw [hT]
  rfl

end Cert.KernelIdeal.Whole

end
-- ==== Proof.PayRI.lean ====
/-
  The two reference bodies read at an index.

  The perceptron body takes a block of 512 rows of 512 features through both layers: a product with the first
  weights into a zero accumulator, the first bias row added to every row, the leaky rectifier, and the same again
  with the second weights and bias, all in single precision.  Read at (p, q) it is entry q of the specification's
  second layer applied to row p of the block.  The Gram body is one product of two blocks of 512 rows of 128 lanes,
  each contracted over its lanes: at (p, q) it is the specification's Gram entry of row p of the first block and
  row q of the second.
-/
import proofs.«100627_g2000204067356750_pallasbulk_973_2_alg».proof.Proof.Gen.ReferenceIdeal.Skeleton
import proofs.«100627_g2000204067356750_pallasbulk_973_2_alg».proof.Proof.Spec
import proofs.«100627_g2000204067356750_pallasbulk_973_2_alg».proof.Proof.LibPlainDot
import proofs.«100627_g2000204067356750_pallasbulk_973_2_alg».proof.Proof.LibTransDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Pay
open Idealize.ShloMosaic Idealize.ShloMosaic.ValueIdx Cert.ReferenceIdeal Cert.ReferenceIdeal.Gen

/-! ## The dimension numbers -/

/-- The first layer's product is 512×512 by 512×128, contracted over the 512 features. -/
theorem plain_dot1 : PlainDot.IsPlain dot_S512x512_S512x128_S512x128_1_0_0_1_n_n := ⟨rfl, rfl, rfl, rfl, rfl, rfl⟩

/-- The second layer's product is 512×128 by 128×128, contracted over the 128 hidden lanes. -/
theorem plain_dot2 : PlainDot.IsPlain dot_S512x128_S128x128_S512x128_1_0_0_1_n_n := ⟨rfl, rfl, rfl, rfl, rfl, rfl⟩

/-- The Gram product is 512×128 by 512×128, each operand contracted over its 128 lanes. -/
theorem trans_dot : TransDot.IsTrans dot_S512x128_S512x128_S512x512_1_1_0_0_n_n := ⟨rfl, rfl, rfl, rfl, rfl, rfl⟩

/-! ## The pieces of the perceptron on a block of 512 rows -/

/-- The leaky rectifier on a whole vector: compare with zero, scale by the slope, select. -/
def leakyVec {s : Shape} (v : FVec Ideal s .f32) : FVec Ideal s .f32 :=
  select (cmpf .ogt v (broadcast s (Scalar.ofBits (F := Ideal) .f32 0x00000000#32))) v
    (mulf (broadcast s (Scalar.ofBits (F := Ideal) .f32 0x3C23D70A#32)) v)

/-- At an index it is the specification's rectifier of the element. -/
theorem leakyVec_apply {s : Shape} (v : FVec Ideal s .f32) (i : s.Idx) : leakyVec v i = Cert.Spec.leaky (v i) := rfl

/-- The first layer before its rectifier: the block times the first weights, plus the first bias row on every row. -/
def pre1 (x0 : FVec Ideal S512x512 .f32) (x1 : FVec Ideal S512x128 .f32) (x2 : FVec Ideal S1x128 .f32) :
    FVec Ideal S512x128 .f32 :=
  addf (matmul dot_S512x512_S512x128_S512x128_1_0_0_1_n_n none x0 x1 (constant (F := Ideal) S512x128 .f32 0x00000000#32))
    (broadcastTo S512x128 x2 broadcasts_S1x128_S512x128)

/-- At (p, h): row p against column h of the first weights, plus entry h of the bias. -/
theorem pre1_apply (x0 : FVec Ideal S512x512 .f32) (x1 : FVec Ideal S512x128 .f32) (x2 : FVec Ideal S1x128 .f32)
    (p : Fin 512) (h : Fin 128) :
    pre1 x0 x1 x2 (ix2 p h) = (∑ d : Fin 512, x0 (ix2 p d) * x1 (ix2 d h)) + x2 (ix2 (0 : Fin 1) h) := by
  unfold pre1
  rw [addf_apply]
  exact congrArg₂ (· + ·) (PlainDot.matmul_zero_plain dot_S512x512_S512x128_S512x128_1_0_0_1_n_n plain_dot1 none x0 x1 p h)
    (broadcastTo_1b_ab_apply x2 broadcasts_S1x128_S512x128 p h)

/-- The second layer before its rectifier: the hidden block times the second weights, plus the second bias row. -/
def pre2 (hid : FVec Ideal S512x128 .f32) (x3 : FVec Ideal S128x128 .f32) (x4 : FVec Ideal S1x128 .f32) :
    FVec Ideal S512x128 .f32 :=
  addf (matmul dot_S512x128_S128x128_S512x128_1_0_0_1_n_n none hid x3 (constant (F := Ideal) S512x128 .f32 0x00000000#32))
    (broadcastTo S512x128 x4 broadcasts_S1x128_S512x128)

/-- At (p, k): hidden row p against column k of the second weights, plus entry k of the bias. -/
theorem pre2_apply (hid : FVec Ideal S512x128 .f32) (x3 : FVec Ideal S128x128 .f32) (x4 : FVec Ideal S1x128 .f32)
    (p : Fin 512) (k : Fin 128) :
    pre2 hid x3 x4 (ix2 p k) = (∑ h : Fin 128, hid (ix2 p h) * x3 (ix2 h k)) + x4 (ix2 (0 : Fin 1) k) := by
  unfold pre2
  rw [addf_apply]
  exact congrArg₂ (· + ·) (PlainDot.matmul_zero_plain dot_S512x128_S128x128_S512x128_1_0_0_1_n_n plain_dot2 none hid x3 p k)
    (broadcastTo_1b_ab_apply x4 broadcasts_S1x128_S512x128 p k)

/-- The perceptron body is these pieces composed: the shape casts in it are identities. -/
theorem pay0_eq (x0 : Vec Ideal S512x512 .f32) (x1 : Vec Ideal S512x128 .f32) (x2 : Vec Ideal S1x128 .f32)
    (x3 : Vec Ideal S128x128 .f32) (x4 : Vec Ideal S1x128 .f32) :
    k0_pay1 (F := Ideal) x0 x1 x2 x3 x4 = leakyVec (pre2 (leakyVec (pre1 x0 x1 x2)) x3 x4) := by
  unfold k0_pay1
  simp only [shapeCast_self]
  rfl

/-- The perceptron body at (p, q) is entry q of the specification's second layer on row p of the block. -/
theorem pay0_apply (x0 : Vec Ideal S512x512 .f32) (x1 : Vec Ideal S512x128 .f32) (x2 : Vec Ideal S1x128 .f32)
    (x3 : Vec Ideal S128x128 .f32) (x4 : Vec Ideal S1x128 .f32) (p : Fin 512) (q : Fin 128) :
    k0_pay1 (F := Ideal) x0 x1 x2 x3 x4 (ix2 p q)
      = Cert.Spec.tEntry (fun d => x0 (ix2 p d)) (fun d h => x1 (ix2 d h)) (fun h => x2 (ix2 0 h))
          (fun h k => x3 (ix2 h k)) (fun k => x4 (ix2 0 k)) q := by
  rw [pay0_eq]
  simp only [leakyVec_apply, pre2_apply, pre1_apply]
  rfl

/-! ## The Gram body -/

/-- The Gram body at (p, q) is row p of the first block against row q of the second. -/
theorem pay1_apply (a b : Vec Ideal S512x128 .f32) (p q : Fin 512) :
    k1_pay1 (F := Ideal) a b (ix2 p q) = Cert.Spec.gramEntry (fun k => a (ix2 p k)) (fun k => b (ix2 q k)) := by
  unfold k1_pay1
  simp only [shapeCast_self]
  exact TransDot.matmul_zero_trans dot_S512x128_S512x128_S512x512_1_1_0_0_n_n trans_dot none a b p q

end Cert.ReferenceIdeal.Pay

end
-- ==== Proof.ReferenceIdeal.Val0.lean ====
/-
  The first region of the reference program: its result array, index by index.

  The region's grid has 16 points; point `t` writes back block `t` of the result, rows `512 t … 512 t + 511` of all 128
  lanes, and what it writes is the packed perceptron of the matching block of rows of `z`: entry `(p, q)` of the block
  is lane `q` of the perceptron applied to row `512 t + p`.  The weights and biases reach every point whole (their
  windows sit at block index zero), so every point writes its block of ONE function of the five arrays as the region
  finds them, the perceptron row by row; the 16 blocks cover the result, and the array therefore ends holding that
  function at every index.
-/
import proofs.«100627_g2000204067356750_pallasbulk_973_2_alg».proof.Proof.ReferenceIdeal.Region0
import proofs.«100627_g2000204067356750_pallasbulk_973_2_alg».proof.Proof.PayRI
import proofs.«100627_g2000204067356750_pallasbulk_973_2_alg».proof.Proof.Spec
import Idealize.ShloMosaic.Lib.Pipeline.Value
import Idealize.ShloMosaic.Lib.ValueIdx

set_option maxRecDepth 16384

noncomputable section

namespace Cert.ReferenceIdeal.Val

open Idealize.ShloMosaic Idealize.ShloMosaic.TcCoe Idealize.ShloMosaic.ValueIdx Idealize.SL.Sem
open Idealize.ShloMosaic.Pipeline (Dat)
open Cert.ReferenceIdeal Cert.ReferenceIdeal.Gen Cert.ReferenceIdeal.Reg Cert.ReferenceIdeal.Pay

variable (V : (c : Dev nD) → (b : Ref sig .tc) → Buf (Elt Ideal) ((c : Thread nD τ).loc b))

/-- The offsets of a whole-buffer access are zero on both axes. -/
theorem zero_offsets0 : (![0, 0] : Fin 2 → Nat) = fun _ => 0 := funext fun a => by fin_cases a <;> rfl

/-! ## The function the result array ends holding -/

/-- The packed perceptron applied to every row of `Z`, as one function of the result's index: entry `(r, q)` is lane
    `q` of the perceptron of row `r`, with weights `W1`, `W2` and bias rows `B1`, `B2`. -/
def mlpOf (Z : S8192x512.Idx → EReal) (W1 : S512x128.Idx → EReal) (B1 : S1x128.Idx → EReal) (W2 : S128x128.Idx → EReal)
    (B2 : S1x128.Idx → EReal) : S8192x128.Idx → EReal :=
  fun i => Cert.Spec.T (fun r d => Z (ix2 r d)) (fun d h => W1 (ix2 d h)) (fun h => B1 (ix2 0 h)) (fun h k => W2 (ix2 h k))
    (fun k => B2 (ix2 0 k)) ⟨(i 0).val, (i 0).isLt⟩ ⟨(i 1).val, (i 1).isLt⟩

/-! ## The block indices over the grid -/

/-- At every grid point the window of `z` sits at the output block's row block and feature block zero; the four
    weight and bias windows sit at block index zero on both axes; the output's row block stays below 16 and its lane
    block is zero. -/
theorem block_indices0 : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 15 ∧ win0_5.index t (1 : Fin 2) = 0 :=
  (by decide +kernel : ∀ t : Fin grid0.N, _)

/-- Every one of the 16 row blocks is some point's. -/
theorem blocks_onto0 : ∀ q0 : Fin 16, ∃ t : Fin cfg0.N, win0_5.index t = ![q0.val, 0] :=
  (by decide +kernel : ∀ q0 : Fin 16, ∃ t : Fin grid0.N, win0_5.index t = ![q0.val, 0])

/-! ## The input blocks, read off their arrays -/

/-- Entry `x` of the block of rows of `z` at point `t` is the array's entry at block index × block size + `x`. -/
theorem iblk0_0_apply (c : Dev nD) (t : Fin cfg0.N) (x : S512x512.Idx) (i : S8192x512.Idx)
    (h0 : (i 0).val = win0_0.index t (0 : Fin 2) * 512 + (x 0).val) (h1 : (i 1).val = win0_0.index t (1 : Fin 2) * 512 + (x 1).val) :
    (iblk0 V c 0 t : Vec Ideal S512x512 .f32) x = (V c main_arg0 : S8192x512.Idx → EReal) i := by
  unfold iblk0
  rw [View.read_apply]
  show V c main_arg0 _ = V c main_arg0 _
  congr 1
  funext a
  apply Fin.ext
  match a with
  | ⟨0, _⟩ => show win0_0.index t (0 : Fin 2) * 512 + 1 * (x 0).val = (i 0).val; omega
  | ⟨1, _⟩ => show win0_0.index t (1 : Fin 2) * 512 + 1 * (x 1).val = (i 1).val; omega

/-- The first weight matrix reaches every point whole. -/
theorem iblk0_1_eq (c : Dev nD) (t : Fin cfg0.N) :
    (iblk0 V c 1 t : Vec Ideal S512x128 .f32) = (V c main_v43 : S512x128.Idx → EReal) := by
  obtain ⟨-, -, e0, e1, -⟩ := block_indices0 t
  funext x
  unfold iblk0
  rw [View.read_apply]
  show V c main_v43 _ = V c main_v43 _
  congr 1
  funext a
  apply Fin.ext
  match a with
  | ⟨0, _⟩ => show win0_1.index t (0 : Fin 2) * 512 + 1 * (x 0).val = (x 0).val; omega
  | ⟨1, _⟩ => show win0_1.index t (1 : Fin 2) * 128 + 1 * (x 1).val = (x 1).val; omega

/-- The first bias row reaches every point whole. -/
theorem iblk0_2_eq (c : Dev nD) (t : Fin cfg0.N) :
    (iblk0 V c 2 t : Vec Ideal S1x128 .f32) = (V c main_v47 : S1x128.Idx → EReal) := by
  obtain ⟨-, -, -, -, e0, e1, -⟩ := block_indices0 t
  funext x
  unfold iblk0
  rw [View.read_apply]
  show V c main_v47 _ = V c main_v47 _
  congr 1
  funext a
  apply Fin.ext
  match a with
  | ⟨0, _⟩ => show win0_2.index t (0 : Fin 2) * 1 + 1 * (x 0).val = (x 0).val; omega
  | ⟨1, _⟩ => show win0_2.index t (1 : Fin 2) * 128 + 1 * (x 1).val = (x 1).val; omega

/-- The second weight matrix reaches every point whole. -/
theorem iblk0_3_eq (c : Dev nD) (t : Fin cfg0.N) :
    (iblk0 V c 3 t : Vec Ideal S128x128 .f32) = (V c main_v53 : S128x128.Idx → EReal) := by
  obtain ⟨-, -, -, -, -, -, e0, e1, -⟩ := block_indices0 t
  funext x
  unfold iblk0
  rw [View.read_apply]
  show V c main_v53 _ = V c main_v53 _
  congr 1
  funext a
  apply Fin.ext
  match a with
  | ⟨0, _⟩ => show win0_3.index t (0 : Fin 2) * 128 + 1 * (x 0).val = (x 0).val; omega
  | ⟨1, _⟩ => show win0_3.index t (1 : Fin 2) * 128 + 1 * (x 1).val = (x 1).val; omega

/-- The second bias row reaches every point whole. -/
theorem iblk0_4_eq (c : Dev nD) (t : Fin cfg0.N) :
    (iblk0 V c 4 t : Vec Ideal S1x128 .f32) = (V c main_v57 : S1x128.Idx → EReal) := by
  obtain ⟨-, -, -, -, -, -, -, -, e0, e1, -⟩ := block_indices0 t
  funext x
  unfold iblk0
  rw [View.read_apply]
  show V c main_v57 _ = V c main_v57 _
  congr 1
  funext a
  apply Fin.ext
  match a with
  | ⟨0, _⟩ => show win0_4.index t (0 : Fin 2) * 1 + 1 * (x 0).val = (x 0).val; omega
  | ⟨1, _⟩ => show win0_4.index t (1 : Fin 2) * 128 + 1 * (x 1).val = (x 1).val; omega

/-! ## One block of the result -/

/-- If row `p` of the block of `z` is row `r` of `Z`, the payload's entry `(p, q)` is lane `q` of the perceptron of row
    `r`: the payload reads its row of the block and the weights and biases whole. -/
theorem pay0_rows (Z : S8192x512.Idx → EReal) (x0 : Vec Ideal S512x512 .f32) (x1 : Vec Ideal S512x128 .f32)
    (x2 : Vec Ideal S1x128 .f32) (x3 : Vec Ideal S128x128 .f32) (x4 : Vec Ideal S1x128 .f32) (r : Fin 8192) (p : Fin 512)
    (q : Fin 128) (h0 : ∀ d : Fin 512, x0 (ix2 p d) = Z (ix2 r d)) :
    k0_pay1 (F := Ideal) x0 x1 x2 x3 x4 (ix2 p q)
      = Cert.Spec.T (fun r d => Z (ix2 r d)) (fun d h => x1 (ix2 d h)) (fun h => x2 (ix2 0 h)) (fun h k => x3 (ix2 h k))
          (fun k => x4 (ix2 0 k)) r q := by
  rw [pay0_apply]
  have hrow : (fun d : Fin 512 => x0 (ix2 p d)) = fun d => Z (ix2 r d) := funext h0
  rw [hrow]
  rfl

/-- With the block of `z` the rows `512 b …` of `Z`, the payload's entry `(p, q)` is `mlpOf` at the index
    `(512 b + p, q)`. -/
theorem pay0_tile (Z : S8192x512.Idx → EReal) (x0 : Vec Ideal S512x512 .f32) (x1 : Vec Ideal S512x128 .f32)
    (x2 : Vec Ideal S1x128 .f32) (x3 : Vec Ideal S128x128 .f32) (x4 : Vec Ideal S1x128 .f32) (b : Nat)
    (hz : ∀ (x : S512x512.Idx) (i : S8192x512.Idx), (i 0).val = b * 512 + (x 0).val → (i 1).val = (x 1).val → x0 x = Z i)
    (p : Fin 512) (q : Fin 128) (i : S8192x128.Idx) (h0 : (i 0).val = b * 512 + p.val) (h1 : (i 1).val = q.val) :
    k0_pay1 (F := Ideal) x0 x1 x2 x3 x4 (ix2 p q) = mlpOf Z x1 x2 x3 x4 i := by
  unfold mlpOf
  have hq : q = ⟨(i 1).val, (i 1).isLt⟩ := Fin.ext h1.symm
  rw [hq]
  exact pay0_rows Z x0 x1 x2 x3 x4 _ p _ (fun d => hz (ix2 p d) (ix2 _ d) h0 rfl)

/-! ## What a point writes back -/

/-- What grid point `t` writes back is its block of `mlpOf` of the five arrays as the region finds them. -/
theorem flushed0_eq (c : Dev nD) (t : Fin cfg0.N) :
    (dat0 V c).flushed 5 t = ((cfg0.win 5).blk t).view.read (Elt Ideal)
      (mlpOf (V c main_arg0) (V c main_v43) (V c main_v47) (V c main_v53) (V c main_v57)) := by
  show (cfg0.win 5).cut (grid0.coords t) ((dat0 V c).after 5 t) = _
  rw [after0_5]
  unfold out0_5
  rw [View.canon_unit_zero zero_offsets0]
  simp only [View.ld_unit_zero (S := S512x512) zero_offsets0, View.ld_unit_zero (S := S512x128) zero_offsets0,
    View.ld_unit_zero (S := S1x128) zero_offsets0, View.ld_unit_zero (S := S128x128) zero_offsets0]
  rw [iblk0_1_eq V c t, iblk0_2_eq V c t, iblk0_3_eq V c t, iblk0_4_eq V c t]
  obtain ⟨e0, e1, -, -, -, -, -, -, -, -, e4, e5⟩ := block_indices0 t
  funext j
  have hj0 : (j 0).val < 512 := (j 0).isLt
  have hj1 : (j 1).val < 128 := (j 1).isLt
  have hx : (cfg0.win 5).xinj (grid0.coords t) j = ix2 (⟨(j 0).val, hj0⟩ : Fin 512) (⟨(j 1).val, hj1⟩ : Fin 128) := funext fun a => by
    match a with
    | ⟨0, _⟩ => rfl
    | ⟨1, _⟩ => rfl
  show k0_pay1 (F := Ideal) (iblk0 V c 0 t) (V c main_v43) (V c main_v47) (V c main_v53) (V c main_v57) ((cfg0.win 5).xinj (grid0.coords t) j)
    = mlpOf (V c main_arg0) (V c main_v43) (V c main_v47) (V c main_v53) (V c main_v57) (((cfg0.win 5).blk t).view.emb j)
  rw [hx]
  refine pay0_tile (V c main_arg0) _ _ _ _ _ (win0_5.index t (0 : Fin 2))
    (fun x i h0 h1 => iblk0_0_apply V c t x i (by rw [e0]; exact h0) (by rw [e1]; omega)) _ _ _ ?_ ?_
  · show win0_5.index t (0 : Fin 2) * 512 + 1 * (j 0).val = win0_5.index t (0 : Fin 2) * 512 + (j 0).val; omega
  · show win0_5.index t (1 : Fin 2) * 128 + 1 * (j 1).val = (j 1).val; omega

/-! ## The blocks cover the result -/

/-- An index of the result is in point `t`'s block iff each coordinate is in the block's range on its axis. -/
theorem mem_blk0 (t : Fin cfg0.N) (i : S8192x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v58).slice (win0_5.rect t)).set ↔ _
  rw [View.set_slice_whole, Rect.mem_set_unit]
  exact Iff.rfl

/-- Every index `(r, q)` of the result is in the block of the point at row block `r / 512`, and every point writes
    back. -/
theorem cover0 (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  obtain ⟨t, ht⟩ := blocks_onto0 ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 128 ≤ (i 1).val ∧ (i 1).val < win0_5.index t (1 : Fin 2) * 128 + 128; omega

/-! ## The array after the region -/

/-- The result array after all 16 points is the perceptron of every row of `z`, at the weights and biases the region
    read. -/
theorem final0 (c : Dev nD) : (dat0 V c).arrAt 5 cfg0.N
    = mlpOf (V c main_arg0) (V c main_v43) (V c main_v47) (V c main_v53) (V c main_v57) :=
  (dat0 V c).arrAt_eq_of_cover 5 (mlpOf (V c main_arg0) (V c main_v43) (V c main_v47) (V c main_v53) (V c main_v57))
    (fun t _ => flushed0_eq V c t) cover0

/-- Index by index: entry `(i, k)` of the result is lane `k` of the perceptron of row `i` of `z`. -/
theorem val0 (c : Dev nD) (i : Fin 8192) (k : Fin 128) :
    ((dat0 V c).arrAt 5 cfg0.N : S8192x128.Idx → EReal) (ix2 i k)
      = Cert.Spec.T (fun i d => (V c main_arg0 : S8192x512.Idx → EReal) (ix2 i d))
          (fun d h => (V c main_v43 : S512x128.Idx → EReal) (ix2 d h)) (fun h => (V c main_v47 : S1x128.Idx → EReal) (ix2 0 h))
          (fun h k => (V c main_v53 : S128x128.Idx → EReal) (ix2 h k)) (fun k => (V c main_v57 : S1x128.Idx → EReal) (ix2 0 k)) i k := by
  rw [final0]
  rfl

end Cert.ReferenceIdeal.Val

end
-- ==== Proof.ReferenceIdeal.Val1.lean ====
/-
  The second region of the reference program: its result array, index by index.

  The region's grid has 16 × 16 points; point `(i, j)` writes back tile `(i, j)` of the result, 512 × 512 entries, and
  what it writes is the product of block `i` of the rows of `T` with the transpose of block `j`: entry `(p, q)` of the
  tile is the sum over the 128 lanes of row `512 i + p` times row `512 j + q`.  So every point writes its tile of ONE
  function of the array `T` as the region finds it, the Gram matrix of its rows; the 256 tiles cover the result, and
  the array therefore ends holding that matrix at every index.
-/
import proofs.«100627_g2000204067356750_pallasbulk_973_2_alg».proof.Proof.ReferenceIdeal.Region1
import proofs.«100627_g2000204067356750_pallasbulk_973_2_alg».proof.Proof.PayRI
import proofs.«100627_g2000204067356750_pallasbulk_973_2_alg».proof.Proof.Spec
import Idealize.ShloMosaic.Lib.Pipeline.Value
import Idealize.ShloMosaic.Lib.ValueIdx

set_option maxRecDepth 16384

noncomputable section

namespace Cert.ReferenceIdeal.Val

open Idealize.ShloMosaic Idealize.ShloMosaic.TcCoe Idealize.ShloMosaic.ValueIdx Idealize.SL.Sem
open Idealize.ShloMosaic.Pipeline (Dat)
open Cert.ReferenceIdeal Cert.ReferenceIdeal.Gen Cert.ReferenceIdeal.Reg Cert.ReferenceIdeal.Pay

variable (V : (c : Dev nD) → (b : Ref sig .tc) → Buf (Elt Ideal) ((c : Thread nD τ).loc b))

/-- The offsets of a whole-buffer access are zero on both axes. -/
theorem zero_offsets1 : (![0, 0] : Fin 2 → Nat) = fun _ => 0 := funext fun a => by fin_cases a <;> rfl

/-! ## The function the result array ends holding -/

/-- The Gram matrix of the rows of an array `T` of 8192 rows of 128 lanes, as one function of the result's index:
    entry `(r, s)` is row `r` against row `s`. -/
def gramOf (T : S8192x128.Idx → EReal) : S8192x8192.Idx → EReal :=
  fun i => Cert.Spec.gram (fun r k => T (ix2 r k)) ⟨(i 0).val, (i 0).isLt⟩ ⟨(i 1).val, (i 1).isLt⟩

/-! ## The block indices over the grid -/

/-- At every grid point the first input window sits at the output tile's row block, the second at its column block,
    both at lane block zero; and the output's block indices stay below 16 on both axes. -/
theorem block_indices1 : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 15 ∧ win1_2.index t (1 : Fin 2) ≤ 15 :=
  (by decide +kernel : ∀ t : Fin grid1.N, _)

/-- Every one of the 16 × 16 tiles is some point's. -/
theorem tiles_onto1 : ∀ (q0 q1 : Fin 16), ∃ t : Fin cfg1.N, win1_2.index t = ![q0.val, q1.val] :=
  (by decide +kernel : ∀ (q0 q1 : Fin 16), ∃ t : Fin grid1.N, win1_2.index t = ![q0.val, q1.val])

/-! ## The input blocks, read off the array -/

/-- Entry `x` of the first window's block at point `t` is the array's entry at block index × block size + `x`. -/
theorem iblk1_0_apply (c : Dev nD) (t : Fin cfg1.N) (x : S512x128.Idx) (i : S8192x128.Idx)
    (h0 : (i 0).val = win1_0.index t (0 : Fin 2) * 512 + (x 0).val) (h1 : (i 1).val = win1_0.index t (1 : Fin 2) * 128 + (x 1).val) :
    (iblk1 V c 0 t : Vec Ideal S512x128 .f32) x = (V c main_v58 : S8192x128.Idx → EReal) i := by
  unfold iblk1
  rw [View.read_apply]
  show V c main_v58 _ = V c main_v58 _
  congr 1
  funext a
  apply Fin.ext
  match a with
  | ⟨0, _⟩ => show win1_0.index t (0 : Fin 2) * 512 + 1 * (x 0).val = (i 0).val; omega
  | ⟨1, _⟩ => show win1_0.index t (1 : Fin 2) * 128 + 1 * (x 1).val = (i 1).val; omega

/-- The same for the second window, which reads the same array. -/
theorem iblk1_1_apply (c : Dev nD) (t : Fin cfg1.N) (x : S512x128.Idx) (i : S8192x128.Idx)
    (h0 : (i 0).val = win1_1.index t (0 : Fin 2) * 512 + (x 0).val) (h1 : (i 1).val = win1_1.index t (1 : Fin 2) * 128 + (x 1).val) :
    (iblk1 V c 1 t : Vec Ideal S512x128 .f32) x = (V c main_v58 : S8192x128.Idx → EReal) i := by
  unfold iblk1
  rw [View.read_apply]
  show V c main_v58 _ = V c main_v58 _
  congr 1
  funext a
  apply Fin.ext
  match a with
  | ⟨0, _⟩ => show win1_1.index t (0 : Fin 2) * 512 + 1 * (x 0).val = (i 0).val; omega
  | ⟨1, _⟩ => show win1_1.index t (1 : Fin 2) * 128 + 1 * (x 1).val = (i 1).val; omega

/-! ## One tile of the result -/

/-- If row `p` of the first block is row `r` of `T` and row `q` of the second is row `s`, the payload's entry `(p, q)` is
    the Gram entry `(r, s)`: the same 128 products, summed. -/
theorem pay1_rows (T : S8192x128.Idx → EReal) (a b : Vec Ideal S512x128 .f32) (r s : Fin 8192) (p q : Fin 512)
    (ha : ∀ k : Fin 128, a (ix2 p k) = T (ix2 r k)) (hb : ∀ k : Fin 128, b (ix2 q k) = T (ix2 s k)) :
    k1_pay1 (F := Ideal) a b (ix2 p q) = Cert.Spec.gram (fun i k => T (ix2 i k)) r s := by
  rw [pay1_apply]
  show Cert.Spec.gramEntry _ _ = Cert.Spec.gramEntry _ _
  unfold Cert.Spec.gramEntry
  refine Finset.sum_congr rfl fun k _ => ?_
  show a (ix2 p k) * b (ix2 q k) = T (ix2 r k) * T (ix2 s k)
  rw [ha k, hb k]

/-- With the first block the rows `512 bi …` of `T` and the second the rows `512 bj …`, the payload's entry `(p, q)` is
    `gramOf T` at the index `(512 bi + p, 512 bj + q)`. -/
theorem pay1_tile (T : S8192x128.Idx → EReal) (a b : Vec Ideal S512x128 .f32) (bi bj : Nat)
    (ha : ∀ (x : S512x128.Idx) (i : S8192x128.Idx), (i 0).val = bi * 512 + (x 0).val → (i 1).val = (x 1).val → a x = T i)
    (hb : ∀ (x : S512x128.Idx) (i : S8192x128.Idx), (i 0).val = bj * 512 + (x 0).val → (i 1).val = (x 1).val → b x = T i)
    (p q : Fin 512) (i : S8192x8192.Idx) (h0 : (i 0).val = bi * 512 + p.val) (h1 : (i 1).val = bj * 512 + q.val) :
    k1_pay1 (F := Ideal) a b (ix2 p q) = gramOf T i := by
  unfold gramOf
  exact pay1_rows T a b _ _ p q (fun k => ha (ix2 p k) (ix2 _ k) h0 rfl) (fun k => hb (ix2 q k) (ix2 _ k) h1 rfl)

/-! ## What a point writes back -/

/-- What grid point `t` writes back is its tile of `gramOf` of the array of rows as the region finds it. -/
theorem flushed1_eq (c : Dev nD) (t : Fin cfg1.N) :
    (dat1 V c).flushed 2 t = ((cfg1.win 2).blk t).view.read (Elt Ideal) (gramOf (V c main_v58)) := by
  show (cfg1.win 2).cut (grid1.coords t) ((dat1 V c).after 2 t) = _
  rw [after1_2]
  unfold out1_2
  rw [View.canon_unit_zero zero_offsets1]
  simp only [View.ld_unit_zero (S := S512x128) zero_offsets1]
  obtain ⟨e0, e1, e2, e3, e4, e5⟩ := block_indices1 t
  funext j
  have hj0 : (j 0).val < 512 := (j 0).isLt
  have hj1 : (j 1).val < 512 := (j 1).isLt
  have hx : (cfg1.win 2).xinj (grid1.coords t) j = ix2 (⟨(j 0).val, hj0⟩ : Fin 512) (⟨(j 1).val, hj1⟩ : Fin 512) := funext fun a => by
    match a with
    | ⟨0, _⟩ => rfl
    | ⟨1, _⟩ => rfl
  show k1_pay1 (F := Ideal) (iblk1 V c 0 t) (iblk1 V c 1 t) ((cfg1.win 2).xinj (grid1.coords t) j) = gramOf (V c main_v58) (((cfg1.win 2).blk t).view.emb j)
  rw [hx]
  refine pay1_tile (V c main_v58) _ _ (win1_2.index t (0 : Fin 2)) (win1_2.index t (1 : Fin 2))
    (fun x i h0 h1 => iblk1_0_apply V c t x i (by rw [e0]; exact h0) (by rw [e1]; omega))
    (fun x i h0 h1 => iblk1_1_apply V c t x i (by rw [e2]; exact h0) (by rw [e3]; omega)) _ _ _ ?_ ?_
  · show win1_2.index t (0 : Fin 2) * 512 + 1 * (j 0).val = win1_2.index t (0 : Fin 2) * 512 + (j 0).val; omega
  · show win1_2.index t (1 : Fin 2) * 512 + 1 * (j 1).val = win1_2.index t (1 : Fin 2) * 512 + (j 1).val; omega

/-! ## The tiles cover the result -/

/-- An index of the result is in point `t`'s tile iff each coordinate is in the tile's range on its axis. -/
theorem mem_blk1 (t : Fin cfg1.N) (i : S8192x8192.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v59).slice (win1_2.rect t)).set ↔ _
  rw [View.set_slice_whole, Rect.mem_set_unit]
  exact Iff.rfl

/-- Every index `(r, s)` of the result is in the tile of the point at block indices `(r / 512, s / 512)`, and every
    point writes back. -/
theorem cover1 (i : S8192x8192.Idx) : ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := tiles_onto1 ⟨(i 0).val / 512, by omega⟩ ⟨(i 1).val / 512, by omega⟩
  have q0 : win1_2.index t (0 : Fin 2) = (i 0).val / 512 := congrFun ht 0
  have q1 : win1_2.index t (1 : Fin 2) = (i 1).val / 512 := congrFun ht 1
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 512 ≤ (i 1).val ∧ (i 1).val < win1_2.index t (1 : Fin 2) * 512 + 512; omega

/-! ## The array after the region -/

/-- The result array after all 256 points is the Gram matrix of the rows of the array the region read. -/
theorem final1 (c : Dev nD) : (dat1 V c).arrAt 2 cfg1.N = gramOf (V c main_v58) :=
  (dat1 V c).arrAt_eq_of_cover 2 (gramOf (V c main_v58)) (fun t _ => flushed1_eq V c t) cover1

/-- Index by index: entry `(i, j)` of the result is row `i` of the region's input array against row `j`. -/
theorem val1 (c : Dev nD) (i j : Fin 8192) :
    ((dat1 V c).arrAt 2 cfg1.N : S8192x8192.Idx → EReal) (ix2 i j)
      = Cert.Spec.gram (fun i k => (V c main_v58 : S8192x128.Idx → EReal) (ix2 i k)) i j := by
  rw [final1]
  rfl

end Cert.ReferenceIdeal.Val

end
-- ==== Proof.HostRI.lean ====
/-
  What the host operations before the first kernel region leave in the four packed weight arrays, read at an index.

  The reference packs the three relations' weights side by side by writing, for each packed array, each relation's
  piece into a zero array: the first-layer weights and the two biases at the relation's columns, the second-layer
  weights at the relation's diagonal block.  Each packed array, read at an index, is the entry `Cert.Spec` gives it;
  the node embeddings are written by no host operation.
-/
import proofs.«100627_g2000204067356750_pallasbulk_973_2_alg».proof.Proof.ReferenceIdeal.Vals
import proofs.«100627_g2000204067356750_pallasbulk_973_2_alg».proof.Proof.Spec
import proofs.«100627_g2000204067356750_pallasbulk_973_2_alg».proof.Proof.LibScatter
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Host

open Idealize.ShloMosaic Idealize.ShloMosaic.TcCoe
open Idealize.ShloMosaic.ValueIdx
open Cert.ReferenceIdeal Cert.ReferenceIdeal.Gen

variable (m : (ℓ : Loc nD τ sig) → Buf (Elt Ideal) ℓ)

/-! ## The pieces the packed arrays are built from -/

/-- A zero array read at an index is `Spec.zero`. -/
theorem zeros_apply {t : Shape} (hb : S_.BroadcastsInDim t (![] : Fin 0 → Fin t.rank)) (j : t.Idx) :
    (broadcastInDim t ![] hb (constant (F := Ideal) S_ .f32 0x00000000#32) : t.Idx → EReal) j = Cert.Spec.zero := rfl

/-- A start index of one literal component: the constant made a one-entry vector. -/
abbrev colIdx (c : BitVec 32) : IVec S1 32 := broadcastInDim S1 ![] bcast_S_S1 (constantI S_ 32 c)

/-- A start index of two literal components: each a constant made a one-entry vector, the two concatenated. -/
abbrev startIdx (r c : BitVec 32) : IVec S2 32 :=
  concatenate S2 0 [⟨S1, broadcastInDim S1 ![] bcast_S_S1 (constantI S_ 32 r)⟩, ⟨S1, broadcastInDim S1 ![] bcast_S_S1 (constantI S_ 32 c)⟩]
    concatenates_S1_S1_S2_d0

/-- One relation's slice of a stacked argument array with its unit axis dropped, read at an index: the relation's entry. -/
theorem slab_apply {P Q : Nat} (r : Fin 3) (hs : (⟨3, ![3, P, Q]⟩ : Shape).Slices ![r.val, 0, 0] ⟨3, ![1, P, Q]⟩)
    (hc : (⟨3, ![1, P, Q]⟩ : Shape).ShapeCasts ⟨2, ![P, Q]⟩) (x : (⟨3, ![3, P, Q]⟩ : Shape).Idx → EReal) (a : Fin P) (b : Fin Q) :
    shapeCast ⟨2, ![P, Q]⟩ (extractStridedSlice ⟨3, ![1, P, Q]⟩ ![r.val, 0, 0] x hs) hc (ix2 a b) = x (ix3 r a b) := by
  refine (shapeCast_apply _ _ (ix2 a b) (ix3 0 a b) ?_).trans ?_
  · rw [Shape.rowMajor_val_three, Shape.rowMajor_val_two]
    show (0 * P + a.val) * Q + b.val = a.val * Q + b.val
    rw [Nat.zero_mul, Nat.zero_add]
  · exact extractStridedSlice_apply _ _ _ (ix3 0 a b) (ix3 r a b)
      (fun e => match e with
        | ⟨0, _⟩ => (Nat.add_zero _).symm
        | ⟨1, _⟩ => (Nat.zero_add _).symm
        | ⟨2, _⟩ => (Nat.zero_add _).symm)

/-! ## The second-layer bias -/

/-- The padded second-layer bias as the host operations build it: a zero row, then each relation's sixteen entries
    written at its columns. -/
theorem b2p_term (c : Dev nD) :
    (V2 m c main_v57 : S1x128.Idx → EReal) =
      Host.scatter scatter_S1x128_S1_S1x16_01_n_1_0 (fun _ b => b)
        (Host.scatter scatter_S1x128_S1_S1x16_01_n_1_0 (fun _ b => b)
          (Host.scatter scatter_S1x128_S1_S1x16_01_n_1_0 (fun _ b => b)
            (broadcastInDim S1x128 ![] bcast_S_S1x128 (constant (F := Ideal) S_ .f32 0x00000000#32))
            (colIdx 0#32)
            (shapeCast S1x16 (extractStridedSlice S1x1x16 ![0, 0, 0] (m ((c : Thread nD τ).loc main_arg4) : S3x1x16.Idx → EReal) slices_S3x1x16_S1x1x16_0_0_0) shapeCasts_S1x1x16_S1x16))
          (colIdx 16#32)
          (shapeCast S1x16 (extractStridedSlice S1x1x16 ![1, 0, 0] (m ((c : Thread nD τ).loc main_arg4) : S3x1x16.Idx → EReal) slices_S3x1x16_S1x1x16_1_0_0) shapeCasts_S1x1x16_S1x16))
        (colIdx 32#32)
        (shapeCast S1x16 (extractStridedSlice S1x1x16 ![2, 0, 0] (m ((c : Thread nD τ).loc main_arg4) : S3x1x16.Idx → EReal) slices_S3x1x16_S1x1x16_2_0_0) shapeCasts_S1x1x16_S1x16) := by
  dsimp only [V2, V1, V0, main_part1_ops0, main_part0_ops0]
  after_results_simp
  rfl

/-- Column `k` of the padded second-layer bias: entry `k % 16` of relation `k / 16` below column 48, zero from there on. -/
theorem b2p_apply (c : Dev nD) (k : Fin 128) :
    (V2 m c main_v57 : S1x128.Idx → EReal) (ix2 0 k)
      = Cert.Spec.b2p (fun r e => (m ((c : Thread nD τ).loc main_arg4) : S3x1x16.Idx → EReal) (ix3 r 0 e)) k := by
  rw [b2p_term]
  unfold Cert.Spec.b2p
  refine (Cert.HostScatter.scatter_winCol_apply _ _ _ _ 32 rfl (by decide) (by decide) 0 k).trans ?_
  by_cases c2 : (0 : Fin 1).val < 1 ∧ (32 ≤ k.val ∧ k.val < 32 + 16)
  · rw [dif_pos c2, dif_pos (by omega)]
    refine (slab_apply 2 _ _ _ _ _).trans (congrArg _ ?_)
    exact funext fun e => match e with
      | ⟨0, _⟩ => Fin.ext (by show 2 = k.val / 16; omega)
      | ⟨1, _⟩ => rfl
      | ⟨2, _⟩ => Fin.ext (by show k.val - 32 = k.val % 16; omega)
  · rw [dif_neg c2]
    refine (Cert.HostScatter.scatter_winCol_apply _ _ _ _ 16 rfl (by decide) (by decide) 0 k).trans ?_
    by_cases c1 : (0 : Fin 1).val < 1 ∧ (16 ≤ k.val ∧ k.val < 16 + 16)
    · rw [dif_pos c1, dif_pos (by omega)]
      refine (slab_apply 1 _ _ _ _ _).trans (congrArg _ ?_)
      exact funext fun e => match e with
        | ⟨0, _⟩ => Fin.ext (by show 1 = k.val / 16; omega)
        | ⟨1, _⟩ => rfl
        | ⟨2, _⟩ => Fin.ext (by show k.val - 16 = k.val % 16; omega)
    · rw [dif_neg c1]
      refine (Cert.HostScatter.scatter_winCol_apply _ _ _ _ 0 rfl (by decide) (by decide) 0 k).trans ?_
      by_cases c0 : (0 : Fin 1).val < 1 ∧ (0 ≤ k.val ∧ k.val < 0 + 16)
      · rw [dif_pos c0, dif_pos (by omega)]
        refine (slab_apply 0 _ _ _ _ _).trans (congrArg _ ?_)
        exact funext fun e => match e with
          | ⟨0, _⟩ => Fin.ext (by show 0 = k.val / 16; omega)
          | ⟨1, _⟩ => rfl
          | ⟨2, _⟩ => Fin.ext (by show k.val - 0 = k.val % 16; omega)
      · rw [dif_neg c0, dif_neg (by have := k.isLt; omega)]
        exact zeros_apply _ _

/-! ## The first-layer weights -/

/-- The packed first-layer weights as the host operations build them: a zero array, then each relation's 32 columns
    written at its columns. -/
theorem w1p_term (c : Dev nD) :
    (V2 m c main_v43 : S512x128.Idx → EReal) =
      Host.scatter scatter_S512x128_S1_S512x32_01_n_1_0 (fun _ b => b)
        (Host.scatter scatter_S512x128_S1_S512x32_01_n_1_0 (fun _ b => b)
          (Host.scatter scatter_S512x128_S1_S512x32_01_n_1_0 (fun _ b => b)
            (broadcastInDim S512x128 ![] bcast_S_S512x128 (constant (F := Ideal) S_ .f32 0x00000000#32))
            (colIdx 0#32)
            (shapeCast S512x32 (extractStridedSlice S1x512x32 ![0, 0, 0] (m ((c : Thread nD τ).loc main_arg1) : S3x512x32.Idx → EReal) slices_S3x512x32_S1x512x32_0_0_0) shapeCasts_S1x512x32_S512x32))
          (colIdx 32#32)
          (shapeCast S512x32 (extractStridedSlice S1x512x32 ![1, 0, 0] (m ((c : Thread nD τ).loc main_arg1) : S3x512x32.Idx → EReal) slices_S3x512x32_S1x512x32_1_0_0) shapeCasts_S1x512x32_S512x32))
        (colIdx 64#32)
        (shapeCast S512x32 (extractStridedSlice S1x512x32 ![2, 0, 0] (m ((c : Thread nD τ).loc main_arg1) : S3x512x32.Idx → EReal) slices_S3x512x32_S1x512x32_2_0_0) shapeCasts_S1x512x32_S512x32) := by
  dsimp only [V2, V1, V0, main_part1_ops0, main_part0_ops0]
  after_results_simp
  rfl

/-- Entry `(d, h)` of the packed first-layer weights: relation `h / 32`'s entry `(d, h % 32)` below column 96, zero
    from there on. -/
theorem w1p_apply (c : Dev nD) (d : Fin 512) (h : Fin 128) :
    (V2 m c main_v43 : S512x128.Idx → EReal) (ix2 d h)
      = Cert.Spec.w1p (fun r d e => (m ((c : Thread nD τ).loc main_arg1) : S3x512x32.Idx → EReal) (ix3 r d e)) d h := by
  rw [w1p_term]
  unfold Cert.Spec.w1p
  refine (Cert.HostScatter.scatter_winCol_apply _ _ _ _ 64 rfl (by decide) (by decide) d h).trans ?_
  by_cases c2 : d.val < 512 ∧ (64 ≤ h.val ∧ h.val < 64 + 32)
  · rw [dif_pos c2, dif_pos (by omega)]
    refine (slab_apply 2 _ _ _ _ _).trans (congrArg _ ?_)
    exact funext fun e => match e with
      | ⟨0, _⟩ => Fin.ext (by show 2 = h.val / 32; omega)
      | ⟨1, _⟩ => rfl
      | ⟨2, _⟩ => Fin.ext (by show h.val - 64 = h.val % 32; omega)
  · rw [dif_neg c2]
    refine (Cert.HostScatter.scatter_winCol_apply _ _ _ _ 32 rfl (by decide) (by decide) d h).trans ?_
    by_cases c1 : d.val < 512 ∧ (32 ≤ h.val ∧ h.val < 32 + 32)
    · rw [dif_pos c1, dif_pos (by omega)]
      refine (slab_apply 1 _ _ _ _ _).trans (congrArg _ ?_)
      exact funext fun e => match e with
        | ⟨0, _⟩ => Fin.ext (by show 1 = h.val / 32; omega)
        | ⟨1, _⟩ => rfl
        | ⟨2, _⟩ => Fin.ext (by show h.val - 32 = h.val % 32; omega)
    · rw [dif_neg c1]
      refine (Cert.HostScatter.scatter_winCol_apply _ _ _ _ 0 rfl (by decide) (by decide) d h).trans ?_
      by_cases c0 : d.val < 512 ∧ (0 ≤ h.val ∧ h.val < 0 + 32)
      · rw [dif_pos c0, dif_pos (by omega)]
        refine (slab_apply 0 _ _ _ _ _).trans (congrArg _ ?_)
        exact funext fun e => match e with
          | ⟨0, _⟩ => Fin.ext (by show 0 = h.val / 32; omega)
          | ⟨1, _⟩ => rfl
          | ⟨2, _⟩ => Fin.ext (by show h.val - 0 = h.val % 32; omega)
      · rw [dif_neg c0, dif_neg (by have := d.isLt; omega)]
        exact zeros_apply _ _

/-! ## The first-layer bias -/

/-- The padded first-layer bias as the host operations build it: a zero row, then each relation's 32 entries written
    at its columns. -/
theorem b1p_term (c : Dev nD) :
    (V2 m c main_v47 : S1x128.Idx → EReal) =
      Host.scatter scatter_S1x128_S1_S1x32_01_n_1_0 (fun _ b => b)
        (Host.scatter scatter_S1x128_S1_S1x32_01_n_1_0 (fun _ b => b)
          (Host.scatter scatter_S1x128_S1_S1x32_01_n_1_0 (fun _ b => b)
            (broadcastInDim S1x128 ![] bcast_S_S1x128 (constant (F := Ideal) S_ .f32 0x00000000#32))
            (colIdx 0#32)
            (shapeCast S1x32 (extractStridedSlice S1x1x32 ![0, 0, 0] (m ((c : Thread nD τ).loc main_arg2) : S3x1x32.Idx → EReal) slices_S3x1x32_S1x1x32_0_0_0) shapeCasts_S1x1x32_S1x32))
          (colIdx 32#32)
          (shapeCast S1x32 (extractStridedSlice S1x1x32 ![1, 0, 0] (m ((c : Thread nD τ).loc main_arg2) : S3x1x32.Idx → EReal) slices_S3x1x32_S1x1x32_1_0_0) shapeCasts_S1x1x32_S1x32))
        (colIdx 64#32)
        (shapeCast S1x32 (extractStridedSlice S1x1x32 ![2, 0, 0] (m ((c : Thread nD τ).loc main_arg2) : S3x1x32.Idx → EReal) slices_S3x1x32_S1x1x32_2_0_0) shapeCasts_S1x1x32_S1x32) := by
  dsimp only [V2, V1, V0, main_part1_ops0, main_part0_ops0]
  after_results_simp
  rfl

/-- Column `h` of the padded first-layer bias: entry `h % 32` of relation `h / 32` below column 96, zero from there on. -/
theorem b1p_apply (c : Dev nD) (h : Fin 128) :
    (V2 m c main_v47 : S1x128.Idx → EReal) (ix2 0 h)
      = Cert.Spec.b1p (fun r e => (m ((c : Thread nD τ).loc main_arg2) : S3x1x32.Idx → EReal) (ix3 r 0 e)) h := by
  rw [b1p_term]
  unfold Cert.Spec.b1p
  refine (Cert.HostScatter.scatter_winCol_apply _ _ _ _ 64 rfl (by decide) (by decide) 0 h).trans ?_
  by_cases c2 : (0 : Fin 1).val < 1 ∧ (64 ≤ h.val ∧ h.val < 64 + 32)
  · rw [dif_pos c2, dif_pos (by omega)]
    refine (slab_apply 2 _ _ _ _ _).trans (congrArg _ ?_)
    exact funext fun e => match e with
      | ⟨0, _⟩ => Fin.ext (by show 2 = h.val / 32; omega)
      | ⟨1, _⟩ => rfl
      | ⟨2, _⟩ => Fin.ext (by show h.val - 64 = h.val % 32; omega)
  · rw [dif_neg c2]
    refine (Cert.HostScatter.scatter_winCol_apply _ _ _ _ 32 rfl (by decide) (by decide) 0 h).trans ?_
    by_cases c1 : (0 : Fin 1).val < 1 ∧ (32 ≤ h.val ∧ h.val < 32 + 32)
    · rw [dif_pos c1, dif_pos (by omega)]
      refine (slab_apply 1 _ _ _ _ _).trans (congrArg _ ?_)
      exact funext fun e => match e with
        | ⟨0, _⟩ => Fin.ext (by show 1 = h.val / 32; omega)
        | ⟨1, _⟩ => rfl
        | ⟨2, _⟩ => Fin.ext (by show h.val - 32 = h.val % 32; omega)
    · rw [dif_neg c1]
      refine (Cert.HostScatter.scatter_winCol_apply _ _ _ _ 0 rfl (by decide) (by decide) 0 h).trans ?_
      by_cases c0 : (0 : Fin 1).val < 1 ∧ (0 ≤ h.val ∧ h.val < 0 + 32)
      · rw [dif_pos c0, dif_pos (by omega)]
        refine (slab_apply 0 _ _ _ _ _).trans (congrArg _ ?_)
        exact funext fun e => match e with
          | ⟨0, _⟩ => Fin.ext (by show 0 = h.val / 32; omega)
          | ⟨1, _⟩ => rfl
          | ⟨2, _⟩ => Fin.ext (by show h.val - 0 = h.val % 32; omega)
      · rw [dif_neg c0, dif_neg (by have := h.isLt; omega)]
        exact zeros_apply _ _

/-! ## The second-layer weights -/

/-- The packed second-layer weights as the host operations build them: a zero array, then each relation's block
    written at its diagonal position. -/
theorem w2p_term (c : Dev nD) :
    (V2 m c main_v53 : S128x128.Idx → EReal) =
      Host.scatter scatter_S128x128_S2_S32x16_01_n_01_0 (fun _ b => b)
        (Host.scatter scatter_S128x128_S2_S32x16_01_n_01_0 (fun _ b => b)
          (Host.scatter scatter_S128x128_S2_S32x16_01_n_01_0 (fun _ b => b)
            (broadcastInDim S128x128 ![] bcast_S_S128x128 (constant (F := Ideal) S_ .f32 0x00000000#32))
            (startIdx 0#32 0#32)
            (shapeCast S32x16 (extractStridedSlice S1x32x16 ![0, 0, 0] (m ((c : Thread nD τ).loc main_arg3) : S3x32x16.Idx → EReal) slices_S3x32x16_S1x32x16_0_0_0) shapeCasts_S1x32x16_S32x16))
          (startIdx 32#32 16#32)
          (shapeCast S32x16 (extractStridedSlice S1x32x16 ![1, 0, 0] (m ((c : Thread nD τ).loc main_arg3) : S3x32x16.Idx → EReal) slices_S3x32x16_S1x32x16_1_0_0) shapeCasts_S1x32x16_S32x16))
        (startIdx 64#32 32#32)
        (shapeCast S32x16 (extractStridedSlice S1x32x16 ![2, 0, 0] (m ((c : Thread nD τ).loc main_arg3) : S3x32x16.Idx → EReal) slices_S3x32x16_S1x32x16_2_0_0) shapeCasts_S1x32x16_S32x16) := by
  dsimp only [V2, V1, V0, main_part1_ops0, main_part0_ops0]
  after_results_simp
  rfl

/-- Entry `(h, k)` of the packed second-layer weights: block `h / 32` sits at rows `32 (h / 32) …`, columns
    `16 (h / 32) …`; everything off the three blocks is zero. -/
theorem w2p_apply (c : Dev nD) (h k : Fin 128) :
    (V2 m c main_v53 : S128x128.Idx → EReal) (ix2 h k)
      = Cert.Spec.w2p (fun r a b => (m ((c : Thread nD τ).loc main_arg3) : S3x32x16.Idx → EReal) (ix3 r a b)) h k := by
  rw [w2p_term]
  unfold Cert.Spec.w2p
  refine (Cert.HostScatter.scatter_win2_apply _ _ _ _ 64 32 rfl rfl (by decide) (by decide) h k).trans ?_
  by_cases c2 : (64 ≤ h.val ∧ h.val < 64 + 32) ∧ (32 ≤ k.val ∧ k.val < 32 + 16)
  · rw [dif_pos c2, dif_pos (by omega)]
    refine (slab_apply 2 _ _ _ _ _).trans (congrArg _ ?_)
    exact funext fun e => match e with
      | ⟨0, _⟩ => Fin.ext (by show 2 = h.val / 32; omega)
      | ⟨1, _⟩ => Fin.ext (by show h.val - 64 = h.val % 32; omega)
      | ⟨2, _⟩ => Fin.ext (by show k.val - 32 = k.val % 16; omega)
  · rw [dif_neg c2]
    refine (Cert.HostScatter.scatter_win2_apply _ _ _ _ 32 16 rfl rfl (by decide) (by decide) h k).trans ?_
    by_cases c1 : (32 ≤ h.val ∧ h.val < 32 + 32) ∧ (16 ≤ k.val ∧ k.val < 16 + 16)
    · rw [dif_pos c1, dif_pos (by omega)]
      refine (slab_apply 1 _ _ _ _ _).trans (congrArg _ ?_)
      exact funext fun e => match e with
        | ⟨0, _⟩ => Fin.ext (by show 1 = h.val / 32; omega)
        | ⟨1, _⟩ => Fin.ext (by show h.val - 32 = h.val % 32; omega)
        | ⟨2, _⟩ => Fin.ext (by show k.val - 16 = k.val % 16; omega)
    · rw [dif_neg c1]
      refine (Cert.HostScatter.scatter_win2_apply _ _ _ _ 0 0 rfl rfl (by decide) (by decide) h k).trans ?_
      by_cases c0 : (0 ≤ h.val ∧ h.val < 0 + 32) ∧ (0 ≤ k.val ∧ k.val < 0 + 16)
      · rw [dif_pos c0, dif_pos (by omega)]
        refine (slab_apply 0 _ _ _ _ _).trans (congrArg _ ?_)
        exact funext fun e => match e with
          | ⟨0, _⟩ => Fin.ext (by show 0 = h.val / 32; omega)
          | ⟨1, _⟩ => Fin.ext (by show h.val - 0 = h.val % 32; omega)
          | ⟨2, _⟩ => Fin.ext (by show k.val - 0 = k.val % 16; omega)
      · rw [dif_neg c0, dif_neg (by omega)]
        exact zeros_apply _ _

/-! ## The node embeddings -/

/-- No host operation writes the node embeddings. -/
theorem z_keep (c : Dev nD) : V2 m c main_arg0 = m ((c : Thread nD τ).loc main_arg0) := V2_main_arg0 m c

end Cert.ReferenceIdeal.Host

end
-- ==== Proof.ReferenceIdeal.Whole.lean ====
/-
  The reference's result as one function of its five argument arrays.

  The run ends with the result array at what the second pipeline leaves.  That is the Gram matrix of the rows of the
  array the second pipeline read; this array is what the first pipeline leaves, the two-layer perceptron of every row
  of z at the weights and biases the first pipeline read; and those are what the host operations before it pack
  from the per-relation weights and biases, with z itself untouched.  Composed, entry (i, j) of the result is the
  specification's function of the five arguments.
-/
import proofs.«100627_g2000204067356750_pallasbulk_973_2_alg».proof.Proof.ReferenceIdeal.Run
import proofs.«100627_g2000204067356750_pallasbulk_973_2_alg».proof.Proof.ReferenceIdeal.Val0
import proofs.«100627_g2000204067356750_pallasbulk_973_2_alg».proof.Proof.ReferenceIdeal.Val1
import proofs.«100627_g2000204067356750_pallasbulk_973_2_alg».proof.Proof.HostRI
import proofs.«100627_g2000204067356750_pallasbulk_973_2_alg».proof.Proof.Spec
import Idealize.ShloMosaic.Lib.ValueIdx

set_option maxRecDepth 16384

noncomputable section

namespace Cert.ReferenceIdeal.Whole

open Idealize.ShloMosaic Idealize.ShloMosaic.TcCoe Idealize.ShloMosaic.ValueIdx Idealize.SL.Sem
open Cert.ReferenceIdeal Cert.ReferenceIdeal.Gen Cert.ReferenceIdeal.Reg

variable (m : (ℓ : Loc nD τ sig) → Buf (Elt Ideal) ℓ) (c : Dev nD)

/-- The array of T the second region is entered with is the perceptron of every row of z at the packed weights. -/
theorem t_rows (i : Fin 8192) (k : Fin 128) :
    (U3 m c main_v58 : S8192x128.Idx → EReal) (ix2 i k)
      = Cert.Spec.T (fun i d => (m ((c : Thread nD τ).loc main_arg0) : S8192x512.Idx → EReal) (ix2 i d))
          (Cert.Spec.w1p fun r d e => (m ((c : Thread nD τ).loc main_arg1) : S3x512x32.Idx → EReal) (ix3 r d e))
          (Cert.Spec.b1p fun r e => (m ((c : Thread nD τ).loc main_arg2) : S3x1x32.Idx → EReal) (ix3 r 0 e))
          (Cert.Spec.w2p fun r a b => (m ((c : Thread nD τ).loc main_arg3) : S3x32x16.Idx → EReal) (ix3 r a b))
          (Cert.Spec.b2p fun r e => (m ((c : Thread nD τ).loc main_arg4) : S3x1x16.Idx → EReal) (ix3 r 0 e)) i k := by
  refine (congrFun (W3_arr m c 5) (ix2 i k)).trans ?_
  refine (Cert.ReferenceIdeal.Val.val0 (U2 m) c i k).trans ?_
  have hz : (fun (i : Fin 8192) (d : Fin 512) => (U2 m c main_arg0 : S8192x512.Idx → EReal) (ix2 i d))
      = fun i d => (m ((c : Thread nD τ).loc main_arg0) : S8192x512.Idx → EReal) (ix2 i d) :=
    funext fun i => funext fun d => congrFun (Cert.ReferenceIdeal.Host.V2_main_arg0 m c) (ix2 i d)
  have hw1 : (fun (d : Fin 512) (h : Fin 128) => (U2 m c main_v43 : S512x128.Idx → EReal) (ix2 d h))
      = Cert.Spec.w1p fun r d e => (m ((c : Thread nD τ).loc main_arg1) : S3x512x32.Idx → EReal) (ix3 r d e) :=
    funext fun d => funext fun h => Cert.ReferenceIdeal.Host.w1p_apply m c d h
  have hb1 : (fun (h : Fin 128) => (U2 m c main_v47 : S1x128.Idx → EReal) (ix2 0 h))
      = Cert.Spec.b1p fun r e => (m ((c : Thread nD τ).loc main_arg2) : S3x1x32.Idx → EReal) (ix3 r 0 e) :=
    funext fun h => Cert.ReferenceIdeal.Host.b1p_apply m c h
  have hw2 : (fun (h k : Fin 128) => (U2 m c main_v53 : S128x128.Idx → EReal) (ix2 h k))
      = Cert.Spec.w2p fun r a b => (m ((c : Thread nD τ).loc main_arg3) : S3x32x16.Idx → EReal) (ix3 r a b) :=
    funext fun h => funext fun k => Cert.ReferenceIdeal.Host.w2p_apply m c h k
  have hb2 : (fun (k : Fin 128) => (U2 m c main_v57 : S1x128.Idx → EReal) (ix2 0 k))
      = Cert.Spec.b2p fun r e => (m ((c : Thread nD τ).loc main_arg4) : S3x1x16.Idx → EReal) (ix3 r 0 e) :=
    funext fun k => Cert.ReferenceIdeal.Host.b2p_apply m c k
  rw [hz, hw1, hb1, hw2, hb2]

/-- The result array the run ends with is the specification's function of the five argument arrays. -/
theorem result_eq (m : (ℓ : Loc nD τ sig) → Buf (Elt Ideal) ℓ) (c : Dev nD) :
    ((dat1 (U3 m) c).arrAt 2 cfg1.N : S8192x8192.Idx → EReal)
      = fun j => Cert.Spec.result (fun i d => (m ((c : Thread nD τ).loc main_arg0) : S8192x512.Idx → EReal) (ix2 i d))
          (fun r d e => (m ((c : Thread nD τ).loc main_arg1) : S3x512x32.Idx → EReal) (ix3 r d e))
          (fun r e => (m ((c : Thread nD τ).loc main_arg2) : S3x1x32.Idx → EReal) (ix3 r 0 e))
          (fun r a b => (m ((c : Thread nD τ).loc main_arg3) : S3x32x16.Idx → EReal) (ix3 r a b))
          (fun r e => (m ((c : Thread nD τ).loc main_arg4) : S3x1x16.Idx → EReal) (ix3 r 0 e)) (j 0) (j 1) := by
  funext j
  obtain ⟨i, i', rfl⟩ : ∃ (i i' : Fin 8192), j = ix2 i i' := ⟨j 0, j 1, eq_ix2 j⟩
  refine (Cert.ReferenceIdeal.Val.val1 (U3 m) c i i').trans ?_
  have hT : (fun (i : Fin 8192) (k : Fin 128) => (U3 m c main_v58 : S8192x128.Idx → EReal) (ix2 i k))
      = Cert.Spec.T (fun i d => (m ((c : Thread nD τ).loc main_arg0) : S8192x512.Idx → EReal) (ix2 i d))
          (Cert.Spec.w1p fun r d e => (m ((c : Thread nD τ).loc main_arg1) : S3x512x32.Idx → EReal) (ix3 r d e))
          (Cert.Spec.b1p fun r e => (m ((c : Thread nD τ).loc main_arg2) : S3x1x32.Idx → EReal) (ix3 r 0 e))
          (Cert.Spec.w2p fun r a b => (m ((c : Thread nD τ).loc main_arg3) : S3x32x16.Idx → EReal) (ix3 r a b))
          (Cert.Spec.b2p fun r e => (m ((c : Thread nD τ).loc main_arg4) : S3x1x16.Idx → EReal) (ix3 r 0 e)) :=
    funext fun i => funext fun k => t_rows m c i k
  rw [hT]
  rfl

end Cert.ReferenceIdeal.Whole

end
-- ==== Proof.lean ====
/-
  The five claims of this certificate.

  Three say that a program runs: from any launch memory with zero counters, every weakly fair execution of the
  program as printed, of the same text read at the extended reals, and of the reference read at the extended reals
  terminates without a fault and leaves the five argument arrays as launched.  Each program is a stretch of host
  operations followed by two pipelined regions, and nothing in it writes an argument array; the run theorem of
  each program says this and also names the final contents of the result array, which these three claims drop.

  The fourth, that the kernel read at the extended reals is the kernel's sanctioned idealization, holds trivially:
  no operation was rewritten.

  The fifth says that at the extended reals the kernel and the reference, started from memories that agree on the
  arguments, end with equal results and unchanged arguments.  Both result arrays are one and the same function of
  the five arguments, the Gram matrix out i j = ∑ k, T i k * T j k of the rows
  T i = leaky (leaky (z i · W₁ + b₁) · W₂ + b₂) at the packed weights and biases: the kernel computes it in blocks
  of 1024 rows and the reference in blocks of 512, and neither the blocking nor the kernel's narrowing of T changes
  a value at the extended reals.
-/
import proofs.«100627_g2000204067356750_pallasbulk_973_2_alg».proof.Defs
import proofs.«100627_g2000204067356750_pallasbulk_973_2_alg».proof.Proof.Gen.Kernel
import proofs.«100627_g2000204067356750_pallasbulk_973_2_alg».proof.Proof.Gen.KernelIdeal
import proofs.«100627_g2000204067356750_pallasbulk_973_2_alg».proof.Proof.Gen.ReferenceIdeal
import proofs.«100627_g2000204067356750_pallasbulk_973_2_alg».proof.Proof.Gen.Pre_finite_inputs
import proofs.«100627_g2000204067356750_pallasbulk_973_2_alg».proof.Proof.Kernel.Run
import proofs.«100627_g2000204067356750_pallasbulk_973_2_alg».proof.Proof.KernelIdeal.Run
import proofs.«100627_g2000204067356750_pallasbulk_973_2_alg».proof.Proof.ReferenceIdeal.Run
import proofs.«100627_g2000204067356750_pallasbulk_973_2_alg».proof.Proof.KernelIdeal.Whole
import proofs.«100627_g2000204067356750_pallasbulk_973_2_alg».proof.Proof.ReferenceIdeal.Whole
import proofs.«100627_g2000204067356750_pallasbulk_973_2_alg».proof.Proof.Spec
import Idealize.ShloMosaic.Lib.ValueIdx
import Idealize.ShloMosaic.Adequacy
import Idealize.ShloMosaic.Init

noncomputable section

namespace Cert.Proof

open Idealize.ShloMosaic Idealize.ShloMosaic.ValueIdx Idealize.SL.Sem

/-- The program as printed runs and leaves its five argument arrays as launched. -/
theorem frame_k : Cert.frame_Kernel := fun m ρ _ =>
  (θ_run Cert.Kernel.defs _ _).mono (fun _ h c => (h c).2) (Cert.Kernel.Reg.run_all (F := Bits) m ρ)

/-- So does the same text read at the extended reals. -/
theorem frame_ki : Cert.frame_KernelIdeal := fun m ρ _ =>
  (θ_run Cert.KernelIdeal.defs _ _).mono (fun _ h c => (h c).2) (Cert.KernelIdeal.Reg.run_all (F := Ideal) m ρ)

/-- And so does the reference at the extended reals. -/
theorem frame_ri : Cert.frame_ReferenceIdeal := fun m ρ _ =>
  (θ_run Cert.ReferenceIdeal.defs _ _).mono (fun _ h c => (h c).2) (Cert.ReferenceIdeal.Reg.run_all (F := Ideal) m ρ)

/-- At the extended reals both programs end with the Gram matrix of the perceptron's rows, one function of the five
    argument arrays; from arguments that agree the two results are equal. -/
theorem algebraic : Cert.algebraic_KernelIdeal_ReferenceIdeal := by
  intro m ρ m' ρ' _ hagree
  refine ⟨fun c => (fun j => Cert.Spec.result
      (fun i d => (m ((c.tc : Thread Cert.KernelIdeal.nD Cert.KernelIdeal.τ).loc Cert.KernelIdeal.main_arg0) : Cert.KernelIdeal.S8192x512.Idx → EReal) (ix2 i d))
      (fun r d e => (m ((c.tc : Thread Cert.KernelIdeal.nD Cert.KernelIdeal.τ).loc Cert.KernelIdeal.main_arg1) : Cert.KernelIdeal.S3x512x32.Idx → EReal) (ix3 r d e))
      (fun r e => (m ((c.tc : Thread Cert.KernelIdeal.nD Cert.KernelIdeal.τ).loc Cert.KernelIdeal.main_arg2) : Cert.KernelIdeal.S3x1x32.Idx → EReal) (ix3 r 0 e))
      (fun r a b => (m ((c.tc : Thread Cert.KernelIdeal.nD Cert.KernelIdeal.τ).loc Cert.KernelIdeal.main_arg3) : Cert.KernelIdeal.S3x32x16.Idx → EReal) (ix3 r a b))
      (fun r e => (m ((c.tc : Thread Cert.KernelIdeal.nD Cert.KernelIdeal.τ).loc Cert.KernelIdeal.main_arg4) : Cert.KernelIdeal.S3x1x16.Idx → EReal) (ix3 r 0 e)) (j 0) (j 1) :
        Cert.KernelIdeal.S8192x8192.Idx → EReal), ?_, ?_⟩
  · exact (θ_run Cert.KernelIdeal.defs _ _).mono
      (fun _ h c => ⟨(h c).1.trans (Cert.KernelIdeal.Whole.result_eq m c), (h c).2⟩)
      (Cert.KernelIdeal.Reg.run_all (F := Ideal) m ρ)
  · refine (θ_run Cert.ReferenceIdeal.defs _ _).mono
      (fun _ h c => ⟨(h c).1.trans ((Cert.ReferenceIdeal.Whole.result_eq m' c).trans ?_), (h c).2⟩)
      (Cert.ReferenceIdeal.Reg.run_all (F := Ideal) m' ρ')
    rw [(hagree c).1, (hagree c).2.1, (hagree c).2.2.1, (hagree c).2.2.2.1, (hagree c).2.2.2.2]
    rfl

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
